-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096x256 : Shape := ⟨3, ![128, 4096, 256]⟩
abbrev S256 : Shape := ⟨1, ![256]⟩
abbrev S256x256 : Shape := ⟨2, ![256, 256]⟩
abbrev S1x1x256 : Shape := ⟨3, ![1, 1, 256]⟩
abbrev S_ : Shape := ⟨0, ![]⟩

class Facts : Prop where
  bcast_S_S128x4096x256 : S_.BroadcastsInDim S128x4096x256 (![] : Fin 0 → Fin S128x4096x256.rank)
  reducesTo_S128x4096x256_S_d0_1_2 : S128x4096x256.ReducesTo [0, 1, 2] S_
  h_S_ : 0 < S_.numel
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x1x256 : S_.BroadcastsInDim S1x1x256 (![] : Fin 0 → Fin S1x1x256.rank)
  reducesTo_S1x1x256_S_d0_1_2 : S1x1x256.ReducesTo [0, 1, 2] S_

variable [Facts]

def fn_part4 {F : FTy → Type} [FloatOps F] (main_arg14 : FVec F S1x1x256 .f32) (main_v63 : IVec S_ 1) (main_v67 : IVec S_ 1) : IVec S_ 1 :=
  let main_v68 : IVec S_ 1 := andi main_v63 main_v67
  let main_v69 : FVec F S1x1x256 .f32 := Host.absf main_arg14
  let main_cst_26 : FVec F S_ .f32 := constant S_ .f32 0x7F800000#32
  let main_v70 : FVec F S1x1x256 .f32 := broadcastInDim S1x1x256 ![] bcast_S_S1x1x256 main_cst_26
  let main_v71 : IVec S1x1x256 1 := cmpf .olt main_v69 main_v70
  let main_c_27 : IVec S_ 1 := constantI S_ 1 1#1
  let main_v72 : IVec S_ 1 := (fun x v => Host.reduce IntOp.andi x v reducesTo_S1x1x256_S_d0_1_2 h_S_) main_v71 main_c_27
  let main_v73 : IVec S_ 1 := andi main_v68 main_v72
  main_v73

def fn_part3 {F : FTy → Type} [FloatOps F] (main_arg11 : FVec F S256x256 .f32) (main_arg12 : FVec F S256 .f32) (main_arg13 : FVec F S1x1x256 .f32) (main_arg14 : FVec F S1x1x256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S1x1x256 .f32 := Host.absf main_arg13
  let main_cst_24 : FVec F S_ .f32 := constant S_ .f32 0x7F800000#32
  let main_v65 : FVec F S1x1x256 .f32 := broadcastInDim S1x1x256 ![] bcast_S_S1x1x256 main_cst_24
  let main_v66 : IVec S1x1x256 1 := cmpf .olt main_v64 main_v65
  let main_c_25 : IVec S_ 1 := constantI S_ 1 1#1
  let main_v67 : IVec S_ 1 := (fun x v => Host.reduce IntOp.andi x v reducesTo_S1x1x256_S_d0_1_2 h_S_) main_v66 main_c_25
  fn_part4 (F := F) main_arg14 main_v63 main_v67

def fn_part2 {F : FTy → Type} [FloatOps F] (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S1x1x256 .f32) (main_arg14 : FVec F S1x1x256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S1x1x256 .f32) (main_arg14 : FVec F S1x1x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S128x4096x256 .f32) (main_arg1 : FVec F S128x4096x256 .f32) (main_arg2 : FVec F S128x4096x256 .f32) (main_arg3 : FVec F S256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S1x1x256 .f32) (main_arg14 : FVec F S1x1x256 .f32) : IVec S_ 1 :=
  let main_v0 : FVec F S128x4096x256 .f32 := Host.absf main_arg0
  let main_cst : FVec F S_ .f32 := constant S_ .f32 0x7F800000#32
  let main_v1 : FVec F S128x4096x256 .f32 := broadcastInDim S128x4096x256 ![] bcast_S_S128x4096x256 main_cst
  let main_v2 : IVec S128x4096x256 1 := cmpf .olt main_v0 main_v1
  let main_c : IVec S_ 1 := constantI S_ 1 1#1
  let main_v3 : IVec S_ 1 := (fun x v => Host.reduce IntOp.andi x v reducesTo_S128x4096x256_S_d0_1_2 h_S_) main_v2 main_c
  let main_v4 : FVec F S128x4096x256 .f32 := Host.absf main_arg1
  let main_cst_0 : FVec F S_ .f32 := constant S_ .f32 0x7F800000#32
  let main_v5 : FVec F S128x4096x256 .f32 := broadcastInDim S128x4096x256 ![] bcast_S_S128x4096x256 main_cst_0
  let main_v6 : IVec S128x4096x256 1 := cmpf .olt main_v4 main_v5
  let main_c_1 : IVec S_ 1 := constantI S_ 1 1#1
  let main_v7 : IVec S_ 1 := (fun x v => Host.reduce IntOp.andi x v reducesTo_S128x4096x256_S_d0_1_2 h_S_) main_v6 main_c_1
  let main_v8 : IVec S_ 1 := andi main_v3 main_v7
  let main_v9 : FVec F S128x4096x256 .f32 := Host.absf main_arg2
  let main_cst_2 : FVec F S_ .f32 := constant S_ .f32 0x7F800000#32
  let main_v10 : FVec F S128x4096x256 .f32 := broadcastInDim S128x4096x256 ![] bcast_S_S128x4096x256 main_cst_2
  let main_v11 : IVec S128x4096x256 1 := cmpf .olt main_v9 main_v10
  let main_c_3 : IVec S_ 1 := constantI S_ 1 1#1
  let main_v12 : IVec S_ 1 := (fun x v => Host.reduce IntOp.andi x v reducesTo_S128x4096x256_S_d0_1_2 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S128x4096x256 : Shape := ⟨3, ![128, 4096, 256]⟩
abbrev S256 : Shape := ⟨1, ![256]⟩
abbrev S256x256 : Shape := ⟨2, ![256, 256]⟩
abbrev S1x1x256 : Shape := ⟨3, ![1, 1, 256]⟩
abbrev S128x3x256 : Shape := ⟨3, ![128, 3, 256]⟩
abbrev S1x4096x256 : Shape := ⟨3, ![1, 4096, 256]⟩
abbrev S1x3x256 : Shape := ⟨3, ![1, 3, 256]⟩
abbrev S1x512x256 : Shape := ⟨3, ![1, 512, 256]⟩
abbrev S1x256 : Shape := ⟨2, ![1, 256]⟩
abbrev S128x3x4 : Shape := ⟨3, ![128, 3, 4]⟩
abbrev S128x3 : Shape := ⟨2, ![128, 3]⟩
abbrev S128x3x1 : Shape := ⟨3, ![128, 3, 1]⟩
abbrev S128x256 : Shape := ⟨2, ![128, 256]⟩
abbrev S128x1x256 : Shape := ⟨3, ![128, 1, 256]⟩
abbrev S128x4x64 : Shape := ⟨3, ![128, 4, 64]⟩
abbrev S128x4 : Shape := ⟨2, ![128, 4]⟩
abbrev S128 : Shape := ⟨1, ![128]⟩
abbrev S128x1 : Shape := ⟨2, ![128, 1]⟩
abbrev S128x1x4 : Shape := ⟨3, ![128, 1, 4]⟩
abbrev S128x4x1 : Shape := ⟨3, ![128, 4, 1]⟩

abbrev nBuf : Space → Nat
  | .hbm => 30
  | .vmem => 23
  | .smem => 0
  | _ => 0

abbrev bufTy : (tb : Table) → Fin (tcTables nBuf tb) → BufTy
  | .hbm, ⟨0, _⟩ => ⟨S128x4096x256, .f32⟩
  | .hbm, ⟨1, _⟩ => ⟨S128x4096x256, .f32⟩
  | .hbm, ⟨2, _⟩ => ⟨S128x4096x256, .f32⟩
  | .hbm, ⟨3, _⟩ => ⟨S256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S1x1x256, .f32⟩
  | .hbm, ⟨14, _⟩ => ⟨S1x1x256, .f32⟩
  | .hbm, ⟨15, _⟩ => ⟨S128x3x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S256x256, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S128x3x256, .f32⟩
  | .hbm, ⟨29, _⟩ => ⟨S128x3x4, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x3x256, .f32⟩
  | .local _ .vmem, ⟨7, _⟩ => ⟨S1x3x256, .f32⟩
  | .local _ .vmem, ⟨8, _⟩ => ⟨S128x3x256, .f32⟩
  | .local _ .vmem, ⟨9, _⟩ => ⟨S1x256, .f32⟩
  | .local _ .vmem, ⟨10, _⟩ => ⟨S1x256, .f32⟩
  | .local _ .vmem, ⟨11, _⟩ => ⟨S256x256, .f32⟩
  | .local _ .vmem, ⟨12, _⟩ => ⟨S1x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S1x256, .f32⟩
  | .local _ .vmem, ⟨17, _⟩ => ⟨S256x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S128x3x256, .f32⟩
  | .local _ .vmem, ⟨22, _⟩ => ⟨S128x3x4, .f32⟩
  | _, _ => ⟨S128x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg13_0 : Ref sig .tc := ⟨.vmem, 21, rfl⟩
abbrev cc1_stg14_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem14_0 : DmaSem sig := 22

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v11 : BitVec 32 := Scalar.muli arg5 c512_i32
  v11
def k0_off1 (k0_t1 : Fin k0_t1_loop.trips) : Fin 3 → Nat :=
  let c0_6 : Index := 0#32
  let c0_i32 : BitVec 32 := 0#32
  let c1_i32 : BitVec 32 := 1#32
  let arg5 : BitVec 32 := Scf.iv c0_i32 c1_i32 k0_t1
  let c512_i32 : BitVec 32 := 512#32
  let v11 : BitVec 32 := Scalar.muli arg5 c512_i32
  let v12 : BitVec 32 := v11
  let v13 : Index := Scalar.indexCast v12
  let c0_7 : Index := 0#32
  ![0, v13.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .vmem S128x3x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128x3x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S128x3x4 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

class Facts₀ : Prop where
  h_S1x512x256 : 0 < S1x512x256.numel
  reduces_S1x512x256_S1x256 : S1x512x256.Reduces [1] S1x256
  shapeCasts_S1x256_S1x1x256 : S1x256.ShapeCasts S1x1x256
  concatenates_S1x1x256_S1x1x256_S1x1x256_S1x3x256_d1 : Shape.Concatenates [S1x1x256, S1x1x256, S1x1x256] S1x3x256 1
  inb_S1x3x256_S1x3x256_0_0_0 : ∀ a, (![0, 0, 0] : Fin 3 → Nat) a + S1x3x256.size a ≤ S1x3x256.size a
  h_S1x3x256 : 0 < S1x3x256.numel
  shapeCasts_S256_S1x256 : S256.ShapeCasts S1x256
  shapeCasts_S1x1x256_S1x256 : S1x1x256.ShapeCasts S1x256
  transposes_S256x256_S256x256_1_0 : S256x256.Transposes [1, 0] S256x256
  inb_S128x3x256_S128x3x256_0_0_0 : ∀ a, (![0, 0, 0] : Fin 3 → Nat) a + S128x3x256.size a ≤ S128x3x256.size a
  h_S128x3x256 : 0 < S128x3x256.numel
  shapeCasts_S128x3x256_S128x3x256 : S128x3x256.ShapeCasts S128x3x256
  reduces_S128x3x256_S128x3 : S128x3x256.Reduces [2] S128x3
  shapeCasts_S128x3_S128x3x1 : S128x3.ShapeCasts S128x3x1
  broadcasts_S128x3x1_S128x3x256 : S128x3x1.Broadcasts S128x3x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x1x256_S128x3x256 : S1x1x256.Broadcasts S128x3x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S128x256 : S1x256.Broadcasts S128x256
  slices_S128x3x256_o0_0_0_S128x1x256 : S128x3x256.Slices ![0, 0, 0] S128x1x256
  shapeCasts_S128x1x256_S128x256 : S128x1x256.ShapeCasts S128x256
  slices_S128x3x256_o0_1_0_S128x1x256 : S128x3x256.Slices ![0, 1, 0] S128x1x256
  slices_S128x3x256_o0_2_0_S128x1x256 : S128x3x256.Slices ![0, 2, 0] S128x1x256
  shapeCasts_S128x256_S128x4x64 : S128x256.ShapeCasts S128x4x64
  reduces_S128x4x64_S128x4 : S128x4x64.Reduces [2] S128x4
  reduces_S128x4_S128 : S128x4.Reduces [1] S128
  shapeCasts_S128_S128x1 : S128.ShapeCasts S128x1
  concatenates_S128x1_S128x1_S128x1_S128x1_S128x4_d1 : Shape.Concatenates [S128x1, S128x1, S128x1, S128x1] S128x4 1
  shapeCasts_S128x4_S128x1x4 : S128x4.ShapeCasts S128x1x4
  shapeCasts_S128x4_S128x4x1 : S128x4.ShapeCasts S128x4x1
  broadcasts_S128x4x1_S128x4x64 : S128x4x1.Broadcasts S128x4x64
  shapeCasts_S128x4x64_S128x256 : S128x4x64.ShapeCasts S128x256
  shapeCasts_S128x256_S128x1x256 : S128x256.ShapeCasts S128x1x256
  concatenates_S128x1x256_S128x1x256_S128x1x256_S128x3x256_d1 : Shape.Concatenates [S128x1x256, S128x1x256, S128x1x256] S128x3x256 1
  concatenates_S128x1x4_S128x1x4_S128x1x4_S128x3x4_d1 : Shape.Concatenates [S128x1x4, S128x1x4, S128x1x4] S128x3x4 1
  inb_S128x3x4_S128x3x4_0_0_0 : ∀ a, (![0, 0, 0] : Fin 3 → Nat) a + S128x3x4.size a ≤ S128x3x4.size a
  h_S128x3x4 : 0 < S128x3x4.numel
  dot_S128x256_S256x256_S128x256_1_0_0_1_n_n_wf : DotDims.WF S128x256 S256x256 S128x256 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x512x256.size a ≤ S1x4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S128x4096x256.size a
  hwx0_0 : ∀ i : grid0.Coords, EltTy.bits .f32 = 32 ∨ (Rect.block (s := S128x4096x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S128x4096x256.size a
  hwx0_1 : ∀ i : grid0.Coords, EltTy.bits .f32 = 32 ∨ (Rect.block (s := S128x4096x256) S1x4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S128x4096x256.size a
  hwx0_2 : ∀ i : grid0.Coords, EltTy.bits .f32 = 32 ∨ (Rect.block (s := S128x4096x256) S1x4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x256.size a ≤ S128x3x256.size a
  hwx0_3 : ∀ i : grid0.Coords, EltTy.bits .f32 = 32 ∨ (Rect.block (s := S128x3x256) S1x3x256.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x3x256.size a ≤ S128x3x256.size a
  hwx1_0 : ∀ i : grid1.Coords, EltTy.bits .f32 = 32 ∨ (Rect.block (s := S128x3x256) S128x3x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x256.size a ≤ S256x256.size a
  hwx1_9 : ∀ i : grid1.Coords, EltTy.bits .f32 = 32 ∨ (Rect.block (s := S256x256) S256x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x256.size a ≤ S1x256.size a
  hwx1_12 : ∀ i : grid1.Coords, EltTy.bits .f32 = 32 ∨ (Rect.block (s := S1x256) S1x256.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128x3x256.size a ≤ S128x3x256.size a
  hwx1_13 : ∀ i : grid1.Coords, EltTy.bits .f32 = 32 ∨ (Rect.block (s := S128x3x256) S128x3x256.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S128x3x4.size a ≤ S128x3x4.size a
  hwx1_14 : ∀ i : grid1.Coords, EltTy.bits .f32 = 32 ∨ (Rect.block (s := S128x3x4) S128x3x4.size (cc1_transform_14 i) (hinb1_14 i)).WholeWords (EltTy.packing .f32)

variable [Facts₀]

def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x3x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S128x3x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v5) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v12) S256x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v6) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v7) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v8) S1x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v13_0) S128x3x256.size cc1_transform_13 reads1_13 true true 1 stage1_13 sem1_13
    hrank1 hreads1_13 hinb1_13 nbuf1_13 (Memref.isWhole_whole _) hwx1_13 hstage1_13

abbrev win1_14 : Pipeline.Window sig grid1 :=
  Pipeline.Window.ofSpec (Memref.whole main_v13_1) S128x3x4.size cc1_transform_14 reads1_14 true true 1 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S128x4096x256 : Shape := ⟨3, ![128, 4096, 256]⟩
abbrev S256 : Shape := ⟨1, ![256]⟩
abbrev S256x256 : Shape := ⟨2, ![256, 256]⟩
abbrev S1x1x256 : Shape := ⟨3, ![1, 1, 256]⟩
abbrev S_ : Shape := ⟨0, ![]⟩
abbrev S128x256 : Shape := ⟨2, ![128, 256]⟩
abbrev S128x1x256 : Shape := ⟨3, ![128, 1, 256]⟩
abbrev S128x3x256 : Shape := ⟨3, ![128, 3, 256]⟩
abbrev S128x3 : Shape := ⟨2, ![128, 3]⟩
abbrev S128x3x1 : Shape := ⟨3, ![128, 3, 1]⟩
abbrev S128x4x256 : Shape := ⟨3, ![128, 4, 256]⟩
abbrev S128x3x4x64 : Shape := ⟨4, ![128, 3, 4, 64]⟩
abbrev S128x4x3x64 : Shape := ⟨4, ![128, 4, 3, 64]⟩
abbrev S128x4x4x64 : Shape := ⟨4, ![128, 4, 4, 64]⟩
abbrev S128x4x3x4 : Shape := ⟨4, ![128, 4, 3, 4]⟩
abbrev S128x4x3 : Shape := ⟨3, ![128, 4, 3]⟩
abbrev S128x4x3x1 : Shape := ⟨4, ![128, 4, 3, 1]⟩
abbrev S128x3x4 : Shape := ⟨3, ![128, 3, 4]⟩

abbrev nBuf : Space → Nat
  | .hbm => 116
  | .vmem => 0
  | .smem => 0
  | _ => 0

abbrev bufTy : (tb : Table) → Fin (tcTables nBuf tb) → BufTy
  | .hbm, ⟨0, _⟩ => ⟨S128x4096x256, .f32⟩
  | .hbm, ⟨1, _⟩ => ⟨S128x4096x256, .f32⟩
  | .hbm, ⟨2, _⟩ => ⟨S128x4096x256, .f32⟩
  | .hbm, ⟨3, _⟩ => ⟨S256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S1x1x256, .f32⟩
  | .hbm, ⟨14, _⟩ => ⟨S1x1x256, .f32⟩
  | .hbm, ⟨15, _⟩ => ⟨S_, .f32⟩
  | .hbm, ⟨16, _⟩ => ⟨S128x256, .f32⟩
  | .hbm, ⟨17, _⟩ => ⟨S_, .f32⟩
  | .hbm, ⟨18, _⟩ => ⟨S128x256, .f32⟩
  | .hbm, ⟨19, _⟩ => ⟨S128x256, .f32⟩
  | .hbm, ⟨20, _⟩ => ⟨S_, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | .hbm, ⟨30, _⟩ => ⟨S128x1x256, .f32⟩
  | .hbm, ⟨31, _⟩ => ⟨S128x1x256, .f32⟩
  | .hbm, ⟨32, _⟩ => ⟨S128x1x256, .f32⟩
  | .hbm, ⟨33, _⟩ => ⟨S128x3x256, .f32⟩
  | .hbm, ⟨34, _⟩ => ⟨S_, .f32⟩
  | .hbm, ⟨35, _⟩ => ⟨S128x3, .f32⟩
  | .hbm, ⟨36, _⟩ => ⟨S128x3x1, .f32⟩
  | .hbm, ⟨37, _⟩ => ⟨S_, .f32⟩
  | .hbm, ⟨38, _⟩ => ⟨S128x3x1, .f32⟩
  | .hbm, ⟨39, _⟩ => ⟨S128x3x1, .f32⟩
  | .hbm, ⟨40, _⟩ => ⟨S128x3x256, .f32⟩
  | .hbm, ⟨41, _⟩ => ⟨S128x3x256, .f32⟩
  | .hbm, ⟨42, _⟩ => ⟨S128x3x256, .f32⟩
  | .hbm, ⟨43, _⟩ => ⟨S_, .f32⟩
  | .hbm, ⟨44, _⟩ => ⟨S128x3, .f32⟩
  | .hbm, ⟨45, _⟩ => ⟨S128x3x1, .f32⟩
  | .hbm, ⟨46, _⟩ => ⟨S_, .f32⟩
  | .hbm, ⟨47, _⟩ => ⟨S128x3x1, .f32⟩
  | .hbm, ⟨48, _⟩ => ⟨S128x3x1, .f32⟩
  | .hbm, ⟨49, _⟩ => ⟨S128x3x256, .f32⟩
  | .hbm, ⟨50, _⟩ => ⟨S128x3x256, .f32⟩
  | .hbm, ⟨51, _⟩ => ⟨S_, .f32⟩
  | .hbm, ⟨52, _⟩ => ⟨S128x3x1, .f32⟩
  | .hbm, ⟨53, _⟩ => ⟨S128x3x1, .f32⟩
  | .hbm, ⟨54, _⟩ => ⟨S128x3x1, .f32⟩
  | .hbm, ⟨55, _⟩ => ⟨S128x3x256, .f32⟩
  | .hbm, ⟨56, _⟩ => ⟨S128x3x256, .f32⟩
  | .hbm, ⟨57, _⟩ => ⟨S1x1x256, .f32⟩
  | .hbm, ⟨58, _⟩ => ⟨S128x3x256, .f32⟩
  | .hbm, ⟨59, _⟩ => ⟨S128x3x256, .f32⟩
  | .hbm, ⟨60, _⟩ => ⟨S1x1x256, .f32⟩
  | .hbm, ⟨61, _⟩ => ⟨S128x3x256, .f32⟩
  | .hbm, ⟨62, _⟩ => ⟨S128x3x256, .f32⟩
  | .hbm, ⟨63, _⟩ => ⟨S128x3x256, .f32⟩
  | .hbm, ⟨64, _⟩ => ⟨S1x1x256, .f32⟩
  | .hbm, ⟨65, _⟩ => ⟨S128x3x256, .f32⟩
  | .hbm, ⟨66, _⟩ => ⟨S128x3x256, .f32⟩
  | .hbm, ⟨67, _⟩ => ⟨S128x3x256, .f32⟩
  | .hbm, ⟨68, _⟩ => ⟨S1x1x256, .f32⟩
  | .hbm, ⟨69, _⟩ => ⟨S128x3x256, .f32⟩
  | .hbm, ⟨70, _⟩ => ⟨S128x3x256, .f32⟩
  | .hbm, ⟨71, _⟩ => ⟨S128x3x256, .f32⟩
  | .hbm, ⟨72, _⟩ => ⟨S1x1x256, .f32⟩
  | .hbm, ⟨73, _⟩ => ⟨S128x3x256, .f32⟩
  | .hbm, ⟨74, _⟩ => ⟨S128x3x256, .f32⟩
  | .hbm, ⟨75, _⟩ => ⟨S128x1x256, .f32⟩
  | .hbm, ⟨76, _⟩ => ⟨S128x4x256, .f32⟩
  | .hbm, ⟨77, _⟩ => ⟨S128x1x256, .f32⟩
  | .hbm, ⟨78, _⟩ => ⟨S128x4x256, .f32⟩
  | .hbm, ⟨79, _⟩ => ⟨S128x3x4x64, .f32⟩
  | .hbm, ⟨80, _⟩ => ⟨S128x4x3x64, .f32⟩
  | .hbm, ⟨81, _⟩ => ⟨S_, .f32⟩
  | .hbm, ⟨82, _⟩ => ⟨S128x4x3x64, .f32⟩
  | .hbm, ⟨83, _⟩ => ⟨S128x4x3x64, .f32⟩
  | .hbm, ⟨84, _⟩ => ⟨S128x4x4x64, .f32⟩
  | .hbm, ⟨85, _⟩ => ⟨S128x4x4x64, .f32⟩
  | .hbm, ⟨86, _⟩ => ⟨S128x4x4x64, .f32⟩
  | .hbm, ⟨87, _⟩ => ⟨S128x4x4x64, .f32⟩
  | .hbm, ⟨88, _⟩ => ⟨S128x4x3x4, .f32⟩
  | .hbm, ⟨89, _⟩ => ⟨S_, .f32⟩
  | .hbm, ⟨90, _⟩ => ⟨S128x4x3, .f32⟩
  | .hbm, ⟨91, _⟩ => ⟨S_, .f32⟩
  | .hbm, ⟨92, _⟩ => ⟨S128x4x3, .f32⟩
  | .hbm, ⟨93, _⟩ => ⟨S128x4x3, .f32⟩
  | .hbm, ⟨94, _⟩ => ⟨S128x4x3x1, .f32⟩
  | .hbm, ⟨95, _⟩ => ⟨S128x4x3x4, .f32⟩
  | .hbm, ⟨96, _⟩ => ⟨S128x4x3x4, .f32⟩
  | .hbm, ⟨97, _⟩ => ⟨S128x4x3x4, .f32⟩
  | .hbm, ⟨98, _⟩ => ⟨S_, .f32⟩
  | .hbm, ⟨99, _⟩ => ⟨S128x4x3, .f32⟩
  | .hbm, ⟨100, _⟩ => ⟨S128x4x3x1, .f32⟩
  | .hbm, ⟨101, _⟩ => ⟨S128x4x3x4, .f32⟩
  | .hbm, ⟨102, _⟩ => ⟨S128x4x3x4, .f32⟩
  | .hbm, ⟨103, _⟩ => ⟨S128x4x3x64, .f32⟩
  | .hbm, ⟨104, _⟩ => ⟨S128x3x4x64, .f32⟩
  | .hbm, ⟨105, _⟩ => ⟨S128x3x256, .f32⟩
  | .hbm, ⟨106, _⟩ => ⟨S128x3x256, .f32⟩
  | .hbm, ⟨107, _⟩ => ⟨S1x1x256, .f32⟩
  | .hbm, ⟨108, _⟩ => ⟨S128x3x256, .f32⟩
  | .hbm, ⟨109, _⟩ => ⟨S128x3x256, .f32⟩
  | .hbm, ⟨110, _⟩ => ⟨S128x3x256, .f32⟩
  | .hbm, ⟨111, _⟩ => ⟨S_, .f32⟩
  | .hbm, ⟨112, _⟩ => ⟨S128x3x4, .f32⟩
  | .hbm, ⟨113, _⟩ => ⟨S_, .f32⟩
  | .hbm, ⟨114, _⟩ => ⟨S128x3x4, .f32⟩
  | .hbm, ⟨115, _⟩ => ⟨S128x3x4, .f32⟩
  | _, _ => ⟨S128x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_cst_1 : Ref sig .tc := ⟨.hbm, 20, rfl⟩
abbrev main_v3 : Ref sig .tc := ⟨.hbm, 21, rfl⟩
abbrev main_cst_2 : Ref sig .tc := ⟨.hbm, 22, rfl⟩
abbrev main_v4 : Ref sig .tc := ⟨.hbm, 23, rfl⟩
abbrev main_v5 : Ref sig .tc := ⟨.hbm, 24, rfl⟩
abbrev main_cst_3 : Ref sig .tc := ⟨.hbm, 25, rfl⟩
abbrev main_v6 : Ref sig .tc := ⟨.hbm, 26, rfl⟩
abbrev main_cst_4 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_5 : Ref sig .tc := ⟨.hbm, 34, rfl⟩
abbrev main_v13 : Ref sig .tc := ⟨.hbm, 35, rfl⟩
abbrev main_v14 : Ref sig .tc := ⟨.hbm, 36, rfl⟩
abbrev main_cst_6 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_7 : Ref sig .tc := ⟨.hbm, 43, rfl⟩
abbrev main_v20 : Ref sig .tc := ⟨.hbm, 44, rfl⟩
abbrev main_v21 : Ref sig .tc := ⟨.hbm, 45, rfl⟩
abbrev main_cst_8 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_9 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_14 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]

class Facts₀ : Prop where
  reducesTo_S128x4096x256_S128x256_d1 : S128x4096x256.ReducesTo [1] S128x256
  h_S_ : 0 < S_.numel
  bcast_S_S128x256 : S_.BroadcastsInDim S128x256 (![] : Fin 0 → Fin S128x256.rank)
  bcast_S128x256_S128x1x256_0_2 : S128x256.BroadcastsInDim S128x1x256 (![0, 2] : Fin 2 → Fin S128x1x256.rank)
  concatenates_S128x1x256_S128x1x256_S128x1x256_S128x3x256_d1 : Shape.Concatenates [S128x1x256, S128x1x256, S128x1x256] S128x3x256 1
  reducesTo_S128x3x256_S128x3_d2 : S128x3x256.ReducesTo [2] S128x3
  bcast_S128x3_S128x3x1_0_1 : S128x3.BroadcastsInDim S128x3x1 (![0, 1] : Fin 2 → Fin S128x3x1.rank)
  bcast_S_S128x3x1 : S_.BroadcastsInDim S128x3x1 (![] : Fin 0 → Fin S128x3x1.rank)
  bcast_S128x3x1_S128x3x256_0_1_2 : S128x3x1.BroadcastsInDim S128x3x256 (![0, 1, 2] : Fin 3 → Fin S128x3x256.rank)
  bcast_S256_S1x1x256_2 : S256.BroadcastsInDim S1x1x256 (![2] : Fin 1 → Fin S1x1x256.rank)
  bcast_S1x1x256_S128x3x256_0_1_2 : S1x1x256.BroadcastsInDim S128x3x256 (![0, 1, 2] : Fin 3 → Fin S128x3x256.rank)
  bcast_S1x1x256_S128x1x256_0_1_2 : S1x1x256.BroadcastsInDim S128x1x256 (![0, 1, 2] : Fin 3 → Fin S128x1x256.rank)
  concatenates_S128x3x256_S128x1x256_S128x4x256_d1 : Shape.Concatenates [S128x3x256, S128x1x256] S128x4x256 1
  shapeCasts_S128x3x256_S128x3x4x64 : S128x3x256.ShapeCasts S128x3x4x64
  transposes_S128x3x4x64_S128x4x3x64_0_2_1_3 : S128x3x4x64.Transposes [0, 2, 1, 3] S128x4x3x64
  bcast_S_S128x4x3x64 : S_.BroadcastsInDim S128x4x3x64 (![] : Fin 0 → Fin S128x4x3x64.rank)
  shapeCasts_S128x4x256_S128x4x4x64 : S128x4x256.ShapeCasts S128x4x4x64
  transposes_S128x4x4x64_S128x4x4x64_0_2_1_3 : S128x4x4x64.Transposes [0, 2, 1, 3] S128x4x4x64
  reducesTo_S128x4x3x4_S128x4x3_d3 : S128x4x3x4.ReducesTo [3] S128x4x3
  bcast_S_S128x4x3 : S_.BroadcastsInDim S128x4x3 (![] : Fin 0 → Fin S128x4x3.rank)
  bcast_S128x4x3_S128x4x3x1_0_1_2 : S128x4x3.BroadcastsInDim S128x4x3x1 (![0, 1, 2] : Fin 3 → Fin S128x4x3x1.rank)
  bcast_S128x4x3x1_S128x4x3x4_0_1_2_3 : S128x4x3x1.BroadcastsInDim S128x4x3x4 (![0, 1, 2, 3] : Fin 4 → Fin S128x4x3x4.rank)
  transposes_S128x4x3x64_S128x3x4x64_0_2_1_3 : S128x4x3x64.Transposes [0, 2, 1, 3] S128x3x4x64
  shapeCasts_S128x3x4x64_S128x3x256 : S128x3x4x64.ShapeCasts S128x3x256
  reducesTo_S128x4x3x4_S128x3x4_d1 : S128x4x3x4.ReducesTo [1] S128x3x4
  bcast_S_S128x3x4 : S_.BroadcastsInDim S128x3x4 (![] : Fin 0 → Fin S128x3x4.rank)
  dot_S128x3x256_S256x256_S128x3x256_2_1_01_0_n_n_wf : DotDims.WF S128x3x256 S256x256 S128x3x256 [2] [1] [0, 1] [0] [] []
  dot_S128x4x3x64_S128x4x4x64_S128x4x3x4_3_3_2_2_01_01_wf : DotDims.WF S128x4x3x64 S128x4x4x64 S128x4x3x4 [3] [3] [2] [2] [0, 1] [0, 1]
  dot_S128x4x3x4_S128x4x4x64_S128x4x3x64_3_2_2_3_01_01_wf : DotDims.WF S128x4x3x4 S128x4x4x64 S128x4x3x64 [3] [2] [2] [3] [0, 1] [0, 1]

variable [Facts₀]

def dot_S128x3x256_S256x256_S128x3x256_2_1_01_0_n_n : DotDims S128x3x256 S256x256 S128x3x256 where
  lhsContracting := [2]
  rhsContracting := [1]
  lhsNonContracting := [0, 1]
  rhsNonContracting := [0]
  lhsBatch := []
  rhsBatch := []
  wf := dot_S128x3x256_S256x256_S128x3x256_2_1_01_0_n_n_wf
def dot_S128x4x3x64_S128x4x4x64_S128x4x3x4_3_3_2_2_01_01 : DotDims S128x4x3x64 S128x4x4x64 S128x4x3x4 where
  lhsContracting := [3]
  rhsContracting := [3]
  lhsNonContracting := [2]
  rhsNonContracting := [2]
  lhsBatch := [0, 1]
  rhsBatch := [0, 1]
  wf := dot_S128x4x3x64_S128x4x4x64_S128x4x3x4_3_3_2_2_01_01_wf
def dot_S128x4x3x4_S128x4x4x64_S128x4x3x64_3_2_2_3_01_01 : DotDims S128x4x3x4 S128x4x4x64 S128x4x3x64 where
  lhsContracting := [3]
  rhsContracting := [2]
  lhsNonContracting := [2]
  rhsNonContracting := [3]
  lhsBatch := [0, 1]
  rhsBatch := [0, 1]
  wf := dot_S128x4x3x4_S128x4x4x64_S128x4x3x64_3_2_2_3_01_01_wf

class Facts : Prop extends Facts₀ where

variable [Facts]
-- ==== Proof.KValBlocks.lean ====
/- The second kernel region runs at a single grid point, and every one of its fifteen windows takes the whole of its
   array as its block: the block index is zero on every axis, so a block coordinate y sits at array coordinate
   0 · size + y = y. Hence reading any contents through a window's block gives back the contents unchanged, each input
   block is the whole input array, and the one block of each output covers every index of its array. -/
import proofs.«428392_j60172491817603_3_alg».proof.Proof.Gen.KernelIdeal.Frame
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Named

open Cert.KernelIdeal Cert.KernelIdeal.Gen

variable {F : FTy → Type} [FloatOps F]

/-! ## The block offsets vanish

For each window, block index times block size is zero on every axis at the grid's one point. -/

theorem off_0 (t : Fin cfg1.N) : (fun a => win1_0.index t a * main_v0.ty.shape.size a) = fun _ => 0 := by
  obtain rfl := fin_N1 t; funext a; fin_cases a <;> decide
theorem off_1 (t : Fin cfg1.N) : (fun a => win1_1.index t a * main_v1.ty.shape.size a) = fun _ => 0 := by
  obtain rfl := fin_N1 t; funext a; fin_cases a <;> decide
theorem off_2 (t : Fin cfg1.N) : (fun a => win1_2.index t a * main_v2.ty.shape.size a) = fun _ => 0 := by
  obtain rfl := fin_N1 t; funext a; fin_cases a <;> decide
theorem off_3 (t : Fin cfg1.N) : (fun a => win1_3.index t a * main_v9.ty.shape.size a) = fun _ => 0 := by
  obtain rfl := fin_N1 t; funext a; fin_cases a <;> decide
theorem off_4 (t : Fin cfg1.N) : (fun a => win1_4.index t a * main_v3.ty.shape.size a) = fun _ => 0 := by
  obtain rfl := fin_N1 t; funext a; fin_cases a <;> decide
theorem off_5 (t : Fin cfg1.N) : (fun a => win1_5.index t a * main_v10.ty.shape.size a) = fun _ => 0 := by
  obtain rfl := fin_N1 t; funext a; fin_cases a <;> decide
theorem off_6 (t : Fin cfg1.N) : (fun a => win1_6.index t a * main_v4.ty.shape.size a) = fun _ => 0 := by
  obtain rfl := fin_N1 t; funext a; fin_cases a <;> decide
theorem off_7 (t : Fin cfg1.N) : (fun a => win1_7.index t a * main_v11.ty.shape.size a) = fun _ => 0 := by
  obtain rfl := fin_N1 t; funext a; fin_cases a <;> decide
theorem off_8 (t : Fin cfg1.N) : (fun a => win1_8.index t a * main_v5.ty.shape.size a) = fun _ => 0 := by
  obtain rfl := fin_N1 t; funext a; fin_cases a <;> decide
theorem off_9 (t : Fin cfg1.N) : (fun a => win1_9.index t a * main_v12.ty.shape.size a) = fun _ => 0 := by
  obtain rfl := fin_N1 t; funext a; fin_cases a <;> decide
theorem off_10 (t : Fin cfg1.N) : (fun a => win1_10.index t a * main_v6.ty.shape.size a) = fun _ => 0 := by
  obtain rfl := fin_N1 t; funext a; fin_cases a <;> decide
theorem off_11 (t : Fin cfg1.N) : (fun a => win1_11.index t a * main_v7.ty.shape.size a) = fun _ => 0 := by
  obtain rfl := fin_N1 t; funext a; fin_cases a <;> decide
theorem off_12 (t : Fin cfg1.N) : (fun a => win1_12.index t a * main_v8.ty.shape.size a) = fun _ => 0 := by
  obtain rfl := fin_N1 t; funext a; fin_cases a <;> decide
theorem off_13 (t : Fin cfg1.N) : (fun a => win1_13.index t a * main_v13_0.ty.shape.size a) = fun _ => 0 := by
  obtain rfl := fin_N1 t; funext a; fin_cases a <;> decide
theorem off_14 (t : Fin cfg1.N) : (fun a => win1_14.index t a * main_v13_1.ty.shape.size a) = fun _ => 0 := by
  obtain rfl := fin_N1 t; funext a; fin_cases a <;> decide

/-! ## Each input block is its whole array

`V` is any assignment of contents to the core's buffers at the region's entry. -/

variable (V : (c : Dev nD) → (b : Ref sig .tc) → Buf (Elt F) ((c : Thread nD τ).loc b))

theorem iblk1_0 (c : Dev nD) (t : Fin cfg1.N) :
    (iblk1 V c 0 t : Vec F S128x3x256 .f32) = (V c main_v0 : S128x3x256.Idx → Elt F .f32) := by
  unfold iblk1
  exact Memref.read_access_unit_zero (Elt F) main_v0 (off_0 t) (fun a => by rw [congrFun (off_0 t) a]; simp) _
theorem iblk1_1 (c : Dev nD) (t : Fin cfg1.N) :
    (iblk1 V c 1 t : Vec F S1x256 .f32) = (V c main_v1 : S1x256.Idx → Elt F .f32) := by
  unfold iblk1
  exact Memref.read_access_unit_zero (Elt F) main_v1 (off_1 t) (fun a => by rw [congrFun (off_1 t) a]; simp) _
theorem iblk1_2 (c : Dev nD) (t : Fin cfg1.N) :
    (iblk1 V c 2 t : Vec F S1x256 .f32) = (V c main_v2 : S1x256.Idx → Elt F .f32) := by
  unfold iblk1
  exact Memref.read_access_unit_zero (Elt F) main_v2 (off_2 t) (fun a => by rw [congrFun (off_2 t) a]; simp) _
theorem iblk1_3 (c : Dev nD) (t : Fin cfg1.N) :
    (iblk1 V c 3 t : Vec F S256x256 .f32) = (V c main_v9 : S256x256.Idx → Elt F .f32) := by
  unfold iblk1
  exact Memref.read_access_unit_zero (Elt F) main_v9 (off_3 t) (fun a => by rw [congrFun (off_3 t) a]; simp) _
theorem iblk1_4 (c : Dev nD) (t : Fin cfg1.N) :
    (iblk1 V c 4 t : Vec F S1x256 .f32) = (V c main_v3 : S1x256.Idx → Elt F .f32) := by
  unfold iblk1
  exact Memref.read_access_unit_zero (Elt F) main_v3 (off_4 t) (fun a => by rw [congrFun (off_4 t) a]; simp) _
theorem iblk1_5 (c : Dev nD) (t : Fin cfg1.N) :
    (iblk1 V c 5 t : Vec F S256x256 .f32) = (V c main_v10 : S256x256.Idx → Elt F .f32) := by
  unfold iblk1
  exact Memref.read_access_unit_zero (Elt F) main_v10 (off_5 t) (fun a => by rw [congrFun (off_5 t) a]; simp) _
theorem iblk1_6 (c : Dev nD) (t : Fin cfg1.N) :
    (iblk1 V c 6 t : Vec F S1x256 .f32) = (V c main_v4 : S1x256.Idx → Elt F .f32) := by
  unfold iblk1
  exact Memref.read_access_unit_zero (Elt F) main_v4 (off_6 t) (fun a => by rw [congrFun (off_6 t) a]; simp) _
theorem iblk1_7 (c : Dev nD) (t : Fin cfg1.N) :
    (iblk1 V c 7 t : Vec F S256x256 .f32) = (V c main_v11 : S256x256.Idx → Elt F .f32) := by
  unfold iblk1
  exact Memref.read_access_unit_zero (Elt F) main_v11 (off_7 t) (fun a => by rw [congrFun (off_7 t) a]; simp) _
theorem iblk1_8 (c : Dev nD) (t : Fin cfg1.N) :
    (iblk1 V c 8 t : Vec F S1x256 .f32) = (V c main_v5 : S1x256.Idx → Elt F .f32) := by
  unfold iblk1
  exact Memref.read_access_unit_zero (Elt F) main_v5 (off_8 t) (fun a => by rw [congrFun (off_8 t) a]; simp) _
theorem iblk1_9 (c : Dev nD) (t : Fin cfg1.N) :
    (iblk1 V c 9 t : Vec F S256x256 .f32) = (V c main_v12 : S256x256.Idx → Elt F .f32) := by
  unfold iblk1
  exact Memref.read_access_unit_zero (Elt F) main_v12 (off_9 t) (fun a => by rw [congrFun (off_9 t) a]; simp) _
theorem iblk1_10 (c : Dev nD) (t : Fin cfg1.N) :
    (iblk1 V c 10 t : Vec F S1x256 .f32) = (V c main_v6 : S1x256.Idx → Elt F .f32) := by
  unfold iblk1
  exact Memref.read_access_unit_zero (Elt F) main_v6 (off_10 t) (fun a => by rw [congrFun (off_10 t) a]; simp) _
theorem iblk1_11 (c : Dev nD) (t : Fin cfg1.N) :
    (iblk1 V c 11 t : Vec F S1x256 .f32) = (V c main_v7 : S1x256.Idx → Elt F .f32) := by
  unfold iblk1
  exact Memref.read_access_unit_zero (Elt F) main_v7 (off_11 t) (fun a => by rw [congrFun (off_11 t) a]; simp) _
theorem iblk1_12 (c : Dev nD) (t : Fin cfg1.N) :
    (iblk1 V c 12 t : Vec F S1x256 .f32) = (V c main_v8 : S1x256.Idx → Elt F .f32) := by
  unfold iblk1
  exact Memref.read_access_unit_zero (Elt F) main_v8 (off_12 t) (fun a => by rw [congrFun (off_12 t) a]; simp) _

/-! ## The two output windows

Reading contents of an output array through the window's one block returns them, and that block holds every index. -/

theorem blk_read_13 (t : Fin cfg1.N) (G : S128x3x256.Idx → Elt F .f32) :
    ((cfg1.win 13).blk t).view.read (Elt F) G = G :=
  Memref.read_access_unit_zero (Elt F) main_v13_0 (off_13 t) (fun a => by rw [congrFun (off_13 t) a]; simp) G

theorem blk_read_14 (t : Fin cfg1.N) (G : S128x3x4.Idx → Elt F .f32) :
    ((cfg1.win 14).blk t).view.read (Elt F) G = G :=
  Memref.read_access_unit_zero (Elt F) main_v13_1 (off_14 t) (fun a => by rw [congrFun (off_14 t) a]; simp) G

theorem mem_blk_13 (t : Fin cfg1.N) (i : S128x3x256.Idx) : i ∈ ((cfg1.win 13).blk t).view.set := by
  show i ∈ ((View.whole main_v13_0).slice (win1_13.rect t)).set
  rw [View.set_slice_whole]
  exact View.mem_set_unit_zero (S := S128x3x256) (off_13 t) _ i

theorem mem_blk_14 (t : Fin cfg1.N) (i : S128x3x4.Idx) : i ∈ ((cfg1.win 14).blk t).view.set := by
  show i ∈ ((View.whole main_v13_1).slice (win1_14.rect t)).set
  rw [View.set_slice_whole]
  exact View.mem_set_unit_zero (S := S128x3x4) (off_14 t) _ i

end Cert.KernelIdeal.Named

end
-- ==== Proof.KValHost.lean ====
/- Between the two kernel regions twelve layout operations run on the host: eight reshapes that lay a length-256
   vector, or a [1,1,256] array, out as a single row of 256 entries, and four transposes of 256 × 256 matrices. None of
   them touches the pooled [128,3,256] array the first region wrote. This module reads each result at an index in
   terms of the launch contents of the argument it was made from:
     row (0, d) of a reshaped vector x        is x d,
     row (0, d) of a reshaped [1,1,256] array is its entry (0, 0, d),
     entry (i, j) of a transposed matrix w    is w (j, i). -/
import proofs.«428392_j60172491817603_3_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.ValueIdx

namespace Cert.KernelIdeal.Named

open Cert.KernelIdeal Cert.KernelIdeal.Gen

/-! ## The three layout operations at an index -/

/-- A length-256 vector laid out as one row: entry (0, d) of the row is entry d of the vector, because both sit at
    row-major position d (the row's first coordinate can only be 0). -/
theorem row_of_vec (x : S256.Idx → Elt Ideal .f32) (h : S256.ShapeCasts S1x256) :
    shapeCast S1x256 x h = fun y : S1x256.Idx => x (ix1 (y 1)) := by
  funext y
  refine shapeCast_apply x h y (ix1 (y 1)) ?_
  rw [Shape.rowMajor_val_one, Shape.rowMajor_val_two]
  have h0 : (y 0).val < 1 := (y 0).isLt
  show (y 1).val = (y 0).val * 256 + (y 1).val
  omega

/-- A [1,1,256] array laid out as one row: entry (0, d) of the row is entry (0, 0, d) of the array; both sit at
    row-major position d. -/
theorem row_of_cube (x : S1x1x256.Idx → Elt Ideal .f32) (h : S1x1x256.ShapeCasts S1x256) :
    shapeCast S1x256 x h = fun y : S1x256.Idx => x (ix3 0 0 (y 1)) := by
  funext y
  refine shapeCast_apply x h y (ix3 0 0 (y 1)) ?_
  rw [Shape.rowMajor_val_three, Shape.rowMajor_val_two]
  have h0 : (y 0).val < 1 := (y 0).isLt
  show (0 * 1 + 0) * 256 + (y 1).val = (y 0).val * 256 + (y 1).val
  omega

/-- The transpose of a square matrix: entry (i, j) of the result is entry (j, i) of the operand. -/
theorem transp_sq (x : S256x256.Idx → Elt Ideal .f32) (h : S256x256.Transposes [1, 0] S256x256) :
    transpose S256x256 [1, 0] x h = fun y : S256x256.Idx => x (ix2 (y 1) (y 0)) := by
  funext y
  refine transpose_apply [1, 0] x h y (ix2 (y 1) (y 0)) ?_
  intro b
  match b with
  | ⟨0, _⟩ => rfl
  | ⟨1, _⟩ => rfl

variable (m : (ℓ : Loc nD τ sig) → Buf (Elt Ideal) ℓ) (ρ : Dev nD → PrngReg)

/-! ## The pooled array is not written by the host operations -/

/-- Each of the twelve operations writes its own result buffer, and none of those is the pooled array: it enters the
    second region as the first region left it. -/
theorem V2_v0 (c : Dev nD) :
    V2 (F := Ideal) m ρ c main_v0 = W1 (F := Ideal) m ρ c (Proc.devRef .tc main_v0) := by
  show StableHlo.after hostOps1 (W1 m ρ c) (Proc.devRef .tc main_v0) = _
  refine StableHlo.after_of_forall_not_mem _ _ (List.forall_iff_forall_mem.mp ?_)
  simp only [hostOps1, List.Forall, StableHlo.unary_writes, StableHlo.reshape_writes, Finset.mem_singleton]
  repeat' apply And.intro
  all_goals exact StableHlo.devRef_ne_of_ne (by decide)

/-! ## The eight rows

The layer-norm scale and shift, the four projection biases, and the two register rows, each as a [1,256] row. The
operand of each reshape is an argument no region and no earlier host operation wrote, so it still holds its launch
contents. -/

theorem V2_v1 (c : Dev nD) :
    (V2 (F := Ideal) m ρ c main_v1 : S1x256.Idx → Elt Ideal .f32)
      = fun y => m ((c.tc : Thread nD τ).loc main_arg3) (ix1 (y 1)) := by
  have e : (V2 (F := Ideal) m ρ c main_v1 : S1x256.Idx → Elt Ideal .f32)
      = shapeCast S1x256 (W1 (F := Ideal) m ρ c (Proc.devRef .tc main_arg3) : S256.Idx → Elt Ideal .f32) shapeCasts_S256_S1x256 := by
    show StableHlo.after hostOps1 (W1 m ρ c) (Proc.devRef .tc main_v1) = _
    after_results
    rfl
  rw [e, W1_of_ne m ρ c main_arg3 (by decide)]
  exact row_of_vec _ _

theorem V2_v2 (c : Dev nD) :
    (V2 (F := Ideal) m ρ c main_v2 : S1x256.Idx → Elt Ideal .f32)
      = fun y => m ((c.tc : Thread nD τ).loc main_arg4) (ix1 (y 1)) := by
  have e : (V2 (F := Ideal) m ρ c main_v2 : S1x256.Idx → Elt Ideal .f32)
      = shapeCast S1x256 (W1 (F := Ideal) m ρ c (Proc.devRef .tc main_arg4) : S256.Idx → Elt Ideal .f32) shapeCasts_S256_S1x256 := by
    show StableHlo.after hostOps1 (W1 m ρ c) (Proc.devRef .tc main_v2) = _
    after_results
    rfl
  rw [e, W1_of_ne m ρ c main_arg4 (by decide)]
  exact row_of_vec _ _

theorem V2_v3 (c : Dev nD) :
    (V2 (F := Ideal) m ρ c main_v3 : S1x256.Idx → Elt Ideal .f32)
      = fun y => m ((c.tc : Thread nD τ).loc main_arg6) (ix1 (y 1)) := by
  have e : (V2 (F := Ideal) m ρ c main_v3 : S1x256.Idx → Elt Ideal .f32)
      = shapeCast S1x256 (W1 (F := Ideal) m ρ c (Proc.devRef .tc main_arg6) : S256.Idx → Elt Ideal .f32) shapeCasts_S256_S1x256 := by
    show StableHlo.after hostOps1 (W1 m ρ c) (Proc.devRef .tc main_v3) = _
    after_results
    rfl
  rw [e, W1_of_ne m ρ c main_arg6 (by decide)]
  exact row_of_vec _ _

theorem V2_v4 (c : Dev nD) :
    (V2 (F := Ideal) m ρ c main_v4 : S1x256.Idx → Elt Ideal .f32)
      = fun y => m ((c.tc : Thread nD τ).loc main_arg8) (ix1 (y 1)) := by
  have e : (V2 (F := Ideal) m ρ c main_v4 : S1x256.Idx → Elt Ideal .f32)
      = shapeCast S1x256 (W1 (F := Ideal) m ρ c (Proc.devRef .tc main_arg8) : S256.Idx → Elt Ideal .f32) shapeCasts_S256_S1x256 := by
    show StableHlo.after hostOps1 (W1 m ρ c) (Proc.devRef .tc main_v4) = _
    after_results
    rfl
  rw [e, W1_of_ne m ρ c main_arg8 (by decide)]
  exact row_of_vec _ _

theorem V2_v5 (c : Dev nD) :
    (V2 (F := Ideal) m ρ c main_v5 : S1x256.Idx → Elt Ideal .f32)
      = fun y => m ((c.tc : Thread nD τ).loc main_arg10) (ix1 (y 1)) := by
  have e : (V2 (F := Ideal) m ρ c main_v5 : S1x256.Idx → Elt Ideal .f32)
      = shapeCast S1x256 (W1 (F := Ideal) m ρ c (Proc.devRef .tc main_arg10) : S256.Idx → Elt Ideal .f32) shapeCasts_S256_S1x256 := by
    show StableHlo.after hostOps1 (W1 m ρ c) (Proc.devRef .tc main_v5) = _
    after_results
    rfl
  rw [e, W1_of_ne m ρ c main_arg10 (by decide)]
  exact row_of_vec _ _

theorem V2_v6 (c : Dev nD) :
    (V2 (F := Ideal) m ρ c main_v6 : S1x256.Idx → Elt Ideal .f32)
      = fun y => m ((c.tc : Thread nD τ).loc main_arg12) (ix1 (y 1)) := by
  have e : (V2 (F := Ideal) m ρ c main_v6 : S1x256.Idx → Elt Ideal .f32)
      = shapeCast S1x256 (W1 (F := Ideal) m ρ c (Proc.devRef .tc main_arg12) : S256.Idx → Elt Ideal .f32) shapeCasts_S256_S1x256 := by
    show StableHlo.after hostOps1 (W1 m ρ c) (Proc.devRef .tc main_v6) = _
    after_results
    rfl
  rw [e, W1_of_ne m ρ c main_arg12 (by decide)]
  exact row_of_vec _ _

theorem V2_v7 (c : Dev nD) :
    (V2 (F := Ideal) m ρ c main_v7 : S1x256.Idx → Elt Ideal .f32)
      = fun y => m ((c.tc : Thread nD τ).loc main_arg13) (ix3 0 0 (y 1)) := by
  have e : (V2 (F := Ideal) m ρ c main_v7 : S1x256.Idx → Elt Ideal .f32)
      = shapeCast S1x256 (W1 (F := Ideal) m ρ c (Proc.devRef .tc main_arg13) : S1x1x256.Idx → Elt Ideal .f32) shapeCasts_S1x1x256_S1x256 := by
    show StableHlo.after hostOps1 (W1 m ρ c) (Proc.devRef .tc main_v7) = _
    after_results
    rfl
  rw [e, W1_of_ne m ρ c main_arg13 (by decide)]
  exact row_of_cube _ _

theorem V2_v8 (c : Dev nD) :
    (V2 (F := Ideal) m ρ c main_v8 : S1x256.Idx → Elt Ideal .f32)
      = fun y => m ((c.tc : Thread nD τ).loc main_arg14) (ix3 0 0 (y 1)) := by
  have e : (V2 (F := Ideal) m ρ c main_v8 : S1x256.Idx → Elt Ideal .f32)
      = shapeCast S1x256 (W1 (F := Ideal) m ρ c (Proc.devRef .tc main_arg14) : S1x1x256.Idx → Elt Ideal .f32) shapeCasts_S1x1x256_S1x256 := by
    show StableHlo.after hostOps1 (W1 m ρ c) (Proc.devRef .tc main_v8) = _
    after_results
    rfl
  rw [e, W1_of_ne m ρ c main_arg14 (by decide)]
  exact row_of_cube _ _

/-! ## The four transposed weight matrices -/

theorem V2_v9 (c : Dev nD) :
    (V2 (F := Ideal) m ρ c main_v9 : S256x256.Idx → Elt Ideal .f32)
      = fun y => m ((c.tc : Thread nD τ).loc main_arg5) (ix2 (y 1) (y 0)) := by
  have e : (V2 (F := Ideal) m ρ c main_v9 : S256x256.Idx → Elt Ideal .f32)
      = transpose S256x256 [1, 0] (W1 (F := Ideal) m ρ c (Proc.devRef .tc main_arg5) : S256x256.Idx → Elt Ideal .f32) transposes_S256x256_S256x256_1_0 := by
    show StableHlo.after hostOps1 (W1 m ρ c) (Proc.devRef .tc main_v9) = _
    after_results
  rw [e, W1_of_ne m ρ c main_arg5 (by decide)]
  exact transp_sq _ _

theorem V2_v10 (c : Dev nD) :
    (V2 (F := Ideal) m ρ c main_v10 : S256x256.Idx → Elt Ideal .f32)
      = fun y => m ((c.tc : Thread nD τ).loc main_arg7) (ix2 (y 1) (y 0)) := by
  have e : (V2 (F := Ideal) m ρ c main_v10 : S256x256.Idx → Elt Ideal .f32)
      = transpose S256x256 [1, 0] (W1 (F := Ideal) m ρ c (Proc.devRef .tc main_arg7) : S256x256.Idx → Elt Ideal .f32) transposes_S256x256_S256x256_1_0 := by
    show StableHlo.after hostOps1 (W1 m ρ c) (Proc.devRef .tc main_v10) = _
    after_results
  rw [e, W1_of_ne m ρ c main_arg7 (by decide)]
  exact transp_sq _ _

theorem V2_v11 (c : Dev nD) :
    (V2 (F := Ideal) m ρ c main_v11 : S256x256.Idx → Elt Ideal .f32)
      = fun y => m ((c.tc : Thread nD τ).loc main_arg9) (ix2 (y 1) (y 0)) := by
  have e : (V2 (F := Ideal) m ρ c main_v11 : S256x256.Idx → Elt Ideal .f32)
      = transpose S256x256 [1, 0] (W1 (F := Ideal) m ρ c (Proc.devRef .tc main_arg9) : S256x256.Idx → Elt Ideal .f32) transposes_S256x256_S256x256_1_0 := by
    show StableHlo.after hostOps1 (W1 m ρ c) (Proc.devRef .tc main_v11) = _
    after_results
  rw [e, W1_of_ne m ρ c main_arg9 (by decide)]
  exact transp_sq _ _

theorem V2_v12 (c : Dev nD) :
    (V2 (F := Ideal) m ρ c main_v12 : S256x256.Idx → Elt Ideal .f32)
      = fun y => m ((c.tc : Thread nD τ).loc main_arg11) (ix2 (y 1) (y 0)) := by
  have e : (V2 (F := Ideal) m ρ c main_v12 : S256x256.Idx → Elt Ideal .f32)
      = transpose S256x256 [1, 0] (W1 (F := Ideal) m ρ c (Proc.devRef .tc main_arg11) : S256x256.Idx → Elt Ideal .f32) transposes_S256x256_S256x256_1_0 := by
    show StableHlo.after hostOps1 (W1 m ρ c) (Proc.devRef .tc main_v12) = _
    after_results
  rw [e, W1_of_ne m ρ c main_arg11 (by decide)]
  exact transp_sq _ _

end Cert.KernelIdeal.Named

end
-- ==== Proof.KVal.lean ====
/- What the second kernel region leaves in the two result arrays.

   The region has one grid point and every window's block is its whole array, so the region's write-back puts the
   body's two outputs, computed from the thirteen whole input arrays, into the two result arrays. The first input is
   the pooled [128,3,256] array as the first region left it; the other twelve are the host's rows and transposed
   matrices, read back to the launch contents of the arguments:
     rows     (0, d) ↦ x d            for the layer-norm scale and shift and the four projection biases,
     rows     (0, d) ↦ x (0, 0, d)    for the two register rows,
     matrices (i, j) ↦ w (j, i)       for the four projection weights. -/
import proofs.«428392_j60172491817603_3_alg».proof.Proof.KValBlocks
import proofs.«428392_j60172491817603_3_alg».proof.Proof.KValHost

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Named

open Cert.KernelIdeal Cert.KernelIdeal.Gen

variable (m : (ℓ : Loc nD τ sig) → Buf (Elt Ideal) ℓ) (ρ : Dev nD → PrngReg)

/-! ## Equal inputs give equal outputs

The body's two results are functions of the thirteen input blocks; replacing each block by an equal one changes
neither. -/

theorem out1_13_congr
    {x0 x0' : Vec Ideal S128x3x256 .f32} {x1 x1' x2 x2' : Vec Ideal S1x256 .f32} {x3 x3' : Vec Ideal S256x256 .f32}
    {x4 x4' : Vec Ideal S1x256 .f32} {x5 x5' : Vec Ideal S256x256 .f32} {x6 x6' : Vec Ideal S1x256 .f32}
    {x7 x7' : Vec Ideal S256x256 .f32} {x8 x8' : Vec Ideal S1x256 .f32} {x9 x9' : Vec Ideal S256x256 .f32}
    {x10 x10' x11 x11' x12 x12' : Vec Ideal S1x256 .f32}
    (h0 : x0 = x0') (h1 : x1 = x1') (h2 : x2 = x2') (h3 : x3 = x3') (h4 : x4 = x4') (h5 : x5 = x5') (h6 : x6 = x6')
    (h7 : x7 = x7') (h8 : x8 = x8') (h9 : x9 = x9') (h10 : x10 = x10') (h11 : x11 = x11') (h12 : x12 = x12') :
    Gen.out1_13 x0 x1 x2 x3 x4 x5 x6 x7 x8 x9 x10 x11 x12 = Gen.out1_13 x0' x1' x2' x3' x4' x5' x6' x7' x8' x9' x10' x11' x12' := by
  subst h0 h1 h2 h3 h4 h5 h6 h7 h8 h9 h10 h11 h12; rfl

theorem out1_14_congr
    {x0 x0' : Vec Ideal S128x3x256 .f32} {x1 x1' x2 x2' : Vec Ideal S1x256 .f32} {x3 x3' : Vec Ideal S256x256 .f32}
    {x4 x4' : Vec Ideal S1x256 .f32} {x5 x5' : Vec Ideal S256x256 .f32} {x6 x6' : Vec Ideal S1x256 .f32}
    {x7 x7' : Vec Ideal S256x256 .f32} {x8 x8' : Vec Ideal S1x256 .f32} {x9 x9' : Vec Ideal S256x256 .f32}
    {x10 x10' x11 x11' x12 x12' : Vec Ideal S1x256 .f32}
    (h0 : x0 = x0') (h1 : x1 = x1') (h2 : x2 = x2') (h3 : x3 = x3') (h4 : x4 = x4') (h5 : x5 = x5') (h6 : x6 = x6')
    (h7 : x7 = x7') (h8 : x8 = x8') (h9 : x9 = x9') (h10 : x10 = x10') (h11 : x11 = x11') (h12 : x12 = x12') :
    Gen.out1_14 x0 x1 x2 x3 x4 x5 x6 x7 x8 x9 x10 x11 x12 = Gen.out1_14 x0' x1' x2' x3' x4' x5' x6' x7' x8' x9' x10' x11' x12' := by
  subst h0 h1 h2 h3 h4 h5 h6 h7 h8 h9 h10 h11 h12; rfl

/-! ## The two result arrays after the second region -/

/-- The first result, [128,3,256]: the body's first output evaluated on the pooled array as the first region left it,
    the layer-norm scale and shift as rows, each projection's weight matrix transposed and its bias as a row, and the
    two register rows as rows of 256 entries — all read from the launch contents of the arguments. -/
theorem W3_out0 (c : Dev nD) :
    W3 (F := Ideal) m ρ c (Proc.devRef .tc main_v13_0)
      = Gen.out1_13 (W1 (F := Ideal) m ρ c (Proc.devRef .tc main_v0))
          (fun y : S1x256.Idx => m ((c.tc : Thread nD τ).loc main_arg3) (ix1 (y 1)))
          (fun y : S1x256.Idx => m ((c.tc : Thread nD τ).loc main_arg4) (ix1 (y 1)))
          (fun y : S256x256.Idx => m ((c.tc : Thread nD τ).loc main_arg5) (ix2 (y 1) (y 0)))
          (fun y : S1x256.Idx => m ((c.tc : Thread nD τ).loc main_arg6) (ix1 (y 1)))
          (fun y : S256x256.Idx => m ((c.tc : Thread nD τ).loc main_arg7) (ix2 (y 1) (y 0)))
          (fun y : S1x256.Idx => m ((c.tc : Thread nD τ).loc main_arg8) (ix1 (y 1)))
          (fun y : S256x256.Idx => m ((c.tc : Thread nD τ).loc main_arg9) (ix2 (y 1) (y 0)))
          (fun y : S1x256.Idx => m ((c.tc : Thread nD τ).loc main_arg10) (ix1 (y 1)))
          (fun y : S256x256.Idx => m ((c.tc : Thread nD τ).loc main_arg11) (ix2 (y 1) (y 0)))
          (fun y : S1x256.Idx => m ((c.tc : Thread nD τ).loc main_arg12) (ix1 (y 1)))
          (fun y : S1x256.Idx => m ((c.tc : Thread nD τ).loc main_arg13) (ix3 0 0 (y 1)))
          (fun y : S1x256.Idx => m ((c.tc : Thread nD τ).loc main_arg14) (ix3 0 0 (y 1))) := by
  refine (W3_arr m ρ c 13).trans ?_
  refine (dat1 (V2 m ρ) c).arrAt_eq_of_cover 13 _ (fun t _ => ?_)
    (fun i => ⟨t1_0, flush1_13 t1_0, mem_blk_13 t1_0 i⟩)
  refine Eq.trans ?_ (blk_read_13 t _).symm
  show (cfg1.win 13).cut (grid1.coords t) ((dat1 (V2 m ρ) c).after 13 t) = _
  rw [after1_13]
  exact out1_13_congr
    ((iblk1_0 (V2 m ρ) c t).trans (V2_v0 m ρ c)) ((iblk1_1 (V2 m ρ) c t).trans (V2_v1 m ρ c))
    ((iblk1_2 (V2 m ρ) c t).trans (V2_v2 m ρ c)) ((iblk1_3 (V2 m ρ) c t).trans (V2_v9 m ρ c))
    ((iblk1_4 (V2 m ρ) c t).trans (V2_v3 m ρ c)) ((iblk1_5 (V2 m ρ) c t).trans (V2_v10 m ρ c))
    ((iblk1_6 (V2 m ρ) c t).trans (V2_v4 m ρ c)) ((iblk1_7 (V2 m ρ) c t).trans (V2_v11 m ρ c))
    ((iblk1_8 (V2 m ρ) c t).trans (V2_v5 m ρ c)) ((iblk1_9 (V2 m ρ) c t).trans (V2_v12 m ρ c))
    ((iblk1_10 (V2 m ρ) c t).trans (V2_v6 m ρ c)) ((iblk1_11 (V2 m ρ) c t).trans (V2_v7 m ρ c))
    ((iblk1_12 (V2 m ρ) c t).trans (V2_v8 m ρ c))

/-- The second result, [128,3,4]: the body's second output on the same thirteen inputs. -/
theorem W3_out1 (c : Dev nD) :
    W3 (F := Ideal) m ρ c (Proc.devRef .tc main_v13_1)
      = Gen.out1_14 (W1 (F := Ideal) m ρ c (Proc.devRef .tc main_v0))
          (fun y : S1x256.Idx => m ((c.tc : Thread nD τ).loc main_arg3) (ix1 (y 1)))
          (fun y : S1x256.Idx => m ((c.tc : Thread nD τ).loc main_arg4) (ix1 (y 1)))
          (fun y : S256x256.Idx => m ((c.tc : Thread nD τ).loc main_arg5) (ix2 (y 1) (y 0)))
          (fun y : S1x256.Idx => m ((c.tc : Thread nD τ).loc main_arg6) (ix1 (y 1)))
          (fun y : S256x256.Idx => m ((c.tc : Thread nD τ).loc main_arg7) (ix2 (y 1) (y 0)))
          (fun y : S1x256.Idx => m ((c.tc : Thread nD τ).loc main_arg8) (ix1 (y 1)))
          (fun y : S256x256.Idx => m ((c.tc : Thread nD τ).loc main_arg9) (ix2 (y 1) (y 0)))
          (fun y : S1x256.Idx => m ((c.tc : Thread nD τ).loc main_arg10) (ix1 (y 1)))
          (fun y : S256x256.Idx => m ((c.tc : Thread nD τ).loc main_arg11) (ix2 (y 1) (y 0)))
          (fun y : S1x256.Idx => m ((c.tc : Thread nD τ).loc main_arg12) (ix1 (y 1)))
          (fun y : S1x256.Idx => m ((c.tc : Thread nD τ).loc main_arg13) (ix3 0 0 (y 1)))
          (fun y : S1x256.Idx => m ((c.tc : Thread nD τ).loc main_arg14) (ix3 0 0 (y 1))) := by
  refine (W3_arr m ρ c 14).trans ?_
  refine (dat1 (V2 m ρ) c).arrAt_eq_of_cover 14 _ (fun t _ => ?_)
    (fun i => ⟨t1_0, flush1_14 t1_0, mem_blk_14 t1_0 i⟩)
  refine Eq.trans ?_ (blk_read_14 t _).symm
  show (cfg1.win 14).cut (grid1.coords t) ((dat1 (V2 m ρ) c).after 14 t) = _
  rw [after1_14]
  exact out1_14_congr
    ((iblk1_0 (V2 m ρ) c t).trans (V2_v0 m ρ c)) ((iblk1_1 (V2 m ρ) c t).trans (V2_v1 m ρ c))
    ((iblk1_2 (V2 m ρ) c t).trans (V2_v2 m ρ c)) ((iblk1_3 (V2 m ρ) c t).trans (V2_v9 m ρ c))
    ((iblk1_4 (V2 m ρ) c t).trans (V2_v3 m ρ c)) ((iblk1_5 (V2 m ρ) c t).trans (V2_v10 m ρ c))
    ((iblk1_6 (V2 m ρ) c t).trans (V2_v4 m ρ c)) ((iblk1_7 (V2 m ρ) c t).trans (V2_v11 m ρ c))
    ((iblk1_8 (V2 m ρ) c t).trans (V2_v5 m ρ c)) ((iblk1_9 (V2 m ρ) c t).trans (V2_v12 m ρ c))
    ((iblk1_10 (V2 m ρ) c t).trans (V2_v6 m ρ c)) ((iblk1_11 (V2 m ρ) c t).trans (V2_v7 m ρ c))
    ((iblk1_12 (V2 m ρ) c t).trans (V2_v8 m ρ c))

end Cert.KernelIdeal.Named

end
-- ==== Proof.KEpiOps.lean ====
/- The second kernel's body as a handful of whole-vector functions, each one step of the computation, over the
   kernel's own vector operations and shapes: a token row taken out of the [128, 3, 256] block; a projection (a row
   times a pre-transposed 256×256 matrix, plus a broadcast bias); the register row (a broadcast plus zero); the
   256 features read as 4 heads of 64; the scaled query; a logit (the lane sum of query times key); the running
   maximum of four; a shifted exponential; the sum of four; the reciprocal; a weight; the head-mean column and
   the row of four of them; a weight spread over its head's 64 lanes times a value; the four such terms added; the
   output row (heads side by side, times the output matrix, plus bias, plus the residual row). The three token
   rows go through the same functions; the two results are the three rows' outputs side by side. -/
import proofs.«428392_j60172491817603_3_alg».proof.Proof.Gen.KernelIdeal.Skeleton

set_option synthInstance.maxSize 4096

noncomputable section

namespace Cert.KernelIdeal.Epi

open Idealize.ShloMosaic Idealize.SL.Sem Cert.KernelIdeal Cert.KernelIdeal.Gen

variable {F : FTy → Type} [FloatOps F]

/-- Token row 0, 1, 2 of a [128, 3, 256] vector, as [128, 256]. -/
def row0 (v : FVec F S128x3x256 .f32) : FVec F S128x256 .f32 :=
  shapeCast S128x256 (extractStridedSlice S128x1x256 ![0, 0, 0] v slices_S128x3x256_o0_0_0_S128x1x256) shapeCasts_S128x1x256_S128x256
def row1 (v : FVec F S128x3x256 .f32) : FVec F S128x256 .f32 :=
  shapeCast S128x256 (extractStridedSlice S128x1x256 ![0, 1, 0] v slices_S128x3x256_o0_1_0_S128x1x256) shapeCasts_S128x1x256_S128x256
def row2 (v : FVec F S128x3x256 .f32) : FVec F S128x256 .f32 :=
  shapeCast S128x256 (extractStridedSlice S128x1x256 ![0, 2, 0] v slices_S128x3x256_o0_2_0_S128x1x256) shapeCasts_S128x1x256_S128x256

/-- A projection: the row times the (pre-transposed) matrix into a zero accumulator, plus the broadcast bias. -/
def projV (r : FVec F S128x256 .f32) (W : FVec F S256x256 .f32) (bias : FVec F S1x256 .f32) : FVec F S128x256 .f32 :=
  addf (matmul dot_S128x256_S256x256_S128x256_1_0_0_1_n_n none r W (constant S128x256 .f32 0x00000000#32))
    (broadcastTo S128x256 bias broadcasts_S1x256_S128x256)

/-- The register row: the [1, 256] row broadcast over the batch, plus zero. -/
def regV (r : FVec F S1x256 .f32) : FVec F S128x256 .f32 :=
  addf (broadcastTo S128x256 r broadcasts_S1x256_S128x256) (broadcast S128x256 (Scalar.ofBits .f32 0x00000000#32))

/-- 256 features as 4 heads of 64, and back. -/
def headsV (v : FVec F S128x256 .f32) : FVec F S128x4x64 .f32 := shapeCast S128x4x64 v shapeCasts_S128x256_S128x4x64
def flatV (v : FVec F S128x4x64 .f32) : FVec F S128x256 .f32 := shapeCast S128x256 v shapeCasts_S128x4x64_S128x256

/-- The query scaled by 1/8. -/
def scaleV (q : FVec F S128x4x64 .f32) : FVec F S128x4x64 .f32 :=
  mulf q (broadcast S128x4x64 (Scalar.ofBits .f32 0x3E000000#32))

/-- A logit per head: the lane sum of the scaled query times the key. -/
def gramV (q k : FVec F S128x4x64 .f32) : FVec F S128x4 .f32 :=
  multiReduction .add [2] S128x4 (mulf q k) 0x00000000#32 reduces_S128x4x64_S128x4 (.inl rfl) rfl

/-- The running maximum of four. -/
def max4V (g0 g1 g2 g3 : FVec F S128x4 .f32) : FVec F S128x4 .f32 := maximumf (maximumf (maximumf g0 g1) g2) g3

/-- A shifted exponential. -/
def expV (g mx : FVec F S128x4 .f32) : FVec F S128x4 .f32 := exp (subf g mx)

/-- The sum of four. -/
def sum4V (e0 e1 e2 e3 : FVec F S128x4 .f32) : FVec F S128x4 .f32 := addf (addf (addf e0 e1) e2) e3

/-- The reciprocal of the sum. -/
def invV (s : FVec F S128x4 .f32) : FVec F S128x4 .f32 := divf (broadcast S128x4 (Scalar.ofBits .f32 0x3F800000#32)) s

/-- A weight: the exponential times the reciprocal. -/
def probV (e inv : FVec F S128x4 .f32) : FVec F S128x4 .f32 := mulf e inv

/-- The four weights of one query token from its four logits (`i`-th of four). -/
def prob4V (g0 g1 g2 g3 gi : FVec F S128x4 .f32) : FVec F S128x4 .f32 :=
  probV (expV gi (max4V g0 g1 g2 g3))
    (invV (sum4V (expV g0 (max4V g0 g1 g2 g3)) (expV g1 (max4V g0 g1 g2 g3)) (expV g2 (max4V g0 g1 g2 g3)) (expV g3 (max4V g0 g1 g2 g3))))

/-- A weight's mean over the four heads, as a [128, 1] column. -/
def matchColV (p : FVec F S128x4 .f32) : FVec F S128x1 .f32 :=
  divf (shapeCast S128x1 (multiReduction .add [1] S128 p 0x00000000#32 reduces_S128x4_S128 (.inl rfl) rfl) shapeCasts_S128_S128x1)
    (broadcast S128x1 (Scalar.ofBits .f32 0x40800000#32))

/-- The four head-means of one query token, as a [128, 1, 4] row. -/
def matchRowV (p0 p1 p2 p3 : FVec F S128x4 .f32) : FVec F S128x1x4 .f32 :=
  shapeCast S128x1x4
    (concatenate S128x4 1 [⟨S128x1, matchColV p0⟩, ⟨S128x1, matchColV p1⟩, ⟨S128x1, matchColV p2⟩, ⟨S128x1, matchColV p3⟩]
      concatenates_S128x1_S128x1_S128x1_S128x1_S128x4_d1)
    shapeCasts_S128x4_S128x1x4

/-- A weight spread over its head's 64 lanes, times a value. -/
def wvV (p : FVec F S128x4 .f32) (v : FVec F S128x4x64 .f32) : FVec F S128x4x64 .f32 :=
  mulf (broadcastTo S128x4x64 (shapeCast S128x4x1 p shapeCasts_S128x4_S128x4x1) broadcasts_S128x4x1_S128x4x64) v

/-- The attended values of one query token. -/
def attV (p0 p1 p2 p3 : FVec F S128x4 .f32) (v0 v1 v2 v3 : FVec F S128x4x64 .f32) : FVec F S128x4x64 .f32 :=
  addf (addf (addf (wvV p0 v0) (wvV p1 v1)) (wvV p2 v2)) (wvV p3 v3)

/-- One output row: heads side by side, times the output matrix, plus bias, plus the residual row; as [128, 1, 256]. -/
def outRowV (a : FVec F S128x4x64 .f32) (Wo : FVec F S256x256 .f32) (bo : FVec F S1x256 .f32) (res : FVec F S128x256 .f32) :
    FVec F S128x1x256 .f32 :=
  shapeCast S128x1x256 (addf (projV (flatV a) Wo bo) res) shapeCasts_S128x256_S128x1x256

/-- Three rows side by side. -/
def stackOut (r0 r1 r2 : FVec F S128x1x256 .f32) : FVec F S128x3x256 .f32 :=
  concatenate S128x3x256 1 [⟨S128x1x256, r0⟩, ⟨S128x1x256, r1⟩, ⟨S128x1x256, r2⟩] concatenates_S128x1x256_S128x1x256_S128x1x256_S128x3x256_d1
def stackMatch (r0 r1 r2 : FVec F S128x1x4 .f32) : FVec F S128x3x4 .f32 :=
  concatenate S128x3x4 1 [⟨S128x1x4, r0⟩, ⟨S128x1x4, r1⟩, ⟨S128x1x4, r2⟩] concatenates_S128x1x4_S128x1x4_S128x1x4_S128x3x4_d1

/-! ## The whole body, from the thirteen loaded blocks -/

section Whole

variable (v0 : Vec F S128x3x256 .f32) (fea : FVec F S128x3x256 .f32) (lnw lnb : Vec F S1x256 .f32)
  (Wt : FVec F S256x256 .f32) (bt : FVec F S1x256 .f32) (Wp : FVec F S256x256 .f32) (bp : FVec F S1x256 .f32)
  (Wm : FVec F S256x256 .f32) (bm : FVec F S1x256 .f32) (Wo : FVec F S256x256 .f32) (bo : FVec F S1x256 .f32)
  (rp rm : FVec F S1x256 .f32)

/-- The layer-normalised tokens (the generated payload of the layer norm, which is already one function of the loaded
    block `v0`; the residual rows are taken from `fea`, the same block after the body's identity reshape). -/
abbrev xnV : FVec F S128x3x256 .f32 := k1_pay2 v0 lnw lnb

/-- Queries, keys, values per token row, in heads. -/
def thV (r : FVec F S128x256 .f32) : FVec F S128x4x64 .f32 := headsV (projV r Wt bt)
def phV (r : FVec F S128x256 .f32) : FVec F S128x4x64 .f32 := headsV (projV r Wp bp)
def muV (r : FVec F S128x256 .f32) : FVec F S128x4x64 .f32 := headsV (projV r Wm bm)

/-- Logit of the query row `q` against key `m` (0, 1, 2 the token rows, 3 the register). -/
def gV (q : FVec F S128x256 .f32) (m : Fin 4) : FVec F S128x4 .f32 :=
  gramV (scaleV (thV Wt bt q))
    (match m with
     | ⟨0, _⟩ => phV Wp bp (row0 (xnV v0 lnw lnb))
     | ⟨1, _⟩ => phV Wp bp (row1 (xnV v0 lnw lnb))
     | ⟨2, _⟩ => phV Wp bp (row2 (xnV v0 lnw lnb))
     | ⟨_ + 3, _⟩ => headsV (regV rp))

/-- Weight of query row `q` on key `m`. -/
def pV (q : FVec F S128x256 .f32) (m : Fin 4) : FVec F S128x4 .f32 :=
  prob4V (gV v0 lnw lnb Wt bt Wp bp rp q 0) (gV v0 lnw lnb Wt bt Wp bp rp q 1) (gV v0 lnw lnb Wt bt Wp bp rp q 2)
    (gV v0 lnw lnb Wt bt Wp bp rp q 3) (gV v0 lnw lnb Wt bt Wp bp rp q m)

/-- The second result's row for the query row `q`. -/
def matchOfRow (q : FVec F S128x256 .f32) : FVec F S128x1x4 .f32 :=
  matchRowV (pV v0 lnw lnb Wt bt Wp bp rp q 0) (pV v0 lnw lnb Wt bt Wp bp rp q 1) (pV v0 lnw lnb Wt bt Wp bp rp q 2)
    (pV v0 lnw lnb Wt bt Wp bp rp q 3)

/-- The first result's row for the query row `q` with residual row `res`. -/
def outOfRow (q res : FVec F S128x256 .f32) : FVec F S128x1x256 .f32 :=
  outRowV
    (attV (pV v0 lnw lnb Wt bt Wp bp rp q 0) (pV v0 lnw lnb Wt bt Wp bp rp q 1) (pV v0 lnw lnb Wt bt Wp bp rp q 2)
      (pV v0 lnw lnb Wt bt Wp bp rp q 3)
      (muV Wm bm (row0 (xnV v0 lnw lnb))) (muV Wm bm (row1 (xnV v0 lnw lnb))) (muV Wm bm (row2 (xnV v0 lnw lnb)))
      (headsV (regV rm)))
    Wo bo res

/-- FIRST RESULT of the body. -/
def epiOut : FVec F S128x3x256 .f32 :=
  stackOut
    (outOfRow v0 lnw lnb Wt bt Wp bp Wm bm Wo bo rp rm (row0 (xnV v0 lnw lnb)) (row0 fea))
    (outOfRow v0 lnw lnb Wt bt Wp bp Wm bm Wo bo rp rm (row1 (xnV v0 lnw lnb)) (row1 fea))
    (outOfRow v0 lnw lnb Wt bt Wp bp Wm bm Wo bo rp rm (row2 (xnV v0 lnw lnb)) (row2 fea))

/-- SECOND RESULT of the body. -/
def epiMatch : FVec F S128x3x4 .f32 :=
  stackMatch
    (matchOfRow v0 lnw lnb Wt bt Wp bp rp (row0 (xnV v0 lnw lnb)))
    (matchOfRow v0 lnw lnb Wt bt Wp bp rp (row1 (xnV v0 lnw lnb)))
    (matchOfRow v0 lnw lnb Wt bt Wp bp rp (row2 (xnV v0 lnw lnb)))

end Whole

end Cert.KernelIdeal.Epi

end
-- ==== Proof.KEpiBridge.lean ====
/- The second kernel's stored buffers as compositions of whole-vector steps.

   The body is one grid point: each of its thirteen loads reads a whole block and each of its two stores covers a whole
   buffer, so what a store leaves is its stored value, a composition of the body's values. Value by value, each is
   one of the shared whole-vector steps applied to earlier values: a reshape to the same shape is the identity; a
   register row is the broadcast row plus zero; a token row's three projections are the row times a matrix plus a
   bias; the 256 features are read as 4 heads of 64; a logit is the lane sum of the scaled query times a key; the
   four weights of a query token come from its four logits by the shifted exponentials over their sum; the
   head-means of the weights make the second result's row; the weights spread over the lanes, times the values,
   added, projected, plus the residual row make the first result's row. The three token rows are cut into values
   differently (the second row's attended sum arrives in three pieces, the third row's head-means in four), and
   each cut recombines to the same steps. The two results are then the three rows side by side. -/
import proofs.«428392_j60172491817603_3_alg».proof.Proof.Gen.KernelIdeal.Frame
import Idealize.ShloMosaic.Lib.Pipeline.Value
import proofs.«428392_j60172491817603_3_alg».proof.Proof.KEpiOps

set_option synthInstance.maxSize 4096

noncomputable section

namespace Cert.KernelIdeal.Epi

open Idealize.ShloMosaic Idealize.SL.Sem Cert.KernelIdeal Cert.KernelIdeal.Gen

variable {F : FTy → Type} [FloatOps F]

/-! ## Reshapes to the same shape change nothing -/

theorem pay1_eq (v : Vec F S128x3x256 .f32) : k1_pay1 v = v := shapeCast_self v _
theorem pay3_eq (v : Vec F S256x256 .f32) : k1_pay3 v = v := shapeCast_self v _
theorem pay4_eq (v : Vec F S256x256 .f32) : k1_pay4 v = v := shapeCast_self v _
theorem pay5_eq (v : Vec F S256x256 .f32) : k1_pay5 v = v := shapeCast_self v _
theorem pay6_eq (v : Vec F S256x256 .f32) : k1_pay6 v = v := shapeCast_self v _
theorem pay7_eq (v : Vec F S1x256 .f32) : k1_pay7 v = v := shapeCast_self v _
theorem pay8_eq (v : Vec F S1x256 .f32) : k1_pay8 v = v := shapeCast_self v _
theorem pay9_eq (v : Vec F S1x256 .f32) : k1_pay9 v = v := shapeCast_self v _
theorem pay10_eq (v : Vec F S1x256 .f32) : k1_pay10 v = v := shapeCast_self v _

/-- The register rows: the broadcast row plus zero. -/
theorem pay11_eq (v : Vec F S1x256 .f32) : k1_pay11 v = regV v :=
  congrArg regV (shapeCast_self v shapeCasts_S1x256_S1x256)
theorem pay12_eq (v : Vec F S1x256 .f32) : k1_pay12 v = regV v :=
  congrArg regV (shapeCast_self v shapeCasts_S1x256_S1x256)

/-! ## Token rows and projections -/

theorem pay13_eq (v29 : FVec F S128x3x256 .f32) : k1_pay13 v29 = row0 v29 := rfl
theorem pay17_eq (v29 : FVec F S128x3x256 .f32) : k1_pay17 v29 = row1 v29 := rfl
theorem pay22_21_eq (v29 : FVec F S128x3x256 .f32) : k1_pay22 (k1_pay21 v29) = row2 v29 := rfl
theorem pay14_eq (v29 : FVec F S128x3x256 .f32) (W : FVec F S256x256 .f32) (b : Vec F S1x256 .f32) : k1_pay14 v29 W b = projV (row0 v29) W b := by
  have h : k1_pay14 v29 W b = projV (row0 v29) W (k1_pay7 b) := rfl
  rw [h, pay7_eq]
theorem pay15_eq (v29 : FVec F S128x3x256 .f32) (W : FVec F S256x256 .f32) (b : Vec F S1x256 .f32) : k1_pay15 v29 W b = projV (row0 v29) W b := by
  have h : k1_pay15 v29 W b = projV (row0 v29) W (k1_pay8 b) := rfl
  rw [h, pay8_eq]
theorem pay16_eq (v29 : FVec F S128x3x256 .f32) (W : FVec F S256x256 .f32) (b : Vec F S1x256 .f32) : k1_pay16 v29 W b = projV (row0 v29) W b := by
  have h : k1_pay16 v29 W b = projV (row0 v29) W (k1_pay9 b) := rfl
  rw [h, pay9_eq]
theorem pay18_eq (v29 : FVec F S128x3x256 .f32) (W : FVec F S256x256 .f32) (b : Vec F S1x256 .f32) : k1_pay18 v29 W b = projV (row1 v29) W b := by
  have h : k1_pay18 v29 W b = projV (row1 v29) W (k1_pay7 b) := rfl
  rw [h, pay7_eq]
theorem pay19_eq (v29 : FVec F S128x3x256 .f32) (W : FVec F S256x256 .f32) (b : Vec F S1x256 .f32) : k1_pay19 v29 W b = projV (row1 v29) W b := by
  have h : k1_pay19 v29 W b = projV (row1 v29) W (k1_pay8 b) := rfl
  rw [h, pay8_eq]
theorem pay20_eq (v29 : FVec F S128x3x256 .f32) (W : FVec F S256x256 .f32) (b : Vec F S1x256 .f32) : k1_pay20 v29 W b = projV (row1 v29) W b := by
  have h : k1_pay20 v29 W b = projV (row1 v29) W (k1_pay9 b) := rfl
  rw [h, pay9_eq]

/-! ## Heads -/

theorem pay23_eq (v : FVec F S128x256 .f32) : k1_pay23 v = headsV v := rfl
theorem pay25_eq (v : FVec F S128x256 .f32) : k1_pay25 v = headsV v := rfl
theorem pay26_eq (v : FVec F S128x256 .f32) : k1_pay26 v = headsV v := rfl
theorem pay28_eq (v : FVec F S128x256 .f32) : k1_pay28 v = headsV v := rfl
theorem pay29_eq (v : FVec F S128x256 .f32) : k1_pay29 v = headsV v := rfl
theorem pay30_eq (v : FVec F S128x256 .f32) : k1_pay30 v = headsV v := rfl
theorem pay32_eq (v : FVec F S128x256 .f32) : k1_pay32 v = headsV v := rfl
theorem pay24_eq (W : FVec F S256x256 .f32) (b : FVec F S1x256 .f32) (v78 : FVec F S128x1x256 .f32) : k1_pay24 W b v78 = headsV (projV (k1_pay22 v78) W b) := rfl
theorem pay27_eq (W : FVec F S256x256 .f32) (b : FVec F S1x256 .f32) (v78 : FVec F S128x1x256 .f32) : k1_pay27 W b v78 = headsV (projV (k1_pay22 v78) W b) := rfl
theorem pay31_eq (W : FVec F S256x256 .f32) (b : FVec F S1x256 .f32) (v78 : FVec F S128x1x256 .f32) : k1_pay31 W b v78 = headsV (projV (k1_pay22 v78) W b) := rfl

/-! ## Token row 0: logits, weights, results -/

theorem pay33_eq (v60 : FVec F S128x256 .f32) : k1_pay33 v60 = scaleV (headsV v60) := rfl
theorem pay34_eq (v60 v63 : FVec F S128x256 .f32) : k1_pay34 v60 v63 = gramV (scaleV (headsV v60)) (headsV v63) := rfl
theorem pay35_eq (v60 v74 : FVec F S128x256 .f32) : k1_pay35 v60 v74 = gramV (scaleV (headsV v60)) (headsV v74) := rfl
theorem pay36_eq (v33 : FVec F S256x256 .f32) (v41 : FVec F S1x256 .f32) (v60 : FVec F S128x256 .f32) (v78 : FVec F S128x1x256 .f32) :
    k1_pay36 v33 v41 v60 v78 = gramV (scaleV (headsV v60)) (headsV (projV (k1_pay22 v78) v33 v41)) := rfl
theorem pay37_eq (v50 v60 : FVec F S128x256 .f32) : k1_pay37 v50 v60 = gramV (scaleV (headsV v60)) (headsV v50) := rfl
theorem pay44_eq (v33 : FVec F S256x256 .f32) (v41 : FVec F S1x256 .f32) (v50 v60 v63 v74 : FVec F S128x256 .f32) (v78 : FVec F S128x1x256 .f32) :
    k1_pay44 v33 v41 v50 v60 v63 v74 v78 = prob4V (k1_pay34 v60 v63) (k1_pay35 v60 v74) (k1_pay36 v33 v41 v60 v78) (k1_pay37 v50 v60) (k1_pay34 v60 v63) := rfl
theorem pay45_eq (v33 : FVec F S256x256 .f32) (v41 : FVec F S1x256 .f32) (v50 v60 v63 v74 : FVec F S128x256 .f32) (v78 : FVec F S128x1x256 .f32) :
    k1_pay45 v33 v41 v50 v60 v63 v74 v78 = prob4V (k1_pay34 v60 v63) (k1_pay35 v60 v74) (k1_pay36 v33 v41 v60 v78) (k1_pay37 v50 v60) (k1_pay35 v60 v74) := rfl
theorem pay46_eq (v33 : FVec F S256x256 .f32) (v41 : FVec F S1x256 .f32) (v50 v60 v63 v74 : FVec F S128x256 .f32) (v78 : FVec F S128x1x256 .f32) :
    k1_pay46 v33 v41 v50 v60 v63 v74 v78 = prob4V (k1_pay34 v60 v63) (k1_pay35 v60 v74) (k1_pay36 v33 v41 v60 v78) (k1_pay37 v50 v60) (k1_pay36 v33 v41 v60 v78) := rfl
theorem pay47_eq (v33 : FVec F S256x256 .f32) (v41 : FVec F S1x256 .f32) (v50 v60 v63 v74 : FVec F S128x256 .f32) (v78 : FVec F S128x1x256 .f32) :
    k1_pay47 v33 v41 v50 v60 v63 v74 v78 = prob4V (k1_pay34 v60 v63) (k1_pay35 v60 v74) (k1_pay36 v33 v41 v60 v78) (k1_pay37 v50 v60) (k1_pay37 v50 v60) := rfl
theorem pay48_eq (p0 p1 p2 p3 : FVec F S128x4 .f32) : k1_pay48 p0 p1 p2 p3 = matchRowV p0 p1 p2 p3 := rfl
theorem pay49_eq (v1 : FVec F S128x3x256 .f32) (v37 : FVec F S256x256 .f32) (v45 : FVec F S1x256 .f32) (v96 v97 v98 v99 : FVec F S128x4x64 .f32) (p0 p1 p2 p3 : FVec F S128x4 .f32) :
    k1_pay49 v1 v37 v45 v96 v97 v98 v99 p0 p1 p2 p3 = outRowV (attV p0 p1 p2 p3 v96 v97 v98 v99) v37 v45 (row0 v1) := rfl

/-! ## Token row 1 -/

theorem pay50_eq (v90 : FVec F S128x4x64 .f32) : k1_pay50 v90 = scaleV v90 := rfl
theorem pay51_eq (v90 v92 : FVec F S128x4x64 .f32) : k1_pay51 v90 v92 = gramV (scaleV v90) v92 := rfl
theorem pay52_eq (v90 v93 : FVec F S128x4x64 .f32) : k1_pay52 v90 v93 = gramV (scaleV v90) v93 := rfl
theorem pay54_53_eq (v90 v94 : FVec F S128x4x64 .f32) : k1_pay54 (k1_pay53 v90 v94) = gramV (scaleV v90) v94 := rfl
theorem pay55_eq (v95 v172 : FVec F S128x4x64 .f32) : k1_pay55 v95 v172 = gramV v172 v95 := rfl
theorem pay62_eq (v95 v172 : FVec F S128x4x64 .f32) (v174 v176 : FVec F S128x4 .f32) (v177 : FVec F S128x4x64 .f32) :
    k1_pay62 v95 v172 v174 v176 v177 = prob4V v174 v176 (k1_pay54 v177) (k1_pay55 v95 v172) v174 := rfl
theorem pay63_eq (v95 v172 : FVec F S128x4x64 .f32) (v174 v176 : FVec F S128x4 .f32) (v177 : FVec F S128x4x64 .f32) :
    k1_pay63 v95 v172 v174 v176 v177 = prob4V v174 v176 (k1_pay54 v177) (k1_pay55 v95 v172) v176 := rfl
theorem pay64_eq (v95 v172 : FVec F S128x4x64 .f32) (v174 v176 : FVec F S128x4 .f32) (v177 : FVec F S128x4x64 .f32) :
    k1_pay64 v95 v172 v174 v176 v177 = prob4V v174 v176 (k1_pay54 v177) (k1_pay55 v95 v172) (k1_pay54 v177) := rfl
theorem pay65_eq (v95 v172 : FVec F S128x4x64 .f32) (v174 v176 : FVec F S128x4 .f32) (v177 : FVec F S128x4x64 .f32) :
    k1_pay65 v95 v172 v174 v176 v177 = prob4V v174 v176 (k1_pay54 v177) (k1_pay55 v95 v172) (k1_pay55 v95 v172) := rfl
theorem pay66_eq (v95 v172 : FVec F S128x4x64 .f32) (v174 v176 : FVec F S128x4 .f32) (v177 : FVec F S128x4x64 .f32) :
    k1_pay66 v95 v172 v174 v176 v177 = matchRowV (k1_pay62 v95 v172 v174 v176 v177) (k1_pay63 v95 v172 v174 v176 v177) (k1_pay64 v95 v172 v174 v176 v177) (k1_pay65 v95 v172 v174 v176 v177) := rfl
/-- The second row's result, from the pieces the body cuts it into: the first two terms of the attended sum, the
    third weight already spread to a column, and the fourth weight. -/
theorem pay69_eq (v1 : FVec F S128x3x256 .f32) (v37 : FVec F S256x256 .f32) (v45 : FVec F S1x256 .f32) (v96 v97 v98 v99 : FVec F S128x4x64 .f32) (v95 v172 : FVec F S128x4x64 .f32) (v174 v176 : FVec F S128x4 .f32) (v177 : FVec F S128x4x64 .f32) :
    k1_pay69 v1 v37 v45 v98 v99 (k1_pay65 v95 v172 v174 v176 v177) (k1_pay67 v95 v96 v97 v172 v174 v176 v177) (k1_pay68 v95 v172 v174 v176 v177)
      = outRowV (attV (k1_pay62 v95 v172 v174 v176 v177) (k1_pay63 v95 v172 v174 v176 v177) (k1_pay64 v95 v172 v174 v176 v177) (k1_pay65 v95 v172 v174 v176 v177) v96 v97 v98 v99) v37 v45 (row1 v1) := rfl

/-! ## Token row 2 -/

theorem pay70_eq (v91 : FVec F S128x4x64 .f32) : k1_pay70 v91 = scaleV v91 := rfl
theorem pay71_eq (v91 v92 : FVec F S128x4x64 .f32) : k1_pay71 v91 v92 = gramV (scaleV v91) v92 := rfl
theorem pay72_eq (v91 v93 : FVec F S128x4x64 .f32) : k1_pay72 v91 v93 = gramV (scaleV v91) v93 := rfl
theorem pay73_eq (v91 v94 : FVec F S128x4x64 .f32) : k1_pay73 v91 v94 = gramV (scaleV v91) v94 := rfl
theorem pay74_eq (v91 v95 : FVec F S128x4x64 .f32) : k1_pay74 v91 v95 = gramV (scaleV v91) v95 := rfl
theorem pay81_eq (v91 v92 v93 v94 v95 : FVec F S128x4x64 .f32) :
    k1_pay81 v91 v92 v93 v94 v95 = prob4V (k1_pay71 v91 v92) (k1_pay72 v91 v93) (k1_pay73 v91 v94) (k1_pay74 v91 v95) (k1_pay71 v91 v92) := rfl
theorem pay82_eq (v91 v92 v93 v94 v95 : FVec F S128x4x64 .f32) :
    k1_pay82 v91 v92 v93 v94 v95 = prob4V (k1_pay71 v91 v92) (k1_pay72 v91 v93) (k1_pay73 v91 v94) (k1_pay74 v91 v95) (k1_pay72 v91 v93) := rfl
theorem pay83_eq (v91 v92 v93 v94 v95 : FVec F S128x4x64 .f32) :
    k1_pay83 v91 v92 v93 v94 v95 = prob4V (k1_pay71 v91 v92) (k1_pay72 v91 v93) (k1_pay73 v91 v94) (k1_pay74 v91 v95) (k1_pay73 v91 v94) := rfl
theorem pay84_eq (v91 v92 v93 v94 v95 : FVec F S128x4x64 .f32) :
    k1_pay84 v91 v92 v93 v94 v95 = prob4V (k1_pay71 v91 v92) (k1_pay72 v91 v93) (k1_pay73 v91 v94) (k1_pay74 v91 v95) (k1_pay74 v91 v95) := rfl
/-- The three result rows side by side; the third row is finished here. -/
theorem pay87_eq (v1 : FVec F S128x3x256 .f32) (v37 : FVec F S256x256 .f32) (v45 : FVec F S1x256 .f32) (v96 v97 v98 v99 : FVec F S128x4x64 .f32) (v170 v241 : FVec F S128x1x256 .f32) (p0 p1 p2 p3 : FVec F S128x4 .f32) :
    k1_pay87 v1 v37 v45 v96 v97 v98 v99 v170 v241 p0 p1 p2 p3
      = stackOut v170 v241 (outRowV (attV p0 p1 p2 p3 v96 v97 v98 v99) v37 v45 (row2 v1)) := rfl
/-- The three rows of head-means side by side; the third row's first mean arrives finished, its second as a bare
    head sum, its last two as weights. -/
theorem pay88_eq (v147 v218 : FVec F S128x1x4 .f32) (v91 v92 v93 v94 v95 : FVec F S128x4x64 .f32) :
    k1_pay88 v147 v218 (k1_pay83 v91 v92 v93 v94 v95) (k1_pay84 v91 v92 v93 v94 v95) (k1_pay85 v91 v92 v93 v94 v95) (k1_pay86 v91 v92 v93 v94 v95)
      = stackMatch v147 v218 (matchRowV (k1_pay81 v91 v92 v93 v94 v95) (k1_pay82 v91 v92 v93 v94 v95) (k1_pay83 v91 v92 v93 v94 v95) (k1_pay84 v91 v92 v93 v94 v95)) := rfl

/-! ## The two stored buffers -/

theorem offs3_zero : (![0, 0, 0] : Fin 3 → Nat) = fun _ => 0 := funext fun a => by fin_cases a <;> rfl
theorem offs2_zero : (![0, 0] : Fin 2 → Nat) = fun _ => 0 := funext fun a => by fin_cases a <;> rfl

/-- The one store of the first result covers its whole buffer, every load reads a whole block, and the stored
    value is the composition of whole-vector steps. -/
theorem out1_13_eq (x0 : Vec F S128x3x256 .f32) (x1 x2 : Vec F S1x256 .f32) (x3 : Vec F S256x256 .f32)
    (x4 : Vec F S1x256 .f32) (x5 : Vec F S256x256 .f32) (x6 : Vec F S1x256 .f32) (x7 : Vec F S256x256 .f32)
    (x8 : Vec F S1x256 .f32) (x9 : Vec F S256x256 .f32) (x10 x11 x12 : Vec F S1x256 .f32) :
    Gen.out1_13 x0 x1 x2 x3 x4 x5 x6 x7 x8 x9 x10 x11 x12 = epiOut x0 x0 x1 x2 x3 x4 x5 x6 x7 x8 x9 x10 x11 x12 := by
  unfold Gen.out1_13
  rw [View.canon_unit_zero offs3_zero]
  simp only [View.ld_unit_zero (S := S128x3x256) offs3_zero, View.ld_unit_zero (S := S1x256) offs2_zero,
    View.ld_unit_zero (S := S256x256) offs2_zero]
  simp only [pay69_eq]
  simp only [
    pay1_eq, pay3_eq, pay4_eq, pay5_eq, pay6_eq, pay7_eq, pay8_eq, pay9_eq, pay10_eq, pay11_eq, pay12_eq,
    pay13_eq, pay14_eq, pay15_eq, pay16_eq, pay17_eq, pay18_eq, pay19_eq, pay20_eq, pay23_eq, pay24_eq,
    pay25_eq, pay26_eq, pay27_eq, pay28_eq, pay29_eq, pay30_eq, pay31_eq, pay32_eq, pay33_eq, pay34_eq,
    pay35_eq, pay36_eq, pay37_eq, pay44_eq, pay45_eq, pay46_eq, pay47_eq, pay48_eq, pay49_eq, pay50_eq,
    pay51_eq, pay52_eq, pay55_eq, pay62_eq, pay63_eq, pay64_eq, pay65_eq, pay66_eq, pay70_eq, pay71_eq,
    pay72_eq, pay73_eq, pay74_eq, pay81_eq, pay82_eq, pay83_eq, pay84_eq, pay87_eq, pay22_21_eq, pay54_53_eq]
  rfl

theorem out1_14_eq (x0 : Vec F S128x3x256 .f32) (x1 x2 : Vec F S1x256 .f32) (x3 : Vec F S256x256 .f32)
    (x4 : Vec F S1x256 .f32) (x5 : Vec F S256x256 .f32) (x6 : Vec F S1x256 .f32) (x7 : Vec F S256x256 .f32)
    (x8 : Vec F S1x256 .f32) (x9 : Vec F S256x256 .f32) (x10 x11 x12 : Vec F S1x256 .f32) :
    Gen.out1_14 x0 x1 x2 x3 x4 x5 x6 x7 x8 x9 x10 x11 x12 = epiMatch x0 x1 x2 x3 x4 x5 x6 x11 := by
  unfold Gen.out1_14
  rw [View.canon_unit_zero offs3_zero]
  simp only [View.ld_unit_zero (S := S128x3x256) offs3_zero, View.ld_unit_zero (S := S1x256) offs2_zero,
    View.ld_unit_zero (S := S256x256) offs2_zero]
  simp only [pay88_eq]
  simp only [
    pay1_eq, pay3_eq, pay4_eq, pay5_eq, pay6_eq, pay7_eq, pay8_eq, pay9_eq, pay10_eq, pay11_eq, pay12_eq,
    pay13_eq, pay14_eq, pay15_eq, pay16_eq, pay17_eq, pay18_eq, pay19_eq, pay20_eq, pay23_eq, pay24_eq,
    pay25_eq, pay26_eq, pay27_eq, pay28_eq, pay29_eq, pay30_eq, pay31_eq, pay32_eq, pay33_eq, pay34_eq,
    pay35_eq, pay36_eq, pay37_eq, pay44_eq, pay45_eq, pay46_eq, pay47_eq, pay48_eq, pay49_eq, pay50_eq,
    pay51_eq, pay52_eq, pay55_eq, pay62_eq, pay63_eq, pay64_eq, pay65_eq, pay66_eq, pay70_eq, pay71_eq,
    pay72_eq, pay73_eq, pay74_eq, pay81_eq, pay82_eq, pay83_eq, pay84_eq, pay87_eq, pay22_21_eq, pay54_53_eq]
  rfl

end Cert.KernelIdeal.Epi
end
-- ==== Proof.Spec.lean ====
/- The function both programs compute, written once over the extended reals, index by index.

   Three sequences x₁, x₂, x₃ of shape [128, 4096, 256] are averaged over their 4096 positions into three tokens per
   batch row, `fea` of shape [128, 3, 256]. Each token is layer-normalised over its 256 features (mean, centred square
   mean, reciprocal square root of variance plus ε, scale and shift) and projected three ways (query θ, key φ, value μ),
   each projection a 256×256 matrix applied on the feature axis plus a bias. A fourth, learned "register" key and value
   row is appended, the same for every batch row. The 256 projected features are read as 4 heads of 64. For each head and
   query token, the four logits are the scaled query dotted with each key; they are shifted by their maximum,
   exponentiated, and normalised by their sum. The normalised weights, averaged over the heads, are the second result;
   the weights applied to the values, heads laid side by side again, projected once more, biased, and added to `fea`,
   are the first.

   The normalisation of an exponential `e` by the sum `s` is a PARAMETER `norm e s`: one program computes `e / s`, the
   other `e · (1 / s)`; the two agree wherever `s ≠ 0`, which holds on finite inputs (another module). -/
import Idealize.ShloMosaic.PureOps.Ideal
import Idealize.ShloMosaic.Lib.ValueIdx

noncomputable section

open scoped BigOperators

namespace Cert.Spec

open Idealize.ShloMosaic Idealize.ShloMosaic.ValueIdx

/-- Arrays of extended reals over a literal shape of rank 1, 2, 3. -/
abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

/-- The literals the programs share, as their patterns (never evaluated here). -/
abbrev cLen : EReal := Ideal.ofBits .f32 0x45800000#32      -- 4096
abbrev cInvLen : EReal := Ideal.ofBits .f32 0x39800000#32   -- 1/4096
abbrev cDim : EReal := Ideal.ofBits .f32 0x43800000#32      -- 256
abbrev cEps : EReal := Ideal.ofBits .f32 0x3727C5AC#32      -- the layer-norm ε
abbrev cScale : EReal := Ideal.ofBits .f32 0x3E000000#32    -- 1/8 = 1/√64
abbrev cHeads : EReal := Ideal.ofBits .f32 0x40800000#32    -- 4
abbrev cOne : EReal := Ideal.ofBits .f32 0x3F800000#32      -- 1

/-! ## Pooling -/

/-- The mean of `x[b, ·, d]` over the 4096 positions, as a quotient. -/
def pool (x : A3 128 4096 256) (b : Fin 128) (d : Fin 256) : EReal :=
  Ideal.div (∑ l : Fin 4096, x (ix3 b l d)) cLen

/-- The same mean as a product with the reciprocal `2⁻¹²`. -/
def poolMul (x : A3 128 4096 256) (b : Fin 128) (d : Fin 256) : EReal :=
  (∑ l : Fin 4096, x (ix3 b l d)) * cInvLen

/-- The three pooled tokens per batch row (quotient form). -/
def fea (x1 x2 x3 : A3 128 4096 256) : A3 128 3 256 := fun j =>
  match j 1 with
  | ⟨0, _⟩ => pool x1 (j 0) (j 2)
  | ⟨1, _⟩ => pool x2 (j 0) (j 2)
  | ⟨_ + 2, _⟩ => pool x3 (j 0) (j 2)

/-- The three pooled tokens per batch row (product form). -/
def feaMul (x1 x2 x3 : A3 128 4096 256) : A3 128 3 256 := fun j =>
  match j 1 with
  | ⟨0, _⟩ => poolMul x1 (j 0) (j 2)
  | ⟨1, _⟩ => poolMul x2 (j 0) (j 2)
  | ⟨_ + 2, _⟩ => poolMul x3 (j 0) (j 2)

/-! ## The parameters -/

/-- The learned parameters: layer-norm scale and shift; the four projections' matrices (indexed [output, input])
    and biases; the register key and value rows. -/
structure Params where
  lnw : A1 256
  lnb : A1 256
  Wt : A2 256 256
  bt : A1 256
  Wp : A2 256 256
  bp : A1 256
  Wm : A2 256 256
  bm : A1 256
  Wo : A2 256 256
  bo : A1 256
  rp : A3 1 1 256
  rm : A3 1 1 256

/-! ## Layer norm and the projections -/

/-- A batch row's tokens' features, and the same with a fourth (register) row. -/
abbrev Tok3 : Type := Fin 128 → Fin 3 → Fin 256 → EReal
abbrev Tok4 : Type := Fin 128 → Fin 4 → Fin 256 → EReal

section Norm

variable (f : A3 128 3 256) (lnw lnb : A1 256)

/-- The mean of a token's 256 features. -/
def mean (b : Fin 128) (n : Fin 3) : EReal := Ideal.div (∑ d : Fin 256, f (ix3 b n d)) cDim

/-- A feature minus its token's mean. -/
def cen (b : Fin 128) (n : Fin 3) (d : Fin 256) : EReal := f (ix3 b n d) - mean f b n

/-- The mean of the centred squares. -/
def var (b : Fin 128) (n : Fin 3) : EReal := Ideal.div (∑ d : Fin 256, cen f b n d * cen f b n d) cDim

/-- The normalised token: centred, scaled by `(var + ε)^(-1/2)`, then the learned scale and shift. -/
def xn : Tok3 := fun b n d =>
  cen f b n d * Ideal.rsqrt (var f b n + cEps) * lnw (ix1 d) + lnb (ix1 d)

/-- A projection of the normalised token: `∑ d, xn[b, n, d] · W[i, d] + bias[i]`. -/
def proj (W : A2 256 256) (bias : A1 256) : Tok3 := fun b n i =>
  (∑ d : Fin 256, xn f lnw lnb b n d * W (ix2 i d)) + bias (ix1 i)

end Norm

/-- Three token rows followed by the register row `r`, the same for every batch row. -/
def withReg (t : Tok3) (r : A3 1 1 256) : Tok4 := fun b m i =>
  if h : m.val < 3 then t b ⟨m.val, h⟩ i else r (ix3 0 0 i)

/-! ## Attention of three queries over four keys, in four heads of 64 features -/

/-- Feature `e` of head `h` among the 256. -/
def hd (h : Fin 4) (e : Fin 64) : Fin 256 := ⟨64 * h.val + e.val, by omega⟩

/-- The head a feature belongs to. -/
def headOf (i : Fin 256) : Fin 4 := ⟨i.val / 64, by omega⟩

section Attention

variable (norm : EReal → EReal → EReal) (θ : Tok3) (φ μ : Tok4)

/-- The logit of query token `n` against key `m` in head `h`: the scaled query dotted with the key. -/
def gram (b : Fin 128) (h : Fin 4) (n : Fin 3) (m : Fin 4) : EReal :=
  ∑ e : Fin 64, (θ b n (hd h e) * cScale) * φ b m (hd h e)

/-- The largest of the four logits. -/
def gmax (b : Fin 128) (h : Fin 4) (n : Fin 3) : EReal :=
  max (max (max (gram θ φ b h n 0) (gram θ φ b h n 1)) (gram θ φ b h n 2)) (gram θ φ b h n 3)

/-- A shifted logit's exponential. -/
def ex (b : Fin 128) (h : Fin 4) (n : Fin 3) (m : Fin 4) : EReal :=
  Ideal.exp (gram θ φ b h n m - gmax θ φ b h n)

/-- The four exponentials' sum. -/
def esum (b : Fin 128) (h : Fin 4) (n : Fin 3) : EReal := ∑ m : Fin 4, ex θ φ b h n m

/-- The attention weight. -/
def prob (b : Fin 128) (h : Fin 4) (n : Fin 3) (m : Fin 4) : EReal := norm (ex θ φ b h n m) (esum θ φ b h n)

/-- The weights averaged over the four heads. -/
def matchMean : A3 128 3 4 := fun j =>
  Ideal.div (∑ h : Fin 4, prob norm θ φ (j 0) h (j 1) (j 2)) cHeads

/-- The attended values, heads side by side. -/
def att : Tok3 := fun b n i =>
  ∑ m : Fin 4, prob norm θ φ b (headOf i) n m * μ b m i

end Attention

/-- The output projection of attended values `a`, plus bias, plus the residual `f`. -/
def outOf (a : Tok3) (Wo : A2 256 256) (bo : A1 256) (f : A3 128 3 256) : A3 128 3 256 := fun j =>
  ((∑ i : Fin 256, a (j 0) (j 1) i * Wo (ix2 (j 2) i)) + bo (ix1 (j 2))) + f j

/-! ## The two results -/

section Results

variable (norm : EReal → EReal → EReal) (f : A3 128 3 256) (p : Params)

/-- Queries, keys and values from the pooled tokens and the parameters. -/
def theta : Tok3 := proj f p.lnw p.lnb p.Wt p.bt
def phi4 : Tok4 := withReg (proj f p.lnw p.lnb p.Wp p.bp) p.rp
def mu4 : Tok4 := withReg (proj f p.lnw p.lnb p.Wm p.bm) p.rm

/-- FIRST RESULT. -/
def out : A3 128 3 256 :=
  outOf (att norm (theta f p) (phi4 f p) (mu4 f p)) p.Wo p.bo f

/-- SECOND RESULT. -/
def matchOut : A3 128 3 4 := matchMean norm (theta f p) (phi4 f p)

end Results

/-- The two normalisations. -/
def normDiv (e s : EReal) : EReal := Ideal.div e s
def normMul (e s : EReal) : EReal := e * Ideal.div cOne s

end Cert.Spec

end
-- ==== Proof.Consts.lean ====
/- The float patterns the two programs spell, as the extended reals they denote: the sequence length 4096 and its
   reciprocal 2⁻¹² (a dyadic, so the pooled mean's product and quotient forms agree), the feature width 256, the
   head count 4, the attention scale 1/8, the unit 1, the layer-norm ε (only its sign and finiteness matter), zero,
   and −∞ (the seed of the reference's running maximum). Stated once, so that no other module unfolds a pattern. -/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_4096 : Ideal.ofBits .f32 0x45800000#32 = ((4096 : ℝ) : EReal) := by
  simp [Ideal.ofBits, Ideal.ieee, -EReal.coe_mul]; norm_num

theorem ofBits_inv4096 : Ideal.ofBits .f32 0x39800000#32 = ((1 / 4096 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_4 : Ideal.ofBits .f32 0x40800000#32 = ((4 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_neg_inf : Ideal.ofBits .f32 0xFF800000#32 = ⊥ := by
  simp [Ideal.ofBits, Ideal.ieee]

/-- The layer-norm ε is a positive real. -/
theorem ofBits_eps : ∃ r : ℝ, 0 < r ∧ Ideal.ofBits .f32 0x3727C5AC#32 = (r : EReal) := by
  refine ⟨_, ?_, by simp [Ideal.ofBits, Ideal.ieee, -EReal.coe_mul]; rfl⟩
  norm_num

end Cert.Consts

end
-- ==== Proof.KEpiAtt.lean ====
/- The attention half of the second kernel's body, read index by index over the extended reals: the scaled query, a
   logit as a sum over the 64 lanes of a head, a weight as a shifted exponential times the reciprocal of the four
   shifted exponentials' sum, the mean of a weight over the four heads and the row of four such means, a weight times
   a value and the four such products added, the heads laid side by side again, the output row, and the three rows of
   either result side by side. Each statement names one entry of the vector by its coordinates. -/
import proofs.«428392_j60172491817603_3_alg».proof.Proof.KEpiOps
import proofs.«428392_j60172491817603_3_alg».proof.Proof.Spec
import proofs.«428392_j60172491817603_3_alg».proof.Proof.Consts
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

namespace Cert.KernelIdeal.Epi

open Idealize.ShloMosaic Idealize.SL.Sem Cert.KernelIdeal Cert.KernelIdeal.Gen

/-! ## The attention functions read at an index, over the extended reals -/

section AtIdeal

open Idealize.ShloMosaic.ValueIdx
open scoped BigOperators

/-- The scaled query at an index: the query there times the scale literal. -/
theorem scaleV_apply (q : FVec Ideal S128x4x64 .f32) (b : Fin 128) (h : Fin 4) (e : Fin 64) :
    scaleV q (ix3 b h e) = q (ix3 b h e) * Cert.Spec.cScale := rfl

/-- The index of lane e over the reduced index (b, h) is (b, h, e). -/
theorem lift_lane (b : Fin 128) (h : Fin 4) (e : Fin 64) :
    reduces_S128x4x64_S128x4.lift (ix2 b h) e = ix3 b h e := by
  funext a; apply Fin.ext
  match a with
  | ⟨0, _⟩ => rfl
  | ⟨1, _⟩ => rfl
  | ⟨2, _⟩ => rfl

/-- A logit at (b, h): the sum over the 64 lanes of the products. -/
theorem gramV_apply (q k : FVec Ideal S128x4x64 .f32) (b : Fin 128) (h : Fin 4) :
    gramV q k (ix2 b h) = ∑ e : Fin 64, q (ix3 b h e) * k (ix3 b h e) := by
  unfold gramV
  refine (Ideal.multiReduction_add_single (mulf q k) 0x00000000#32 reduces_S128x4x64_S128x4 (.inl rfl) rfl (ix2 b h)).trans ?_
  refine Finset.sum_congr rfl fun e _ => ?_
  exact congrArg (fun i => q i * k i) (lift_lane b h e)

/-- A weight at (b, h): the shifted exponential times the reciprocal of the four shifted exponentials' sum. -/
theorem prob4V_apply (g0 g1 g2 g3 gi : FVec Ideal S128x4 .f32) (b : Fin 128) (h : Fin 4) :
    prob4V g0 g1 g2 g3 gi (ix2 b h)
      = Cert.Spec.normMul
          (Ideal.exp (gi (ix2 b h) - max (max (max (g0 (ix2 b h)) (g1 (ix2 b h))) (g2 (ix2 b h))) (g3 (ix2 b h))))
          (((Ideal.exp (g0 (ix2 b h) - max (max (max (g0 (ix2 b h)) (g1 (ix2 b h))) (g2 (ix2 b h))) (g3 (ix2 b h)))
            + Ideal.exp (g1 (ix2 b h) - max (max (max (g0 (ix2 b h)) (g1 (ix2 b h))) (g2 (ix2 b h))) (g3 (ix2 b h))))
            + Ideal.exp (g2 (ix2 b h) - max (max (max (g0 (ix2 b h)) (g1 (ix2 b h))) (g2 (ix2 b h))) (g3 (ix2 b h))))
            + Ideal.exp (g3 (ix2 b h) - max (max (max (g0 (ix2 b h)) (g1 (ix2 b h))) (g2 (ix2 b h))) (g3 (ix2 b h)))) := rfl

/-- The index of head h over the reduced index b is (b, h). -/
theorem lift_head (b : Fin 128) (h : Fin 4) : reduces_S128x4_S128.lift (ix1 b) h = ix2 b h := by
  funext a; apply Fin.ext
  match a with
  | ⟨0, _⟩ => rfl
  | ⟨1, _⟩ => rfl

/-- The head-mean column at (b, 0): the sum over the four heads, divided by the head count. -/
theorem matchColV_apply (p : FVec Ideal S128x4 .f32) (b : Fin 128) (u : Fin 1) :
    matchColV p (ix2 b u) = Ideal.div (∑ h : Fin 4, p (ix2 b h)) Cert.Spec.cHeads := by
  show Ideal.div (shapeCast S128x1 (multiReduction (F := Ideal) .add [1] S128 p 0x00000000#32 reduces_S128x4_S128 (.inl rfl) rfl)
      shapeCasts_S128_S128x1 (ix2 b u)) Cert.Spec.cHeads = _
  congr 1
  refine (shapeCast_apply _ shapeCasts_S128_S128x1 (ix2 b u) (ix1 b) ?_).trans ?_
  · rw [Shape.rowMajor_val_one, Shape.rowMajor_val_two]
    show b.val = b.val * 1 + u.val
    omega
  refine (Ideal.multiReduction_add_single p 0x00000000#32 reduces_S128x4_S128 (.inl rfl) rfl (ix1 b)).trans ?_
  exact Finset.sum_congr rfl fun h _ => congrArg p (lift_head b h)

/-- Off the joined axis 1, a rank-2 piece's index (b, 0) has the coordinates of (b, m). -/
theorem off_axis2 (b : Fin 128) (m : Fin 4) (a : Fin 2) (ha : a ≠ 1) :
    ((ix2 b (0 : Fin 1) : S128x1.Idx) a).val = ((ix2 b m : S128x4.Idx) a).val := by
  match a, ha with
  | ⟨0, _⟩, _ => rfl
  | ⟨1, _⟩, ha => exact absurd rfl ha

/-- Four unit columns side by side, at (b, m): column m at (b, 0). -/
theorem concat4_apply (c0 c1 c2 c3 : FVec Ideal S128x1 .f32) (b : Fin 128) (m : Fin 4) :
    concatenate S128x4 1 [⟨S128x1, c0⟩, ⟨S128x1, c1⟩, ⟨S128x1, c2⟩, ⟨S128x1, c3⟩]
        concatenates_S128x1_S128x1_S128x1_S128x1_S128x4_d1 (ix2 b m)
      = (![c0, c1, c2, c3] m) (ix2 b 0) := by
  match m with
  | ⟨0, _⟩ =>
    exact concatenate_apply_piece (t := S128x4) (1 : Fin 2) [⟨S128x1, c0⟩, ⟨S128x1, c1⟩, ⟨S128x1, c2⟩, ⟨S128x1, c3⟩]
      concatenates_S128x1_S128x1_S128x1_S128x1_S128x4_d1 (ix2 b ⟨0, by decide⟩) 0 (by simp) S128x1 c0 rfl rfl 0 rfl (ix2 b 0)
      (fun a ha => off_axis2 b ⟨0, by decide⟩ a ha) rfl
  | ⟨1, _⟩ =>
    exact concatenate_apply_piece (t := S128x4) (1 : Fin 2) [⟨S128x1, c0⟩, ⟨S128x1, c1⟩, ⟨S128x1, c2⟩, ⟨S128x1, c3⟩]
      concatenates_S128x1_S128x1_S128x1_S128x1_S128x4_d1 (ix2 b ⟨1, by decide⟩) 1 (by simp) S128x1 c1 rfl rfl 1 rfl (ix2 b 0)
      (fun a ha => off_axis2 b ⟨1, by decide⟩ a ha) rfl
  | ⟨2, _⟩ =>
    exact concatenate_apply_piece (t := S128x4) (1 : Fin 2) [⟨S128x1, c0⟩, ⟨S128x1, c1⟩, ⟨S128x1, c2⟩, ⟨S128x1, c3⟩]
      concatenates_S128x1_S128x1_S128x1_S128x1_S128x4_d1 (ix2 b ⟨2, by decide⟩) 2 (by simp) S128x1 c2 rfl rfl 2 rfl (ix2 b 0)
      (fun a ha => off_axis2 b ⟨2, by decide⟩ a ha) rfl
  | ⟨3, _⟩ =>
    exact concatenate_apply_piece (t := S128x4) (1 : Fin 2) [⟨S128x1, c0⟩, ⟨S128x1, c1⟩, ⟨S128x1, c2⟩, ⟨S128x1, c3⟩]
      concatenates_S128x1_S128x1_S128x1_S128x1_S128x4_d1 (ix2 b ⟨3, by decide⟩) 3 (by simp) S128x1 c3 rfl rfl 3 rfl (ix2 b 0)
      (fun a ha => off_axis2 b ⟨3, by decide⟩ a ha) rfl

/-- A [128, 4] array viewed [128, 1, 4] reads (b, m) at (b, 0, m). -/
theorem cast_row4 (x : FVec Ideal S128x4 .f32) (b : Fin 128) (u : Fin 1) (m : Fin 4) :
    shapeCast S128x1x4 x shapeCasts_S128x4_S128x1x4 (ix3 b u m) = x (ix2 b m) :=
  shapeCast_apply x _ _ _ (by
    rw [Shape.rowMajor_val_two, Shape.rowMajor_val_three]
    show b.val * 4 + m.val = (b.val * 1 + u.val) * 4 + m.val
    omega)

/-- The row of four head-means at (b, 0, m): the m-th weight summed over the heads, divided by the head count. -/
theorem matchRowV_apply (p0 p1 p2 p3 : FVec Ideal S128x4 .f32) (b : Fin 128) (m : Fin 4) :
    matchRowV p0 p1 p2 p3 (ix3 b 0 m) = Ideal.div (∑ h : Fin 4, (![p0, p1, p2, p3] m) (ix2 b h)) Cert.Spec.cHeads := by
  unfold matchRowV
  refine (cast_row4 _ b 0 m).trans ?_
  refine (concat4_apply _ _ _ _ b m).trans ?_
  match m with
  | ⟨0, _⟩ => exact matchColV_apply p0 b 0
  | ⟨1, _⟩ => exact matchColV_apply p1 b 0
  | ⟨2, _⟩ => exact matchColV_apply p2 b 0
  | ⟨3, _⟩ => exact matchColV_apply p3 b 0

/-- A weight spread over its head's lanes times a value, at (b, h, e). -/
theorem wvV_apply (p : FVec Ideal S128x4 .f32) (v : FVec Ideal S128x4x64 .f32) (b : Fin 128) (h : Fin 4) (e : Fin 64) :
    wvV p v (ix3 b h e) = p (ix2 b h) * v (ix3 b h e) := by
  show broadcastTo S128x4x64 (shapeCast S128x4x1 p shapeCasts_S128x4_S128x4x1) broadcasts_S128x4x1_S128x4x64 (ix3 b h e)
      * v (ix3 b h e) = _
  congr 1
  refine (broadcastTo_apply _ broadcasts_S128x4x1_S128x4x64 (ix3 b h e) (ix3 b h (0 : Fin 1)) fun a => ?_).trans ?_
  · match a with
    | ⟨0, _⟩ => rfl
    | ⟨1, _⟩ => rfl
    | ⟨2, _⟩ => rfl
  · exact shapeCast_apply p _ _ _ (by
      rw [Shape.rowMajor_val_two, Shape.rowMajor_val_three]
      show b.val * 4 + h.val = (b.val * 4 + h.val) * 1 + 0
      omega)

/-- The attended values at (b, h, e): the four weights times the four values, summed. -/
theorem attV_apply (p0 p1 p2 p3 : FVec Ideal S128x4 .f32) (v0 v1 v2 v3 : FVec Ideal S128x4x64 .f32)
    (b : Fin 128) (h : Fin 4) (e : Fin 64) :
    attV p0 p1 p2 p3 v0 v1 v2 v3 (ix3 b h e)
      = ∑ m : Fin 4, (![p0, p1, p2, p3] m) (ix2 b h) * (![v0, v1, v2, v3] m) (ix3 b h e) := by
  rw [Fin.sum_univ_four]
  show ((wvV p0 v0 (ix3 b h e) + wvV p1 v1 (ix3 b h e)) + wvV p2 v2 (ix3 b h e)) + wvV p3 v3 (ix3 b h e) = _
  rw [wvV_apply, wvV_apply, wvV_apply, wvV_apply]
  rfl

/-- Heads laid side by side: feature i of the 256 is lane i mod 64 of head i / 64. -/
theorem flatV_at (a : FVec Ideal S128x4x64 .f32) (b : Fin 128) (i : Fin 256) :
    flatV a (ix2 b i) = a (ix3 b (Cert.Spec.headOf i) ⟨i.val % 64, Nat.mod_lt _ (by norm_num)⟩) :=
  shapeCast_apply a shapeCasts_S128x4x64_S128x256 _ _ (by
    rw [Shape.rowMajor_val_three, Shape.rowMajor_val_two]
    show (b.val * 4 + i.val / 64) * 64 + i.val % 64 = b.val * 256 + i.val
    omega)

/-- The output row at (b, 0, j): the projection of the flattened heads there plus the residual. -/
theorem outRowV_at (a : FVec Ideal S128x4x64 .f32) (Wo : FVec Ideal S256x256 .f32) (bo : FVec Ideal S1x256 .f32)
    (res : FVec Ideal S128x256 .f32) (b : Fin 128) (j : Fin 256) :
    outRowV a Wo bo res (ix3 b 0 j) = projV (flatV a) Wo bo (ix2 b j) + res (ix2 b j) :=
  shapeCast_apply _ shapeCasts_S128x256_S128x1x256 (ix3 b 0 j) (ix2 b j) (by
    rw [Shape.rowMajor_val_two, Shape.rowMajor_val_three]
    show b.val * 256 + j.val = (b.val * 1 + 0) * 256 + j.val
    omega)

/-- Off the joined axis 1, a rank-3 piece's index (b, 0, j) has the coordinates of (b, n, j). -/
theorem off_axis3 {w : Nat} (b : Fin 128) (n : Fin 3) (j : Fin w) (a : Fin 3) (ha : a ≠ 1) :
    ((ix3 b (0 : Fin 1) j : (⟨3, ![128, 1, w]⟩ : Shape).Idx) a).val = ((ix3 b n j : (⟨3, ![128, 3, w]⟩ : Shape).Idx) a).val := by
  match a, ha with
  | ⟨0, _⟩, _ => rfl
  | ⟨1, _⟩, ha => exact absurd rfl ha
  | ⟨2, _⟩, _ => rfl

/-- Three output rows side by side, at (b, n, j): row n at (b, 0, j). -/
theorem stackOut_apply (r0 r1 r2 : FVec Ideal S128x1x256 .f32) (b : Fin 128) (n : Fin 3) (j : Fin 256) :
    stackOut r0 r1 r2 (ix3 b n j) = (![r0, r1, r2] n) (ix3 b 0 j) := by
  unfold stackOut
  match n with
  | ⟨0, _⟩ =>
    exact concatenate_apply_piece (t := S128x3x256) (1 : Fin 3) [⟨S128x1x256, r0⟩, ⟨S128x1x256, r1⟩, ⟨S128x1x256, r2⟩]
      concatenates_S128x1x256_S128x1x256_S128x1x256_S128x3x256_d1 (ix3 b ⟨0, by decide⟩ j) 0 (by simp) S128x1x256 r0 rfl rfl 0 rfl
      (ix3 b 0 j) (fun a ha => off_axis3 b ⟨0, by decide⟩ j a ha) rfl
  | ⟨1, _⟩ =>
    exact concatenate_apply_piece (t := S128x3x256) (1 : Fin 3) [⟨S128x1x256, r0⟩, ⟨S128x1x256, r1⟩, ⟨S128x1x256, r2⟩]
      concatenates_S128x1x256_S128x1x256_S128x1x256_S128x3x256_d1 (ix3 b ⟨1, by decide⟩ j) 1 (by simp) S128x1x256 r1 rfl rfl 1 rfl
      (ix3 b 0 j) (fun a ha => off_axis3 b ⟨1, by decide⟩ j a ha) rfl
  | ⟨2, _⟩ =>
    exact concatenate_apply_piece (t := S128x3x256) (1 : Fin 3) [⟨S128x1x256, r0⟩, ⟨S128x1x256, r1⟩, ⟨S128x1x256, r2⟩]
      concatenates_S128x1x256_S128x1x256_S128x1x256_S128x3x256_d1 (ix3 b ⟨2, by decide⟩ j) 2 (by simp) S128x1x256 r2 rfl rfl 2 rfl
      (ix3 b 0 j) (fun a ha => off_axis3 b ⟨2, by decide⟩ j a ha) rfl

/-- Three head-mean rows side by side, at (b, n, m): row n at (b, 0, m). -/
theorem stackMatch_apply (r0 r1 r2 : FVec Ideal S128x1x4 .f32) (b : Fin 128) (n : Fin 3) (m : Fin 4) :
    stackMatch r0 r1 r2 (ix3 b n m) = (![r0, r1, r2] n) (ix3 b 0 m) := by
  unfold stackMatch
  match n with
  | ⟨0, _⟩ =>
    exact concatenate_apply_piece (t := S128x3x4) (1 : Fin 3) [⟨S128x1x4, r0⟩, ⟨S128x1x4, r1⟩, ⟨S128x1x4, r2⟩]
      concatenates_S128x1x4_S128x1x4_S128x1x4_S128x3x4_d1 (ix3 b ⟨0, by decide⟩ m) 0 (by simp) S128x1x4 r0 rfl rfl 0 rfl
      (ix3 b 0 m) (fun a ha => off_axis3 b ⟨0, by decide⟩ m a ha) rfl
  | ⟨1, _⟩ =>
    exact concatenate_apply_piece (t := S128x3x4) (1 : Fin 3) [⟨S128x1x4, r0⟩, ⟨S128x1x4, r1⟩, ⟨S128x1x4, r2⟩]
      concatenates_S128x1x4_S128x1x4_S128x1x4_S128x3x4_d1 (ix3 b ⟨1, by decide⟩ m) 1 (by simp) S128x1x4 r1 rfl rfl 1 rfl
      (ix3 b 0 m) (fun a ha => off_axis3 b ⟨1, by decide⟩ m a ha) rfl
  | ⟨2, _⟩ =>
    exact concatenate_apply_piece (t := S128x3x4) (1 : Fin 3) [⟨S128x1x4, r0⟩, ⟨S128x1x4, r1⟩, ⟨S128x1x4, r2⟩]
      concatenates_S128x1x4_S128x1x4_S128x1x4_S128x3x4_d1 (ix3 b ⟨2, by decide⟩ m) 2 (by simp) S128x1x4 r2 rfl rfl 2 rfl
      (ix3 b 0 m) (fun a ha => off_axis3 b ⟨2, by decide⟩ m a ha) rfl

end AtIdeal

end Cert.KernelIdeal.Epi

end
-- ==== Proof.KEpiFront.lean ====
/- The front of the second kernel's body, read entry by entry.

   The layer norm of the [128, 3, 256] block of tokens: at (b, n, d) it is the entry minus its token's mean over the
   256 features, times the reciprocal square root of (the mean of the centred squares plus ε), times the scale row at d,
   plus the shift row at d. A token row taken out of the block: (b, d) ↦ the block at (b, k, d). A projection: at
   (b, i) the sum over d of row[b, d] · W[d, i], plus bias[i]. The register row: the same [1, 256] row for every b.
   The 256 features read as 4 heads of 64, feature 64 h + e ↔ (h, e), and back. Last, a token row of the layer norm
   put through a projection is the specification's projection of that token. -/
import proofs.«428392_j60172491817603_3_alg».proof.Proof.KEpiOps
import proofs.«428392_j60172491817603_3_alg».proof.Proof.Spec
import proofs.«428392_j60172491817603_3_alg».proof.Proof.Consts
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

open scoped BigOperators

namespace Cert.KernelIdeal.Epi

open Idealize.ShloMosaic Idealize.SL.Sem Cert.KernelIdeal Cert.KernelIdeal.Gen Idealize.ShloMosaic.ValueIdx

/-! ## Three re-readings of the parameter arrays -/

/-- a [1, 256] row as a rank-1 array -/
def rowA (x : S1x256.Idx → EReal) : Cert.Spec.A1 256 := fun j => x (ix2 0 (j 0))
/-- a [256, 256] matrix read transposed -/
def trA (W : S256x256.Idx → EReal) : Cert.Spec.A2 256 256 := fun j => W (ix2 (j 1) (j 0))
/-- a [1, 256] row as a [1, 1, 256] array -/
def regA (x : S1x256.Idx → EReal) : Cert.Spec.A3 1 1 256 := fun j => x (ix2 0 (j 2))

/-! ## Re-indexings, one entry at a time -/

section Layout
variable {α : Type}

/-- The sum over the last axis of a [128, 3, 256] array, read at (b, n): the sum over d of the entries (b, n, d). -/
theorem laneSum_apply (x : FVec Ideal S128x3x256 .f32) (hφ : FTy.f32 = FTy.f32 ∨ FTy.f32 = FTy.bf16)
    (hacc : (0x00000000#32 : BitVec FTy.f32.bits) = 0x00000000#32) (b : Fin 128) (n : Fin 3) :
    multiReduction (F := Ideal) .add [2] S128x3 x 0x00000000#32 reduces_S128x3x256_S128x3 hφ hacc (ix2 b n)
      = ∑ d : Fin 256, x (ix3 b n d) := by
  refine (Ideal.multiReduction_add_single x 0x00000000#32 reduces_S128x3x256_S128x3 hφ hacc (ix2 b n)).trans ?_
  refine Finset.sum_congr rfl fun k _ => congrArg x ?_
  funext a
  match a with
  | ⟨0, _⟩ => rfl
  | ⟨1, _⟩ => rfl
  | ⟨2, _⟩ => rfl

/-- A [128, 3] array given a trailing unit axis: entry (b, n, 0) is entry (b, n). -/
theorem keep_apply (x : S128x3.Idx → α) (b : Fin 128) (n : Fin 3) (u : Fin 1) :
    shapeCast S128x3x1 x shapeCasts_S128x3_S128x3x1 (ix3 b n u) = x (ix2 b n) :=
  shapeCast_apply x _ _ _ (by
    have hu : u.val = 0 := by omega
    rw [Shape.rowMajor_val_two, Shape.rowMajor_val_three]
    show b.val * 3 + n.val = (b.val * 3 + n.val) * 1 + u.val
    omega)

/-- A [128, 3, 1] column spread over 256 lanes: entry (b, n, d) is entry (b, n, 0). -/
theorem spreadCol_apply (x : S128x3x1.Idx → α) (b : Fin 128) (n : Fin 3) (d : Fin 256) :
    broadcastTo S128x3x256 x broadcasts_S128x3x1_S128x3x256 (ix3 b n d) = x (ix3 b n (0 : Fin 1)) := by
  refine broadcastTo_apply x _ (ix3 b n d) (ix3 b n (0 : Fin 1)) fun ax => ?_
  match ax with
  | ⟨0, _⟩ => rfl
  | ⟨1, _⟩ => rfl
  | ⟨2, _⟩ => rfl

/-- A [1, 1, 256] row spread over the batch and the tokens: entry (b, n, d) is entry (0, 0, d). -/
theorem spreadRow_apply (x : S1x1x256.Idx → α) (b : Fin 128) (n : Fin 3) (d : Fin 256) :
    broadcastTo S128x3x256 x broadcasts_S1x1x256_S128x3x256 (ix3 b n d) = x (ix3 (0 : Fin 1) (0 : Fin 1) d) := by
  refine broadcastTo_apply x _ (ix3 b n d) (ix3 (0 : Fin 1) (0 : Fin 1) d) fun ax => ?_
  match ax with
  | ⟨0, _⟩ => rfl
  | ⟨1, _⟩ => rfl
  | ⟨2, _⟩ => rfl

/-- A [1, 256] row given a leading unit axis: entry (0, 0, d) is entry (0, d). -/
theorem rowLift_apply (x : S1x256.Idx → α) (u w : Fin 1) (d : Fin 256) :
    shapeCast S1x1x256 x shapeCasts_S1x256_S1x1x256 (ix3 u w d) = x (ix2 (0 : Fin 1) d) := by
  have hw : w = 0 := Fin.ext (by omega)
  subst hw
  exact shapeCast_ab_1ab_apply x _ u 0 d

/-- A [128, 1, 256] array with its unit axis dropped: entry (b, d) is entry (b, 0, d). -/
theorem dropTok_apply (x : S128x1x256.Idx → α) (b : Fin 128) (d : Fin 256) :
    shapeCast S128x256 x shapeCasts_S128x1x256_S128x256 (ix2 b d) = x (ix3 b (0 : Fin 1) d) :=
  shapeCast_apply x _ _ _ (by
    rw [Shape.rowMajor_val_two, Shape.rowMajor_val_three]
    show (b.val * 1 + 0) * 256 + d.val = b.val * 256 + d.val
    omega)

/-- Token 0 cut out of a [128, 3, 256] array and flattened: entry (b, d) is entry (b, 0, d). -/
theorem tok0_apply (v : S128x3x256.Idx → α) (b : Fin 128) (d : Fin 256) :
    shapeCast S128x256 (extractStridedSlice S128x1x256 ![0, 0, 0] v slices_S128x3x256_o0_0_0_S128x1x256)
      shapeCasts_S128x1x256_S128x256 (ix2 b d) = v (ix3 b (0 : Fin 3) d) :=
  (dropTok_apply _ b d).trans (slice3_axis1_apply 0 v _ b (0 : Fin 1) d (0 : Fin 3) rfl)

/-- Token 1 likewise. -/
theorem tok1_apply (v : S128x3x256.Idx → α) (b : Fin 128) (d : Fin 256) :
    shapeCast S128x256 (extractStridedSlice S128x1x256 ![0, 1, 0] v slices_S128x3x256_o0_1_0_S128x1x256)
      shapeCasts_S128x1x256_S128x256 (ix2 b d) = v (ix3 b (1 : Fin 3) d) :=
  (dropTok_apply _ b d).trans (slice3_axis1_apply 1 v _ b (0 : Fin 1) d (1 : Fin 3) rfl)

/-- Token 2 likewise. -/
theorem tok2_apply (v : S128x3x256.Idx → α) (b : Fin 128) (d : Fin 256) :
    shapeCast S128x256 (extractStridedSlice S128x1x256 ![0, 2, 0] v slices_S128x3x256_o0_2_0_S128x1x256)
      shapeCasts_S128x1x256_S128x256 (ix2 b d) = v (ix3 b (2 : Fin 3) d) :=
  (dropTok_apply _ b d).trans (slice3_axis1_apply 2 v _ b (0 : Fin 1) d (2 : Fin 3) rfl)

/-- 256 features read as 4 heads of 64: entry (b, h, e) is feature 64 h + e, since (4 b + h) 64 + e = 256 b + (64 h + e). -/
theorem toHeads_apply (v : S128x256.Idx → α) (b : Fin 128) (h : Fin 4) (e : Fin 64) :
    shapeCast S128x4x64 v shapeCasts_S128x256_S128x4x64 (ix3 b h e) = v (ix2 b (Cert.Spec.hd h e)) :=
  shapeCast_apply v _ _ _ (by
    rw [Shape.rowMajor_val_two, Shape.rowMajor_val_three]
    show b.val * 256 + (64 * h.val + e.val) = (b.val * 4 + h.val) * 64 + e.val
    omega)

/-- 4 heads of 64 laid side by side: feature i is entry (b, i / 64, i % 64). -/
theorem ofHeads_apply (v : S128x4x64.Idx → α) (b : Fin 128) (i : Fin 256) :
    shapeCast S128x256 v shapeCasts_S128x4x64_S128x256 (ix2 b i)
      = v (ix3 b (Cert.Spec.headOf i) ⟨i.val % 64, Nat.mod_lt _ (by norm_num)⟩) :=
  shapeCast_apply v _ _ _ (by
    rw [Shape.rowMajor_val_two, Shape.rowMajor_val_three]
    show (b.val * 4 + i.val / 64) * 64 + i.val % 64 = b.val * 256 + i.val
    omega)

/-- A [1, 256] row spread over the batch: entry (b, i) is entry (0, i). -/
theorem spreadBias_apply (x : S1x256.Idx → α) (b : Fin 128) (i : Fin 256) :
    broadcastTo S128x256 x broadcasts_S1x256_S128x256 (ix2 b i) = x (ix2 (0 : Fin 1) i) :=
  broadcastTo_1b_ab_apply x _ b i

end Layout

/-- The reciprocal square root of a vector, entry by entry. -/
theorem rsqrtV_apply {s : Shape} {φ : FTy} (a : FVec Ideal s φ) (i : s.Idx) : rsqrt a i = Ideal.rsqrt (a i) := rfl

/-- A pattern read as a scalar is the extended real it denotes. -/
theorem scalarOfBits_eq {φ : FTy} (w : BitVec φ.bits) : Scalar.ofBits (F := Ideal) φ w = Ideal.ofBits φ w := rfl

/-! ## The layer norm -/

/-- THE LAYER NORM at (b, n, d): the specification's normalised token, with the scale and shift rows read as rank-1
    arrays. The mean is the lane sum over the width pattern; the variance the lane sum of the centred squares over the
    same pattern; both columns are spread back over the 256 lanes. -/
theorem pay2_apply (v0 : Vec Ideal S128x3x256 .f32) (lnw lnb : Vec Ideal S1x256 .f32) (b : Fin 128) (n : Fin 3) (d : Fin 256) :
    Gen.k1_pay2 (F := Ideal) v0 lnw lnb (ix3 b n d) = Cert.Spec.xn v0 (rowA lnw) (rowA lnb) b n d := by
  unfold Gen.k1_pay2 Gen.k1_pay1
  simp only [shapeCast_self]
  simp only [addf_apply, mulf_apply, subf_apply, divf_apply, rsqrtV_apply, broadcast_apply, spreadCol_apply,
    spreadRow_apply, rowLift_apply, keep_apply, scalarOfBits_eq]
  rw [laneSum_apply, laneSum_apply]
  simp only [addf_apply, mulf_apply, subf_apply, divf_apply, broadcast_apply, spreadCol_apply, keep_apply, scalarOfBits_eq]
  rw [laneSum_apply]
  rfl

/-! ## Token rows -/

theorem row0_apply (v : FVec Ideal S128x3x256 .f32) (b : Fin 128) (d : Fin 256) : row0 v (ix2 b d) = v (ix3 b 0 d) := by
  unfold row0; exact tok0_apply v b d
theorem row1_apply (v : FVec Ideal S128x3x256 .f32) (b : Fin 128) (d : Fin 256) : row1 v (ix2 b d) = v (ix3 b 1 d) := by
  unfold row1; exact tok1_apply v b d
theorem row2_apply (v : FVec Ideal S128x3x256 .f32) (b : Fin 128) (d : Fin 256) : row2 v (ix2 b d) = v (ix3 b 2 d) := by
  unfold row2; exact tok2_apply v b d

/-! ## A projection: a row block times a 256 × 256 matrix, plus a bias row -/

/-- Of the left operand's index at output (r, c) and contraction position q, axis 0 is r … -/
theorem lhs_proj_0 (i : S128x256.Idx) (q : dot_S128x256_S256x256_S128x256_1_0_0_1_n_n.contr.Idx) :
    (dot_S128x256_S256x256_S128x256_1_0_0_1_n_n.lhsIdx i q 0).val = (i 0).val := by
  unfold DotDims.lhsIdx
  rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
  rfl
/-- … and axis 1 is q. -/
theorem lhs_proj_1 (i : S128x256.Idx) (q : dot_S128x256_S256x256_S128x256_1_0_0_1_n_n.contr.Idx) :
    (dot_S128x256_S256x256_S128x256_1_0_0_1_n_n.lhsIdx i q 1).val = (q ⟨0, by decide⟩).val :=
  dot_S128x256_S256x256_S128x256_1_0_0_1_n_n.lhsIdx_val_of_single rfl i q
/-- Of the right operand's index, axis 0 is q … -/
theorem rhs_proj_0 (i : S128x256.Idx) (q : dot_S128x256_S256x256_S128x256_1_0_0_1_n_n.contr.Idx) :
    (dot_S128x256_S256x256_S128x256_1_0_0_1_n_n.rhsIdx i q 0).val = (q ⟨0, by decide⟩).val :=
  dot_S128x256_S256x256_S128x256_1_0_0_1_n_n.rhsIdx_val_of_single rfl i q
/-- … and axis 1 is c. -/
theorem rhs_proj_1 (i : S128x256.Idx) (q : dot_S128x256_S256x256_S128x256_1_0_0_1_n_n.contr.Idx) :
    (dot_S128x256_S256x256_S128x256_1_0_0_1_n_n.rhsIdx i q 1).val = (i 1).val := by
  unfold DotDims.rhsIdx
  rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
  rfl

/-- The product into a zero accumulator, at (b, i): the sum over d of r[b, d] · W[d, i]. -/
theorem mm_apply (r : FVec Ideal S128x256 .f32) (W : FVec Ideal S256x256 .f32) (b : Fin 128) (i : Fin 256) :
    matmul dot_S128x256_S256x256_S128x256_1_0_0_1_n_n none r W (constant (F := Ideal) S128x256 .f32 0x00000000#32) (ix2 b i)
      = ∑ d : Fin 256, r (ix2 b d) * W (ix2 d i) := by
  simp only [matmul]
  rw [Ideal.matmul_constant_zero_apply, ← Equiv.sum_comp (ValueIdx.contrEquiv1 dot_S128x256_S256x256_S128x256_1_0_0_1_n_n 256 rfl rfl).symm]
  refine Finset.sum_congr rfl fun k _ => ?_
  have hk := ValueIdx.contrEquiv1_symm_val dot_S128x256_S256x256_S128x256_1_0_0_1_n_n 256 rfl rfl k
  have el : dot_S128x256_S256x256_S128x256_1_0_0_1_n_n.lhsIdx (ix2 b i) ((ValueIdx.contrEquiv1 dot_S128x256_S256x256_S128x256_1_0_0_1_n_n 256 rfl rfl).symm k) = ix2 b k := funext fun a => Fin.ext (by
    match a with
    | ⟨0, _⟩ => exact lhs_proj_0 _ _
    | ⟨1, _⟩ => exact (lhs_proj_1 _ _).trans hk)
  have er : dot_S128x256_S256x256_S128x256_1_0_0_1_n_n.rhsIdx (ix2 b i) ((ValueIdx.contrEquiv1 dot_S128x256_S256x256_S128x256_1_0_0_1_n_n 256 rfl rfl).symm k) = ix2 k i := funext fun a => Fin.ext (by
    match a with
    | ⟨0, _⟩ => exact (rhs_proj_0 _ _).trans hk
    | ⟨1, _⟩ => exact rhs_proj_1 _ _)
  rw [el, er]

/-- A PROJECTION at (b, i): the sum over d of r[b, d] · W[d, i], plus bias[i]. -/
theorem projV_apply (r : FVec Ideal S128x256 .f32) (W : FVec Ideal S256x256 .f32) (bias : FVec Ideal S1x256 .f32) (b : Fin 128) (i : Fin 256) :
    projV r W bias (ix2 b i) = (∑ d : Fin 256, r (ix2 b d) * W (ix2 d i)) + bias (ix2 0 i) := by
  unfold projV
  rw [addf_apply, mm_apply, spreadBias_apply]

/-- THE REGISTER ROW at (b, i): the row's entry i, whatever b (the added zero pattern is 0). -/
theorem regV_apply (r : FVec Ideal S1x256 .f32) (b : Fin 128) (i : Fin 256) : regV r (ix2 b i) = r (ix2 0 i) := by
  unfold regV
  rw [addf_apply, spreadBias_apply, broadcast_apply, scalarOfBits_eq, Cert.Consts.ofBits_zero, add_zero]

/-! ## Heads -/

theorem headsV_apply (v : FVec Ideal S128x256 .f32) (b : Fin 128) (h : Fin 4) (e : Fin 64) :
    headsV v (ix3 b h e) = v (ix2 b (Cert.Spec.hd h e)) := by
  unfold headsV; exact toHeads_apply v b h e

theorem flatV_apply (v : FVec Ideal S128x4x64 .f32) (b : Fin 128) (i : Fin 256) :
    flatV v (ix2 b i) = v (ix3 b (Cert.Spec.headOf i) ⟨i.val % 64, Nat.mod_lt _ (by norm_num)⟩) := by
  unfold flatV; exact ofHeads_apply v b i

/-! ## A token row of the layer norm through a projection -/

/-- Token 0 of the layer-normalised block through a projection is the specification's projection of token 0, the
    matrix read transposed (the kernel holds W[d, i] where the specification indexes [output, input]). -/
theorem proj_row_apply (v0 : Vec Ideal S128x3x256 .f32) (lnw lnb : Vec Ideal S1x256 .f32) (W : FVec Ideal S256x256 .f32)
    (bias : FVec Ideal S1x256 .f32) (b : Fin 128) (i : Fin 256) :
    projV (row0 (Gen.k1_pay2 (F := Ideal) v0 lnw lnb)) W bias (ix2 b i)
      = Cert.Spec.proj v0 (rowA lnw) (rowA lnb) (trA W) (rowA bias) b 0 i := by
  rw [projV_apply]
  simp only [row0_apply, pay2_apply]
  rfl

/-- The same statement under the name that carries the token's number. -/
theorem proj_row0_apply (v0 : Vec Ideal S128x3x256 .f32) (lnw lnb : Vec Ideal S1x256 .f32) (W : FVec Ideal S256x256 .f32)
    (bias : FVec Ideal S1x256 .f32) (b : Fin 128) (i : Fin 256) :
    projV (row0 (Gen.k1_pay2 (F := Ideal) v0 lnw lnb)) W bias (ix2 b i)
      = Cert.Spec.proj v0 (rowA lnw) (rowA lnb) (trA W) (rowA bias) b 0 i :=
  proj_row_apply v0 lnw lnb W bias b i

/-- Token 1 likewise. -/
theorem proj_row1_apply (v0 : Vec Ideal S128x3x256 .f32) (lnw lnb : Vec Ideal S1x256 .f32) (W : FVec Ideal S256x256 .f32)
    (bias : FVec Ideal S1x256 .f32) (b : Fin 128) (i : Fin 256) :
    projV (row1 (Gen.k1_pay2 (F := Ideal) v0 lnw lnb)) W bias (ix2 b i)
      = Cert.Spec.proj v0 (rowA lnw) (rowA lnb) (trA W) (rowA bias) b 1 i := by
  rw [projV_apply]
  simp only [row1_apply, pay2_apply]
  rfl

/-- Token 2 likewise. -/
theorem proj_row2_apply (v0 : Vec Ideal S128x3x256 .f32) (lnw lnb : Vec Ideal S1x256 .f32) (W : FVec Ideal S256x256 .f32)
    (bias : FVec Ideal S1x256 .f32) (b : Fin 128) (i : Fin 256) :
    projV (row2 (Gen.k1_pay2 (F := Ideal) v0 lnw lnb)) W bias (ix2 b i)
      = Cert.Spec.proj v0 (rowA lnw) (rowA lnb) (trA W) (rowA bias) b 2 i := by
  rw [projV_apply]
  simp only [row2_apply, pay2_apply]
  rfl

end Cert.KernelIdeal.Epi

end
-- ==== Proof.KEpi.lean ====
/- The second kernel's body against the specification. Each function of the body is the specification's function of
   the same name at the same coordinates: the query, the four keys and the four values in heads (the fourth key and
   value the register row); a logit as the lane sum of the scaled query times a key; a weight as a shifted exponential
   times the reciprocal of the four exponentials' sum; the mean of a weight over the heads; the attended values, where
   lane (i mod 64) of head (i / 64) is feature i; the output row with its bias and residual. The two results follow
   entry by entry, the three token rows alike. -/
import proofs.«428392_j60172491817603_3_alg».proof.Proof.KEpiAtt
import proofs.«428392_j60172491817603_3_alg».proof.Proof.KEpiFront

set_option synthInstance.maxSize 4096

noncomputable section

namespace Cert.KernelIdeal.Epi

open Idealize.ShloMosaic Idealize.SL.Sem Cert.KernelIdeal Cert.KernelIdeal.Gen

/-! ## The two results of the body are the specification's, entry by entry -/

section Assembly

open Idealize.ShloMosaic.ValueIdx
open scoped BigOperators

/-- Lane (i mod 64) of head (i / 64) is feature i. -/
theorem hd_headOf (i : Fin 256) :
    Cert.Spec.hd (Cert.Spec.headOf i) ⟨i.val % 64, Nat.mod_lt _ (by norm_num)⟩ = i :=
  Fin.ext (by show 64 * (i.val / 64) + i.val % 64 = i.val; omega)

/-- The parameters of the specification, read off the kernel's loaded blocks: a [1, 256] row as a rank-1 array, a
    matrix read transposed, a register row as a [1, 1, 256] array. -/
def paramsK (lnw lnb : Vec Ideal S1x256 .f32) (Wt : FVec Ideal S256x256 .f32) (bt : FVec Ideal S1x256 .f32)
    (Wp : FVec Ideal S256x256 .f32) (bp : FVec Ideal S1x256 .f32) (Wm : FVec Ideal S256x256 .f32) (bm : FVec Ideal S1x256 .f32)
    (Wo : FVec Ideal S256x256 .f32) (bo rp rm : FVec Ideal S1x256 .f32) : Cert.Spec.Params :=
  ⟨rowA lnw, rowA lnb, trA Wt, rowA bt, trA Wp, rowA bp, trA Wm, rowA bm, trA Wo, rowA bo, regA rp, regA rm⟩

variable (v0 : Vec Ideal S128x3x256 .f32) (lnw lnb : Vec Ideal S1x256 .f32)
  (Wt : FVec Ideal S256x256 .f32) (bt : FVec Ideal S1x256 .f32) (Wp : FVec Ideal S256x256 .f32) (bp : FVec Ideal S1x256 .f32)
  (Wm : FVec Ideal S256x256 .f32) (bm : FVec Ideal S1x256 .f32) (Wo : FVec Ideal S256x256 .f32)
  (bo rp rm : FVec Ideal S1x256 .f32)

/-- Token row n of a [128, 3, 256] array. -/
def rowN (n : Fin 3) (v : FVec Ideal S128x3x256 .f32) : FVec Ideal S128x256 .f32 := ![row0 v, row1 v, row2 v] n

/-- Row n at (b, d) is the array at (b, n, d). -/
theorem rowN_apply (n : Fin 3) (v : FVec Ideal S128x3x256 .f32) (b : Fin 128) (d : Fin 256) :
    rowN n v (ix2 b d) = v (ix3 b n d) := by
  match n with
  | ⟨0, _⟩ => exact row0_apply v b d
  | ⟨1, _⟩ => exact row1_apply v b d
  | ⟨2, _⟩ => exact row2_apply v b d

/-- A projection of row n of the normalised tokens is the specification's projection of token n. -/
theorem proj_rowN (n : Fin 3) (W : FVec Ideal S256x256 .f32) (bias : FVec Ideal S1x256 .f32) (b : Fin 128) (i : Fin 256) :
    projV (rowN n (xnV v0 lnw lnb)) W bias (ix2 b i)
      = Cert.Spec.proj v0 (rowA lnw) (rowA lnb) (trA W) (rowA bias) b n i := by
  match n with
  | ⟨0, _⟩ => exact proj_row0_apply v0 lnw lnb W bias b i
  | ⟨1, _⟩ => exact proj_row1_apply v0 lnw lnb W bias b i
  | ⟨2, _⟩ => exact proj_row2_apply v0 lnw lnb W bias b i

local notation "thK" => Cert.Spec.proj v0 (rowA lnw) (rowA lnb) (trA Wt) (rowA bt)
local notation "phK" => Cert.Spec.withReg (Cert.Spec.proj v0 (rowA lnw) (rowA lnb) (trA Wp) (rowA bp)) (regA rp)
local notation "muK" => Cert.Spec.withReg (Cert.Spec.proj v0 (rowA lnw) (rowA lnb) (trA Wm) (rowA bm)) (regA rm)
local notation "xnK" => xnV (F := Ideal) v0 lnw lnb

/-- The query of token n in heads. -/
theorem th_apply (n : Fin 3) (b : Fin 128) (h : Fin 4) (e : Fin 64) :
    thV Wt bt (rowN n xnK) (ix3 b h e) = thK b n (Cert.Spec.hd h e) := by
  unfold thV
  rw [headsV_apply]
  exact proj_rowN v0 lnw lnb n Wt bt b _

/-- Among the four keys or values, a token's row is the token's projection. -/
theorem withReg_tok (t : Cert.Spec.Tok3) (r : Cert.Spec.A3 1 1 256) (b : Fin 128) (n : Fin 3) (i : Fin 256) :
    Cert.Spec.withReg t r b ⟨n.val, by omega⟩ i = t b n i := by
  unfold Cert.Spec.withReg
  rw [dif_pos n.isLt]

/-- The fourth key or value is the register row. -/
theorem withReg_reg (t : Cert.Spec.Tok3) (r : Cert.Spec.A3 1 1 256) (b : Fin 128) (i : Fin 256) :
    Cert.Spec.withReg t r b 3 i = r (ix3 0 0 i) := by
  unfold Cert.Spec.withReg
  rw [dif_neg (by decide)]

/-- The key of token n in heads. -/
theorem ph_apply (n : Fin 3) (b : Fin 128) (h : Fin 4) (e : Fin 64) :
    phV Wp bp (rowN n xnK) (ix3 b h e) = phK b ⟨n.val, by omega⟩ (Cert.Spec.hd h e) := by
  unfold phV
  rw [headsV_apply, withReg_tok]
  exact proj_rowN v0 lnw lnb n Wp bp b _

/-- The value of token n in heads. -/
theorem mu_apply (n : Fin 3) (b : Fin 128) (h : Fin 4) (e : Fin 64) :
    muV Wm bm (rowN n xnK) (ix3 b h e) = muK b ⟨n.val, by omega⟩ (Cert.Spec.hd h e) := by
  unfold muV
  rw [headsV_apply, withReg_tok]
  exact proj_rowN v0 lnw lnb n Wm bm b _

/-- The register row in heads is the fourth key or value. -/
theorem reg_apply (t : Cert.Spec.Tok3) (r : FVec Ideal S1x256 .f32) (b : Fin 128) (h : Fin 4) (e : Fin 64) :
    headsV (regV r) (ix3 b h e) = Cert.Spec.withReg t (regA r) b 3 (Cert.Spec.hd h e) := by
  rw [headsV_apply, regV_apply, withReg_reg]
  rfl

/-- A logit: the lane sum of the scaled query of token n times a key that is the specification's key m. -/
theorem gram_of (n : Fin 3) (m : Fin 4) (K : FVec Ideal S128x4x64 .f32) (b : Fin 128) (h : Fin 4)
    (hK : ∀ e : Fin 64, K (ix3 b h e) = phK b m (Cert.Spec.hd h e)) :
    gramV (scaleV (thV Wt bt (rowN n xnK))) K (ix2 b h) = Cert.Spec.gram thK phK b h n m := by
  rw [gramV_apply]
  unfold Cert.Spec.gram
  refine Finset.sum_congr rfl fun e _ => ?_
  rw [scaleV_apply, th_apply, hK]

/-- The logit of query token n against key m. -/
theorem gV_apply (n : Fin 3) (m : Fin 4) (b : Fin 128) (h : Fin 4) :
    gV v0 lnw lnb Wt bt Wp bp rp (rowN n xnK) m (ix2 b h) = Cert.Spec.gram thK phK b h n m := by
  match m with
  | ⟨0, _⟩ => exact gram_of v0 lnw lnb Wt bt Wp bp rp n 0 _ b h fun e => ph_apply v0 lnw lnb Wp bp rp 0 b h e
  | ⟨1, _⟩ => exact gram_of v0 lnw lnb Wt bt Wp bp rp n 1 _ b h fun e => ph_apply v0 lnw lnb Wp bp rp 1 b h e
  | ⟨2, _⟩ => exact gram_of v0 lnw lnb Wt bt Wp bp rp n 2 _ b h fun e => ph_apply v0 lnw lnb Wp bp rp 2 b h e
  | ⟨3, _⟩ => exact gram_of v0 lnw lnb Wt bt Wp bp rp n 3 _ b h fun e => reg_apply _ rp b h e

/-- The weight of query token n on key m. -/
theorem pV_apply (n : Fin 3) (m : Fin 4) (b : Fin 128) (h : Fin 4) :
    pV v0 lnw lnb Wt bt Wp bp rp (rowN n xnK) m (ix2 b h) = Cert.Spec.prob Cert.Spec.normMul thK phK b h n m := by
  unfold pV
  rw [prob4V_apply]
  simp only [gV_apply]
  unfold Cert.Spec.prob Cert.Spec.ex Cert.Spec.esum Cert.Spec.ex Cert.Spec.gmax
  rw [Fin.sum_univ_four]

/-- The second result's row of query token n. -/
theorem matchOfRow_apply (n : Fin 3) (b : Fin 128) (m : Fin 4) :
    matchOfRow v0 lnw lnb Wt bt Wp bp rp (rowN n xnK) (ix3 b 0 m)
      = Cert.Spec.matchMean Cert.Spec.normMul thK phK (ix3 b n m) := by
  unfold matchOfRow Cert.Spec.matchMean
  rw [matchRowV_apply]
  congr 1
  refine Finset.sum_congr rfl fun h _ => ?_
  match m with
  | ⟨0, _⟩ => exact pV_apply v0 lnw lnb Wt bt Wp bp rp n 0 b h
  | ⟨1, _⟩ => exact pV_apply v0 lnw lnb Wt bt Wp bp rp n 1 b h
  | ⟨2, _⟩ => exact pV_apply v0 lnw lnb Wt bt Wp bp rp n 2 b h
  | ⟨3, _⟩ => exact pV_apply v0 lnw lnb Wt bt Wp bp rp n 3 b h

/-- The attended values of query token n at head h, lane e. -/
theorem att_apply (n : Fin 3) (b : Fin 128) (h : Fin 4) (e : Fin 64) :
    attV (pV v0 lnw lnb Wt bt Wp bp rp (rowN n xnK) 0) (pV v0 lnw lnb Wt bt Wp bp rp (rowN n xnK) 1)
        (pV v0 lnw lnb Wt bt Wp bp rp (rowN n xnK) 2) (pV v0 lnw lnb Wt bt Wp bp rp (rowN n xnK) 3)
        (muV Wm bm (row0 xnK)) (muV Wm bm (row1 xnK)) (muV Wm bm (row2 xnK)) (headsV (regV rm)) (ix3 b h e)
      = ∑ m : Fin 4, Cert.Spec.prob Cert.Spec.normMul thK phK b h n m * muK b m (Cert.Spec.hd h e) := by
  rw [attV_apply, Fin.sum_univ_four, Fin.sum_univ_four]
  refine congrArg₂ (· + ·) (congrArg₂ (· + ·) (congrArg₂ (· + ·) ?_ ?_) ?_) ?_
  · exact congrArg₂ (· * ·) (pV_apply v0 lnw lnb Wt bt Wp bp rp n 0 b h) (mu_apply v0 lnw lnb Wm bm rm 0 b h e)
  · exact congrArg₂ (· * ·) (pV_apply v0 lnw lnb Wt bt Wp bp rp n 1 b h) (mu_apply v0 lnw lnb Wm bm rm 1 b h e)
  · exact congrArg₂ (· * ·) (pV_apply v0 lnw lnb Wt bt Wp bp rp n 2 b h) (mu_apply v0 lnw lnb Wm bm rm 2 b h e)
  · exact congrArg₂ (· * ·) (pV_apply v0 lnw lnb Wt bt Wp bp rp n 3 b h) (reg_apply _ rm b h e)

/-- The first result's row of query token n, with the residual row n of the pooled tokens. -/
theorem outOfRow_apply (n : Fin 3) (b : Fin 128) (j : Fin 256) :
    outOfRow v0 lnw lnb Wt bt Wp bp Wm bm Wo bo rp rm (rowN n xnK) (rowN n v0) (ix3 b 0 j)
      = Cert.Spec.outOf (Cert.Spec.att Cert.Spec.normMul thK phK muK) (trA Wo) (rowA bo) v0 (ix3 b n j) := by
  unfold outOfRow
  rw [outRowV_at, projV_apply, rowN_apply]
  unfold Cert.Spec.outOf
  refine congrArg₂ (· + ·) (congrArg₂ (· + ·) (Finset.sum_congr rfl fun i _ => ?_) rfl) rfl
  rw [flatV_at, att_apply v0 lnw lnb Wt bt Wp bp Wm bm rp rm n]
  refine congrArg₂ (· * ·) ?_ rfl
  unfold Cert.Spec.att
  rw [hd_headOf]

/-- FIRST RESULT: the body's first result is the specification's, with the reciprocal form of the normalisation. -/
theorem epiOut_eq :
    epiOut (F := Ideal) v0 v0 lnw lnb Wt bt Wp bp Wm bm Wo bo rp rm
      = Cert.Spec.out Cert.Spec.normMul v0 (paramsK lnw lnb Wt bt Wp bp Wm bm Wo bo rp rm) := by
  funext j
  obtain ⟨b, n, k, rfl⟩ : ∃ (b : Fin 128) (n : Fin 3) (k : Fin 256), j = ix3 b n k := ⟨j 0, j 1, j 2, eq_ix3 j⟩
  unfold epiOut
  rw [stackOut_apply]
  show _ = Cert.Spec.outOf (Cert.Spec.att Cert.Spec.normMul thK phK muK) (trA Wo) (rowA bo) v0 (ix3 b n k)
  match n with
  | ⟨0, _⟩ => exact outOfRow_apply v0 lnw lnb Wt bt Wp bp Wm bm Wo bo rp rm 0 b k
  | ⟨1, _⟩ => exact outOfRow_apply v0 lnw lnb Wt bt Wp bp Wm bm Wo bo rp rm 1 b k
  | ⟨2, _⟩ => exact outOfRow_apply v0 lnw lnb Wt bt Wp bp Wm bm Wo bo rp rm 2 b k

/-- SECOND RESULT: the body's second result is the specification's, with the reciprocal form of the normalisation. -/
theorem epiMatch_eq :
    epiMatch (F := Ideal) v0 lnw lnb Wt bt Wp bp rp
      = Cert.Spec.matchOut Cert.Spec.normMul v0 (paramsK lnw lnb Wt bt Wp bp Wm bm Wo bo rp rm) := by
  funext j
  obtain ⟨b, n, m, rfl⟩ : ∃ (b : Fin 128) (n : Fin 3) (m : Fin 4), j = ix3 b n m := ⟨j 0, j 1, j 2, eq_ix3 j⟩
  unfold epiMatch
  rw [stackMatch_apply]
  show _ = Cert.Spec.matchMean Cert.Spec.normMul thK phK (ix3 b n m)
  match n with
  | ⟨0, _⟩ => exact matchOfRow_apply v0 lnw lnb Wt bt Wp bp rp 0 b m
  | ⟨1, _⟩ => exact matchOfRow_apply v0 lnw lnb Wt bt Wp bp rp 1 b m
  | ⟨2, _⟩ => exact matchOfRow_apply v0 lnw lnb Wt bt Wp bp rp 2 b m

end Assembly

end Cert.KernelIdeal.Epi

end
-- ==== Proof.KPoolTrip.lean ====
/- The pooling kernel's body at one grid point, opened once.

   At a grid point the body holds three input blocks x₀, x₁, x₂ of shape [1, 4096, 256]. Eight trips each take 512
   consecutive rows of every block, add them up row-wise into a [1, 1, 256] partial sum, and add that to a running
   accumulator which starts at zero. After the last trip the three accumulators are scaled by 2⁻¹² and laid side by
   side along the middle axis into the [1, 3, 256] output block. This module states these two facts as equations
   between functions, for any number format: what the output block is in terms of the accumulators after eight
   trips, and what one trip does to the accumulators. -/
import proofs.«428392_j60172491817603_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pool

open Cert.KernelIdeal Cert.KernelIdeal.Gen

variable {F : FTy → Type} [FloatOps F]

/-- The all-zero offset of a rank-3 block, as a constant function. -/
theorem hz3 : (![0, 0, 0] : Fin 3 → Nat) = fun _ => 0 := funext fun a => by fin_cases a <;> rfl

/-- The loop from 0 to 0 + 8 in steps of 1 makes eight trips. -/
theorem trips8 : Scf.trips (0#32) (Scalar.addi 0#32 8#32) 1#32 = 8 := by decide

/-- The three accumulators, as one triple. -/
abbrev Acc (F : FTy → Type) [FloatOps F] : Type :=
  FVec F S1x1x256 .f32 × FVec F S1x1x256 .f32 × FVec F S1x1x256 .f32

/-- The accumulators before trip `k` at a grid point whose input blocks are x₀, x₁, x₂ (all zero before trip 0). -/
abbrev accAt (c : Dev nD) (i : grid0.Coords)
    (a1 : Memref sig .tc .vmem S1x4096x256 .f32) (h1 : a1.IsWhole)
    (a2 : Memref sig .tc .vmem S1x4096x256 .f32) (h2 : a2.IsWhole)
    (a3 : Memref sig .tc .vmem S1x4096x256 .f32) (h3 : a3.IsWhole)
    (a4 : Memref sig .tc .vmem S1x3x256 .f32) (h4 : a4.IsWhole)
    (x0 x1 x2 : Vec F S1x4096x256 .f32) (k : ℕ) : Acc F :=
  st_k0_t1 Variants.none c none i a1 h1 a2 h2 a3 h3 a4 h4 (h1.unread x0) (h2.unread x1) (h3.unread x2)
    (k0_pay1, k0_pay1, k0_pay1) k

/-- The output block the body leaves is the scaled, side-by-side arrangement of the accumulators after eight trips:
    the body's one store covers the whole block. -/
theorem out_open (c : Dev nD) (i : grid0.Coords)
    (a1 : Memref sig .tc .vmem S1x4096x256 .f32) (h1 : a1.IsWhole)
    (a2 : Memref sig .tc .vmem S1x4096x256 .f32) (h2 : a2.IsWhole)
    (a3 : Memref sig .tc .vmem S1x4096x256 .f32) (h3 : a3.IsWhole)
    (a4 : Memref sig .tc .vmem S1x3x256 .f32) (h4 : a4.IsWhole)
    (x0 x1 x2 : Vec F S1x4096x256 .f32) :
    out0_A_3 c i a1 h1 a2 h2 a3 h3 a4 h4 x0 x1 x2
      = k0_pay5 (accAt c i a1 h1 a2 h2 a3 h3 a4 h4 x0 x1 x2 8).1
          (accAt c i a1 h1 a2 h2 a3 h3 a4 h4 x0 x1 x2 8).2.1
          (accAt c i a1 h1 a2 h2 a3 h3 a4 h4 x0 x1 x2 8).2.2 := by
  unfold out0_A_3
  rw [View.read_writes_eq_canon _ _ _ (cover0_A_3 c i a1 h1 a2 h2 a3 h3 a4 h4 x0 x1 x2)]
  unfold kernelRun0_A
  dsimp only
  sl_unfold_words
  rw [View.canon_unit_zero hz3, trips8]

/-- Rows [512·k, 512·k + 512) of a block, as a [1, 512, 256] block. -/
abbrev chunk (x : Vec F S1x4096x256 .f32) (k : Fin k0_t1_loop.trips) : Vec F S1x512x256 .f32 :=
  View.ld x (Rect.unit (s := S1x4096x256) (k0_off1 k) S1x512x256.size (k0_off1_inb k))

/-- One trip: each accumulator gains the row-wise sum of its block's chunk `k`. -/
theorem trip_open (c : Dev nD) (i : grid0.Coords)
    (a1 : Memref sig .tc .vmem S1x4096x256 .f32) (h1 : a1.IsWhole)
    (a2 : Memref sig .tc .vmem S1x4096x256 .f32) (h2 : a2.IsWhole)
    (a3 : Memref sig .tc .vmem S1x4096x256 .f32) (h3 : a3.IsWhole)
    (a4 : Memref sig .tc .vmem S1x3x256 .f32) (h4 : a4.IsWhole)
    (x0 x1 x2 : Vec F S1x4096x256 .f32) (k : Fin k0_t1_loop.trips) (acc : Acc F) :
    tripR_k0_t1 Variants.none c none i a1 h1 a2 h2 a3 h3 a4 h4 (h1.unread x0) (h2.unread x1) (h3.unread x2) k acc
      = (k0_pay2 acc.1 (chunk x0 k), k0_pay3 acc.2.1 (chunk x1 k), k0_pay4 acc.2.2 (chunk x2 k)) := by
  unfold tripR_k0_t1 trip_k0_t1
  dsimp only
  simp only [View.readAt_eq_ld, h1.read_unread, h2.read_unread, h3.read_unread]

/-- The accumulators before trip `k + 1` are those before trip `k` after one trip. -/
theorem accAt_succ (c : Dev nD) (i : grid0.Coords)
    (a1 : Memref sig .tc .vmem S1x4096x256 .f32) (h1 : a1.IsWhole)
    (a2 : Memref sig .tc .vmem S1x4096x256 .f32) (h2 : a2.IsWhole)
    (a3 : Memref sig .tc .vmem S1x4096x256 .f32) (h3 : a3.IsWhole)
    (a4 : Memref sig .tc .vmem S1x3x256 .f32) (h4 : a4.IsWhole)
    (x0 x1 x2 : Vec F S1x4096x256 .f32) (k : Fin k0_t1_loop.trips) :
    accAt c i a1 h1 a2 h2 a3 h3 a4 h4 x0 x1 x2 (k.val + 1)
      = (k0_pay2 (accAt c i a1 h1 a2 h2 a3 h3 a4 h4 x0 x1 x2 k.val).1 (chunk x0 k),
         k0_pay3 (accAt c i a1 h1 a2 h2 a3 h3 a4 h4 x0 x1 x2 k.val).2.1 (chunk x1 k),
         k0_pay4 (accAt c i a1 h1 a2 h2 a3 h3 a4 h4 x0 x1 x2 k.val).2.2 (chunk x2 k)) :=
  (st_k0_t1_succ Variants.none c none i a1 h1 a2 h2 a3 h3 a4 h4 (h1.unread x0) (h2.unread x1) (h3.unread x2)
    (k0_pay1, k0_pay1, k0_pay1) k).trans
    (trip_open c i a1 h1 a2 h2 a3 h3 a4 h4 x0 x1 x2 k _)

/-- Before the first trip every accumulator is the zero block. -/
theorem accAt_zero (c : Dev nD) (i : grid0.Coords)
    (a1 : Memref sig .tc .vmem S1x4096x256 .f32) (h1 : a1.IsWhole)
    (a2 : Memref sig .tc .vmem S1x4096x256 .f32) (h2 : a2.IsWhole)
    (a3 : Memref sig .tc .vmem S1x4096x256 .f32) (h3 : a3.IsWhole)
    (a4 : Memref sig .tc .vmem S1x3x256 .f32) (h4 : a4.IsWhole)
    (x0 x1 x2 : Vec F S1x4096x256 .f32) :
    accAt c i a1 h1 a2 h2 a3 h3 a4 h4 x0 x1 x2 0 = (k0_pay1, k0_pay1, k0_pay1) := rfl

/-- The loop makes eight trips. -/
theorem trips_eq : k0_t1_loop.trips = 8 := by decide

/-- Chunk `k` at row `r`, lane `d` is the block at row `512·k + r`. -/
theorem chunk_apply (x : Vec F S1x4096x256 .f32) (k : Fin k0_t1_loop.trips) (j : S1x512x256.Idx) (y : S1x4096x256.Idx)
    (h0 : (y 0).val = (j 0).val) (h1 : (y 1).val = 512 * k.val + (j 1).val) (h2 : (y 2).val = (j 2).val) :
    chunk x k j = x y := by
  show x _ = x y
  refine congrArg x (funext fun a => Fin.ext ?_)
  rw [LoadRect.idx_apply]
  show (k0_off1 k) a + 1 * (j a).val = (y a).val
  rw [k0_off1_eq k]
  match a with
  | ⟨0, _⟩ => show 0 + 1 * (j 0).val = (y 0).val; omega
  | ⟨1, _⟩ => show 512 * k.val + 1 * (j 1).val = (y 1).val; omega
  | ⟨2, _⟩ => show 0 + 1 * (j 2).val = (y 2).val; omega

end Cert.KernelIdeal.Pool

end
-- ==== Proof.KPoolSum.lean ====
/- The pooling kernel's body at one grid point, read over the extended reals.

   With input blocks x₀, x₁, x₂ of shape [1, 4096, 256], the output block at [0, n, d] is
   (∑ over all 4096 rows l of xₙ[0, l, d]) · 2⁻¹².  The accumulator for xₙ before trip k holds, at lane d, the sum of
   rows l < 512·k; one trip adds the 512 rows of chunk k; after eight trips all 4096 rows are in.  The partial sums
   are written as sums over an initial segment of the naturals of the column extended by zero, so that one trip is
   the splitting of the segment [0, 512·k + 512) into [0, 512·k) and the next 512 naturals. -/
import proofs.«428392_j60172491817603_3_alg».proof.Proof.KPoolTrip
import proofs.«428392_j60172491817603_3_alg».proof.Proof.Spec
import proofs.«428392_j60172491817603_3_alg».proof.Proof.Consts
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.KernelIdeal.Pool

open Cert.KernelIdeal Cert.KernelIdeal.Gen

/-! ## One trip's arithmetic at a lane -/

/-- An accumulator after a trip, at lane `d`: its old value plus the sum over the chunk's 512 rows at that lane.
    (The row-wise sum of a [1, 512, 256] block is a [1, 256] row, re-read as [1, 1, 256].) -/
theorem pay2_apply (acc : FVec Ideal S1x1x256 .f32) (v : FVec Ideal S1x512x256 .f32) (d : Fin 256) :
    k0_pay2 acc v (ix3 0 0 d) = acc (ix3 0 0 d) + ∑ r : Fin 512, v (ix3 0 r d) := by
  unfold k0_pay2
  show acc (ix3 0 0 d) + shapeCast S1x1x256 (multiReduction .add [1] S1x256 v 0x00000000#32 reduces_S1x512x256_S1x256 (.inl rfl) rfl) shapeCasts_S1x256_S1x1x256 (ix3 0 0 d) = _
  congr 1
  refine (shapeCast_apply _ shapeCasts_S1x256_S1x1x256 (ix3 0 0 d) (ix2 0 d) ?_).trans ?_
  · rw [Shape.rowMajor_val_two, Shape.rowMajor_val_three]; rfl
  refine (Ideal.multiReduction_add_single v _ reduces_S1x512x256_S1x256 _ _ (ix2 0 d)).trans ?_
  refine Finset.sum_congr rfl fun r _ => congrArg v ?_
  funext a
  match a with
  | ⟨0, _⟩ => rfl
  | ⟨1, _⟩ => rfl
  | ⟨2, _⟩ => rfl

/-- The second and third accumulators are updated by the same arithmetic. -/
theorem pay3_apply (acc : FVec Ideal S1x1x256 .f32) (v : FVec Ideal S1x512x256 .f32) (d : Fin 256) :
    k0_pay3 acc v (ix3 0 0 d) = acc (ix3 0 0 d) + ∑ r : Fin 512, v (ix3 0 r d) := pay2_apply acc v d

theorem pay4_apply (acc : FVec Ideal S1x1x256 .f32) (v : FVec Ideal S1x512x256 .f32) (d : Fin 256) :
    k0_pay4 acc v (ix3 0 0 d) = acc (ix3 0 0 d) + ∑ r : Fin 512, v (ix3 0 r d) := pay2_apply acc v d

/-- The initial accumulator is zero everywhere. -/
theorem pay1_apply (j : S1x1x256.Idx) : (k0_pay1 (F := Ideal)) j = 0 := by
  unfold k0_pay1
  exact Cert.Consts.ofBits_zero

/-! ## The output block from the final accumulators -/

/-- Three [1, 1, 256] blocks laid side by side along the middle axis, read at [0, n, d]: block `n` at [0, 0, d]. -/
theorem cat3_apply {α : Type} (p0 p1 p2 : S1x1x256.Idx → α) (n : Fin 3) (d : Fin 256) :
    concatenate S1x3x256 1 [⟨S1x1x256, p0⟩, ⟨S1x1x256, p1⟩, ⟨S1x1x256, p2⟩]
        concatenates_S1x1x256_S1x1x256_S1x1x256_S1x3x256_d1 (ix3 0 n d)
      = (match n with | ⟨0, _⟩ => p0 | ⟨1, _⟩ => p1 | ⟨_ + 2, _⟩ => p2) (ix3 0 0 d) := by
  have hi : ∀ (m : Fin 3) (b : Fin S1x1x256.rank), b.cast (rfl : S1x1x256.rank = S1x3x256.rank) ≠ (1 : Fin S1x3x256.rank) →
      ((ix3 (0 : Fin 1) (0 : Fin 1) d : S1x1x256.Idx) b).val = ((ix3 (0 : Fin 1) m d : S1x3x256.Idx) (b.cast rfl)).val := by
    intro m b hb
    match b with
    | ⟨0, _⟩ => rfl
    | ⟨1, _⟩ => exact absurd rfl hb
    | ⟨2, _⟩ => rfl
  match n with
  | ⟨0, _⟩ =>
    exact concatenate_apply_piece (1 : Fin S1x3x256.rank) [⟨S1x1x256, p0⟩, ⟨S1x1x256, p1⟩, ⟨S1x1x256, p2⟩]
      concatenates_S1x1x256_S1x1x256_S1x1x256_S1x3x256_d1
      (ix3 0 0 d) 0 (by show (0 : ℕ) < 3; omega) S1x1x256 p0 rfl rfl 0 rfl (ix3 0 0 d) (hi 0) rfl
  | ⟨1, _⟩ =>
    exact concatenate_apply_piece (1 : Fin S1x3x256.rank) [⟨S1x1x256, p0⟩, ⟨S1x1x256, p1⟩, ⟨S1x1x256, p2⟩]
      concatenates_S1x1x256_S1x1x256_S1x1x256_S1x3x256_d1
      (ix3 0 1 d) 1 (by show (1 : ℕ) < 3; omega) S1x1x256 p1 rfl rfl 1 rfl (ix3 0 0 d) (hi 1) rfl
  | ⟨2, _⟩ =>
    exact concatenate_apply_piece (1 : Fin S1x3x256.rank) [⟨S1x1x256, p0⟩, ⟨S1x1x256, p1⟩, ⟨S1x1x256, p2⟩]
      concatenates_S1x1x256_S1x1x256_S1x1x256_S1x3x256_d1
      (ix3 0 2 d) 2 (by show (2 : ℕ) < 3; omega) S1x1x256 p2 rfl rfl 2 rfl (ix3 0 0 d) (hi 2) rfl

/-- The output block at [0, n, d] is accumulator `n` at lane `d` times 2⁻¹². -/
theorem pay5_apply (s0 s1 s2 : FVec Ideal S1x1x256 .f32) (n : Fin 3) (d : Fin 256) :
    k0_pay5 s0 s1 s2 (ix3 0 n d)
      = (match n with | ⟨0, _⟩ => s0 | ⟨1, _⟩ => s1 | ⟨_ + 2, _⟩ => s2) (ix3 0 0 d) * Cert.Spec.cInvLen := by
  unfold k0_pay5
  refine (cat3_apply _ _ _ n d).trans ?_
  match n with
  | ⟨0, _⟩ => rfl
  | ⟨1, _⟩ => rfl
  | ⟨2, _⟩ => rfl

/-! ## Sums over initial segments -/

/-- A column of 4096 entries extended by zero to all naturals. -/
def ext0 (f : Fin 4096 → EReal) (l : ℕ) : EReal := if h : l < 4096 then f ⟨l, h⟩ else 0

/-- Summing the extension over the first 4096 naturals sums the column. -/
theorem sum_ext0 (f : Fin 4096 → EReal) : ∑ l ∈ Finset.range 4096, ext0 f l = ∑ l : Fin 4096, f l := by
  rw [Finset.sum_range]
  exact Finset.sum_congr rfl fun l _ => dif_pos l.isLt

/-- The segment below 512·(k+1) is the segment below 512·k followed by the 512 entries from 512·k on. -/
theorem sum_ext0_step (f : Fin 4096 → EReal) (k : ℕ) (hk : k < 8) :
    ∑ l ∈ Finset.range (512 * (k + 1)), ext0 f l
      = ∑ l ∈ Finset.range (512 * k), ext0 f l + ∑ r : Fin 512, f ⟨512 * k + r.val, by have := r.isLt; omega⟩ := by
  rw [show 512 * (k + 1) = 512 * k + 512 by ring, Finset.sum_range_add, Finset.sum_range (fun x => ext0 f (512 * k + x))]
  congr 1
  exact Finset.sum_congr rfl fun r _ => dif_pos _

/-- Column `d` of a [1, 4096, 256] block. -/
abbrev col (x : FVec Ideal S1x4096x256 .f32) (d : Fin 256) : Fin 4096 → EReal := fun l => x (ix3 0 l d)

/-- The sum over chunk `k`'s rows at lane `d` is the sum of the column's entries 512·k … 512·k + 511. -/
theorem chunk_sum (x : FVec Ideal S1x4096x256 .f32) (k : Fin k0_t1_loop.trips) (d : Fin 256) :
    ∑ r : Fin 512, chunk (F := Ideal) x k (ix3 0 r d)
      = ∑ r : Fin 512, col x d ⟨512 * k.val + r.val, by have := r.isLt; have := Nat.lt_of_lt_of_le k.isLt (le_of_eq trips_eq); omega⟩ :=
  Finset.sum_congr rfl fun r _ => chunk_apply (F := Ideal) x k (ix3 0 r d) (ix3 0 ⟨512 * k.val + r.val, _⟩ d) rfl rfl rfl

/-- Before trip `k` (k ≤ 8) each accumulator at lane `d` is the sum of its block's rows below 512·k at that lane. -/
theorem acc_sum (c : Dev nD) (i : grid0.Coords)
    (a1 : Memref sig .tc .vmem S1x4096x256 .f32) (h1 : a1.IsWhole)
    (a2 : Memref sig .tc .vmem S1x4096x256 .f32) (h2 : a2.IsWhole)
    (a3 : Memref sig .tc .vmem S1x4096x256 .f32) (h3 : a3.IsWhole)
    (a4 : Memref sig .tc .vmem S1x3x256 .f32) (h4 : a4.IsWhole)
    (x0 x1 x2 : FVec Ideal S1x4096x256 .f32) (d : Fin 256) : ∀ (k : ℕ), k ≤ 8 →
    (accAt (F := Ideal) c i a1 h1 a2 h2 a3 h3 a4 h4 x0 x1 x2 k).1 (ix3 0 0 d) = ∑ l ∈ Finset.range (512 * k), ext0 (col x0 d) l
    ∧ (accAt (F := Ideal) c i a1 h1 a2 h2 a3 h3 a4 h4 x0 x1 x2 k).2.1 (ix3 0 0 d) = ∑ l ∈ Finset.range (512 * k), ext0 (col x1 d) l
    ∧ (accAt (F := Ideal) c i a1 h1 a2 h2 a3 h3 a4 h4 x0 x1 x2 k).2.2 (ix3 0 0 d) = ∑ l ∈ Finset.range (512 * k), ext0 (col x2 d) l
  | 0, _ => by
    rw [accAt_zero]
    simp only [Nat.mul_zero, Finset.range_zero, Finset.sum_empty]
    exact ⟨pay1_apply _, pay1_apply _, pay1_apply _⟩
  | k + 1, hk => by
    have hk' : k < 8 := by omega
    have ih := acc_sum c i a1 h1 a2 h2 a3 h3 a4 h4 x0 x1 x2 d k (by omega)
    have e := accAt_succ (F := Ideal) c i a1 h1 a2 h2 a3 h3 a4 h4 x0 x1 x2 ⟨k, by rw [trips_eq]; exact hk'⟩
    rw [show ((⟨k, by rw [trips_eq]; exact hk'⟩ : Fin k0_t1_loop.trips).val + 1) = k + 1 from rfl] at e
    rw [e]
    dsimp only
    refine ⟨?_, ?_, ?_⟩
    · rw [pay2_apply, ih.1, chunk_sum, sum_ext0_step _ k hk']
    · rw [pay3_apply, ih.2.1, chunk_sum, sum_ext0_step _ k hk']
    · rw [pay4_apply, ih.2.2, chunk_sum, sum_ext0_step _ k hk']

/-- The output block at [0, n, d]: the sum of all 4096 rows of block `n` at lane `d`, times 2⁻¹². -/
theorem out_apply (c : Dev nD) (i : grid0.Coords)
    (a1 : Memref sig .tc .vmem S1x4096x256 .f32) (h1 : a1.IsWhole)
    (a2 : Memref sig .tc .vmem S1x4096x256 .f32) (h2 : a2.IsWhole)
    (a3 : Memref sig .tc .vmem S1x4096x256 .f32) (h3 : a3.IsWhole)
    (a4 : Memref sig .tc .vmem S1x3x256 .f32) (h4 : a4.IsWhole)
    (x0 x1 x2 : FVec Ideal S1x4096x256 .f32) (n : Fin 3) (d : Fin 256) :
    out0_A_3 (F := Ideal) c i a1 h1 a2 h2 a3 h3 a4 h4 x0 x1 x2 (ix3 0 n d)
      = (∑ l : Fin 4096, (match n with | ⟨0, _⟩ => x0 | ⟨1, _⟩ => x1 | ⟨_ + 2, _⟩ => x2) (ix3 0 l d)) * Cert.Spec.cInvLen := by
  refine (congrFun (out_open (F := Ideal) c i a1 h1 a2 h2 a3 h3 a4 h4 x0 x1 x2) (ix3 0 n d)).trans ?_
  refine (pay5_apply _ _ _ n d).trans ?_
  have hs := acc_sum c i a1 h1 a2 h2 a3 h3 a4 h4 x0 x1 x2 d 8 (le_refl 8)
  match n with
  | ⟨0, _⟩ => exact congrArg (· * Cert.Spec.cInvLen) (hs.1.trans (sum_ext0 (col x0 d)))
  | ⟨1, _⟩ => exact congrArg (· * Cert.Spec.cInvLen) (hs.2.1.trans (sum_ext0 (col x1 d)))
  | ⟨2, _⟩ => exact congrArg (· * Cert.Spec.cInvLen) (hs.2.2.trans (sum_ext0 (col x2 d)))

end Cert.KernelIdeal.Pool

end
-- ==== Proof.KPool.lean ====
/- The pooling kernel's result array.

   The kernel runs once per batch row t (128 grid points). Point t reads row t of each of the three input arrays
   [128, 4096, 256] as a [1, 4096, 256] block and writes a [1, 3, 256] block into row t of the result array
   [128, 3, 256]. Since the block written at point t holds, at [0, n, d], the sum over the 4096 positions of the n-th
   input's row t at feature d, times 2⁻¹², and the 128 blocks tile the result array (row b is written by point b and
   by no other), the array ends holding the three pooled tokens per batch row in product form. -/
import proofs.«428392_j60172491817603_3_alg».proof.Proof.KPoolSum
import proofs.«428392_j60172491817603_3_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx

namespace Cert.KernelIdeal.Pool

open Cert.KernelIdeal Cert.KernelIdeal.Gen

open Idealize.ShloMosaic.Pipeline (Dat)

variable (m : (ℓ : Loc nD τ sig) → Buf (Elt Ideal) ℓ) (ρ : Dev nD → PrngReg)

/-- The three input arrays as the launch memory holds them, and the array of pooled tokens they determine. -/
abbrev xa0 (c : Dev nD) : Cert.Spec.A3 128 4096 256 := m ((c.tc : Thread nD τ).loc main_arg0)
abbrev xa1 (c : Dev nD) : Cert.Spec.A3 128 4096 256 := m ((c.tc : Thread nD τ).loc main_arg1)
abbrev xa2 (c : Dev nD) : Cert.Spec.A3 128 4096 256 := m ((c.tc : Thread nD τ).loc main_arg2)

abbrev G (c : Dev nD) : Cert.Spec.A3 128 3 256 := Cert.Spec.feaMul (xa0 m c) (xa1 m c) (xa2 m c)

/-- A grid point as a batch row. -/
def bOf (t : Fin cfg0.N) : Fin 128 := ⟨t.val, Nat.lt_of_lt_of_le t.isLt (le_of_eq N_0)⟩

/-- Every window's block index at point `t` is (t, 0, 0). -/
theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem idx3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

/-- The input blocks at point `t` are rows `t` of the input arrays. -/
theorem xb0_apply (c : Dev nD) (t : Fin cfg0.N) (l : Fin 4096) (d : Fin 256) :
    (iblk0 (V0 m ρ) c 0 t : FVec Ideal S1x4096x256 .f32) (ix3 0 l d) = xa0 m c (ix3 (bOf t) l d) := by
  have hi := idx0 t
  unfold iblk0
  rw [View.read_apply]
  show m ((c.tc : Thread nD τ).loc main_arg0) _ = m ((c.tc : Thread nD τ).loc main_arg0) _
  congr 1
  funext a
  apply Fin.ext
  match a with
  | ⟨0, _⟩ => show win0_0.index t 0 * 1 + 1 * 0 = t.val; rw [hi.1]; omega
  | ⟨1, _⟩ => show win0_0.index t 1 * 4096 + 1 * l.val = l.val; rw [hi.2.1]; omega
  | ⟨2, _⟩ => show win0_0.index t 2 * 256 + 1 * d.val = d.val; rw [hi.2.2]; omega

theorem xb1_apply (c : Dev nD) (t : Fin cfg0.N) (l : Fin 4096) (d : Fin 256) :
    (iblk0 (V0 m ρ) c 1 t : FVec Ideal S1x4096x256 .f32) (ix3 0 l d) = xa1 m c (ix3 (bOf t) l d) := by
  have hi := idx1 t
  unfold iblk0
  rw [View.read_apply]
  show m ((c.tc : Thread nD τ).loc main_arg1) _ = m ((c.tc : Thread nD τ).loc main_arg1) _
  congr 1
  funext a
  apply Fin.ext
  match a with
  | ⟨0, _⟩ => show win0_1.index t 0 * 1 + 1 * 0 = t.val; rw [hi.1]; omega
  | ⟨1, _⟩ => show win0_1.index t 1 * 4096 + 1 * l.val = l.val; rw [hi.2.1]; omega
  | ⟨2, _⟩ => show win0_1.index t 2 * 256 + 1 * d.val = d.val; rw [hi.2.2]; omega

theorem xb2_apply (c : Dev nD) (t : Fin cfg0.N) (l : Fin 4096) (d : Fin 256) :
    (iblk0 (V0 m ρ) c 2 t : FVec Ideal S1x4096x256 .f32) (ix3 0 l d) = xa2 m c (ix3 (bOf t) l d) := by
  have hi := idx2 t
  unfold iblk0
  rw [View.read_apply]
  show m ((c.tc : Thread nD τ).loc main_arg2) _ = m ((c.tc : Thread nD τ).loc main_arg2) _
  congr 1
  funext a
  apply Fin.ext
  match a with
  | ⟨0, _⟩ => show win0_2.index t 0 * 1 + 1 * 0 = t.val; rw [hi.1]; omega
  | ⟨1, _⟩ => show win0_2.index t 1 * 4096 + 1 * l.val = l.val; rw [hi.2.1]; omega
  | ⟨2, _⟩ => show win0_2.index t 2 * 256 + 1 * d.val = d.val; rw [hi.2.2]; omega

/-- The output block after grid point `t` at [0, n, d] is the pooled value of array row `t`: the point's input blocks
    are rows `t` of the three arrays. -/
theorem outsAt_apply (c : Dev nD) (t : Fin cfg0.N) (n : Fin 3) (d : Fin 256) :
    (outsAt0 (V0 m ρ) c t : FVec Ideal S1x3x256 .f32) (ix3 0 n d) = G m c (ix3 (bOf t) n d) := by
  unfold outsAt0
  refine (out_apply c (grid0.coords t) (ms0_0 t) (hs0_0 t) (ms0_1 t) (hs0_1 t) (ms0_2 t) (hs0_2 t) (ms0_3 t) (hs0_3 t)
    (iblk0 (V0 m ρ) c 0 t) (iblk0 (V0 m ρ) c 1 t) (iblk0 (V0 m ρ) c 2 t) n d).trans ?_
  match n with
  | ⟨0, _⟩ => exact congrArg (· * Cert.Spec.cInvLen) (Finset.sum_congr rfl fun l _ => xb0_apply m ρ c t l d)
  | ⟨1, _⟩ => exact congrArg (· * Cert.Spec.cInvLen) (Finset.sum_congr rfl fun l _ => xb1_apply m ρ c t l d)
  | ⟨2, _⟩ => exact congrArg (· * Cert.Spec.cInvLen) (Finset.sum_congr rfl fun l _ => xb2_apply m ρ c t l d)

/-- The block written at point `t` is block `t` of the array of pooled tokens, entry by entry. -/
theorem flushed_pt (c : Dev nD) (t : Fin cfg0.N) (y : S1x3x256.Idx) :
    (outsAt0 (V0 m ρ) c t : FVec Ideal S1x3x256 .f32) y = ((cfg0.win 3).blk t).view.read (Elt Ideal) (G m c) y := by
  obtain ⟨z, n, d, rfl⟩ : ∃ (z : Fin 1) (n : Fin 3) (d : Fin 256), y = ix3 z n d := ⟨y 0, y 1, y 2, eq_ix3 y⟩
  obtain rfl : z = 0 := Subsingleton.elim _ _
  have hi := idx3 t
  rw [outsAt_apply, View.read_apply]
  show G m c _ = G m c _
  congr 1
  funext a
  apply Fin.ext
  match a with
  | ⟨0, _⟩ => show t.val = win0_3.index t 0 * 1 + 1 * 0; rw [hi.1]; omega
  | ⟨1, _⟩ => show n.val = win0_3.index t 1 * 3 + 1 * n.val; rw [hi.2.1]; omega
  | ⟨2, _⟩ => show d.val = win0_3.index t 2 * 256 + 1 * d.val; rw [hi.2.2]; omega

/-- So every point writes back its block of that one array. -/
theorem flushed_eq (c : Dev nD) (t : Fin cfg0.N) (hf : (cfg0.win 3).flush t = true) :
    (dat0 (V0 m ρ) c).flushed 3 t = ((cfg0.win 3).blk t).view.read (Elt Ideal) (G m c) := by
  show (cfg0.win 3).cut (grid0.coords t) ((dat0 (V0 m ρ) c).after 3 t) = _
  rw [after0_3]
  exact funext fun y => flushed_pt m ρ c t y

/-- Every entry [b, n, d] of the result array lies in the block of point `b`. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 128 := (i 0).isLt
  have h1 : (i 1 : Nat) < 3 := (i 1).isLt
  have h2 : (i 2 : Nat) < 256 := (i 2).isLt
  have ht : (i 0 : Nat) < cfg0.N := by rw [show cfg0.N = 128 from N_0]; exact h0
  have hi := idx3 ⟨(i 0).val, ht⟩
  refine ⟨⟨(i 0).val, ht⟩, flush0_3 _, ?_⟩
  show i ∈ ((View.whole main_v0).slice (win0_3.rect ⟨(i 0).val, ht⟩)).set
  rw [View.set_slice_whole, Rect.mem_set_unit]
  intro a
  match a with
  | ⟨0, _⟩ =>
    show win0_3.index ⟨(i 0).val, ht⟩ 0 * 1 ≤ (i 0 : Nat) ∧ (i 0 : Nat) < win0_3.index ⟨(i 0).val, ht⟩ 0 * 1 + 1
    rw [hi.1]; dsimp only; omega
  | ⟨1, _⟩ =>
    show win0_3.index ⟨(i 0).val, ht⟩ 1 * 3 ≤ (i 1 : Nat) ∧ (i 1 : Nat) < win0_3.index ⟨(i 0).val, ht⟩ 1 * 3 + 3
    rw [hi.2.1]; omega
  | ⟨2, _⟩ =>
    show win0_3.index ⟨(i 0).val, ht⟩ 2 * 256 ≤ (i 2 : Nat) ∧ (i 2 : Nat) < win0_3.index ⟨(i 0).val, ht⟩ 2 * 256 + 256
    rw [hi.2.2]; omega

/-- After the kernel the result array holds the three pooled tokens of every batch row (product form). -/
theorem pooled (c : Dev nD) :
    Gen.W1 (F := Ideal) m ρ c (Proc.devRef .tc main_v0)
      = Cert.Spec.feaMul (m ((c.tc : Thread nD τ).loc main_arg0)) (m ((c.tc : Thread nD τ).loc main_arg1)) (m ((c.tc : Thread nD τ).loc main_arg2)) :=
  (W1_arr m ρ c 3).trans ((dat0 (V0 m ρ) c).arrAt_eq_of_cover 3 (G m c) (flushed_eq m ρ c) (cover c))

end Cert.KernelIdeal.Pool

end
-- ==== Proof.LibAllReal.lean ====
/-
  ARRAYS OF REALS. At the ideal values a float is an extended real; an array is "all real" when no entry is an infinity or
  the junk value. This file states that notion and its closure under the host operations read at the ideal values, for any
  shapes and any dimension records: an operation that only READS its operand somewhere (a gather, a broadcast, a reshape, a
  select) keeps it; sums, differences, products and maxima of reals are reals; a finite sum of reals is a real (a scatter
  with addition, a dot product); a quotient by a nonzero real and the reciprocal square root of a positive real are reals;
  a constant whose f32 pattern has an exponent field that is not all ones is a real.
-/
import Idealize.ShloMosaic.PureOps.Ideal
import Idealize.ShloMosaic.PureOps.Ideal.Laws
import Idealize.ShloMosaic.PureOps.ShapeOps
import Idealize.ShloMosaic.PureOps.Contract
import Mathlib.Data.EReal.Basic
import Mathlib.Data.EReal.Operations
import Mathlib.Data.EReal.Inv
import Mathlib.Algebra.BigOperators.Group.Finset.Defs

noncomputable section

namespace Cert.LibAllReal

open Idealize.ShloMosaic
open scoped BigOperators

/-- Every entry is a real number. -/
def AllReal {S : Shape} (v : S.Idx → EReal) : Prop := ∀ y, ∃ r : ℝ, v y = (r : EReal)

/-! ## Reals among the extended reals -/

/-- A finite sum of reals is a real. -/
theorem real_sum {ι : Type} (s : Finset ι) (f : ι → EReal) (hf : ∀ i ∈ s, ∃ r : ℝ, f i = (r : EReal)) :
    ∃ r : ℝ, ∑ i ∈ s, f i = (r : EReal) :=
  Finset.sum_induction f (fun x => ∃ r : ℝ, x = (r : EReal))
    (by rintro _ _ ⟨a, rfl⟩ ⟨b, rfl⟩; exact ⟨a + b, (EReal.coe_add a b).symm⟩) ⟨0, EReal.coe_zero.symm⟩ hf

/-- An f32 pattern whose exponent field is not all ones denotes a real (a zero, a subnormal or a normal number). -/
theorem ofBits_f32_real (w : BitVec 32) (h : (w.extractLsb' 23 8).toNat ≠ 2 ^ 8 - 1) :
    ∃ r : ℝ, Ideal.ofBits .f32 w = (r : EReal) := by
  show ∃ r : ℝ, Ideal.ieee 8 23 w = (r : EReal)
  unfold Ideal.ieee
  dsimp only
  rw [if_neg h]
  split <;> exact ⟨_, rfl⟩

/-- A quotient of a real by a nonzero real is a real. -/
theorem real_div {x y : EReal} (hx : ∃ r : ℝ, x = (r : EReal)) (hy : ∃ r : ℝ, y = (r : EReal)) (h0 : y ≠ 0) :
    ∃ r : ℝ, Ideal.div x y = (r : EReal) := by
  obtain ⟨p, rfl⟩ := hx
  obtain ⟨q, rfl⟩ := hy
  have hq : q ≠ 0 := fun e => h0 (by rw [e]; rfl)
  exact ⟨p * (1 / q), by rw [Ideal.div_coe hq, EReal.coe_mul]⟩

/-- The reciprocal square root of a positive real is a real. -/
theorem real_rsqrt {x : EReal} (hx : ∃ r : ℝ, x = (r : EReal)) (h0 : 0 < x) : ∃ r : ℝ, Ideal.rsqrt x = (r : EReal) := by
  obtain ⟨p, rfl⟩ := hx
  have hp : 0 < p := EReal.coe_pos.1 h0
  refine ⟨(Real.sqrt p)⁻¹, ?_⟩
  rw [Ideal.rsqrt_coe, if_neg (not_lt.2 hp.le), if_neg hp.ne']

/-! ## Operations that read their operand -/

section Reads
variable {s si t : Shape} {w : Nat}

/-- A gather reads the operand at some index for each result index. -/
theorem AllReal.gather {x : s.Idx → EReal} (hx : AllReal x) (d : GatherDims s si t) (idx : IVec si w) :
    AllReal (Host.gather d x idx) := fun j => hx _

/-- A broadcast reads the operand at the index the result index keeps. -/
theorem AllReal.broadcastInDim {x : s.Idx → EReal} (hx : AllReal x) (dims : Fin s.rank → Fin t.rank)
    (h : s.BroadcastsInDim t dims) : AllReal (broadcastInDim t dims h x) := fun j => hx _

/-- A reshape reads the operand at the index of the same row-major position. -/
theorem AllReal.shapeCast {x : s.Idx → EReal} (hx : AllReal x) (h : s.ShapeCasts t) :
    AllReal (shapeCast t x h) := fun j => hx _

/-- A select takes, entry by entry, one of two reals. -/
theorem AllReal.select {a b : s.Idx → EReal} (ha : AllReal a) (hb : AllReal b) (c : IVec s 1) :
    AllReal (select c a b) := fun j => by
  show ∃ r : ℝ, Scalar.select (c j) (a j) (b j) = (r : EReal)
  unfold Scalar.select
  split
  · exact ha j
  · exact hb j

end Reads

/-! ## Arithmetic, entry by entry -/

section Arith
variable {s : Shape} {φ : FTy}

theorem AllReal.mulf {a b : FVec Ideal s φ} (ha : AllReal a) (hb : AllReal b) : AllReal (mulf a b) := fun j => by
  obtain ⟨p, hp⟩ := ha j
  obtain ⟨q, hq⟩ := hb j
  exact ⟨p * q, by show a j * b j = _; rw [hp, hq, EReal.coe_mul]⟩

theorem AllReal.addf {a b : FVec Ideal s φ} (ha : AllReal a) (hb : AllReal b) : AllReal (addf a b) := fun j => by
  obtain ⟨p, hp⟩ := ha j
  obtain ⟨q, hq⟩ := hb j
  exact ⟨p + q, by show a j + b j = _; rw [hp, hq, EReal.coe_add]⟩

theorem AllReal.subf {a b : FVec Ideal s φ} (ha : AllReal a) (hb : AllReal b) : AllReal (subf a b) := fun j => by
  obtain ⟨p, hp⟩ := ha j
  obtain ⟨q, hq⟩ := hb j
  exact ⟨p - q, by show a j - b j = _; rw [hp, hq, EReal.coe_sub]⟩

theorem AllReal.maximumf {a b : FVec Ideal s φ} (ha : AllReal a) (hb : AllReal b) : AllReal (maximumf a b) := fun j => by
  show ∃ r : ℝ, max (a j) (b j) = (r : EReal)
  rcases max_choice (a j) (b j) with e | e <;> rw [e]
  · exact ha j
  · exact hb j

/-- A quotient by an array of nonzero reals. -/
theorem AllReal.divf_of_ne_zero {a b : FVec Ideal s φ} (ha : AllReal a) (hb : AllReal b) (h0 : ∀ y, b y ≠ 0) :
    AllReal (Host.divf a b) := fun j => real_div (ha j) (hb j) (h0 j)

/-- A quotient by an array of reals that are at least 1. -/
theorem AllReal.divf {a b : FVec Ideal s φ} (ha : AllReal a) (hb : AllReal b) (h1 : ∀ y, (1 : EReal) ≤ b y) :
    AllReal (Host.divf a b) :=
  AllReal.divf_of_ne_zero ha hb fun y e => by
    have h := h1 y
    rw [e] at h
    exact absurd h (by norm_num)

/-- The reciprocal square root of an array of positive reals. -/
theorem AllReal.rsqrt {a : FVec Ideal s φ} (ha : AllReal a) (hpos : ∀ y, (0 : EReal) < a y) :
    AllReal (Host.rsqrt a) := fun j => real_rsqrt (ha j) (hpos j)

end Arith

/-! ## Constants -/

section Constants
variable (S : Shape)

/-- A splat of an f32 pattern whose exponent field is not all ones. -/
theorem AllReal.constant_of_finite (w : BitVec 32) (h : (w.extractLsb' 23 8).toNat ≠ 2 ^ 8 - 1) :
    AllReal (constant (F := Ideal) S .f32 w) := fun _ => ofBits_f32_real w h

/-- 0.0 -/
theorem AllReal.constant_zero : AllReal (constant (F := Ideal) S .f32 0x00000000#32) :=
  AllReal.constant_of_finite S _ (by decide)
/-- 1.0 -/
theorem AllReal.constant_one : AllReal (constant (F := Ideal) S .f32 0x3F800000#32) :=
  AllReal.constant_of_finite S _ (by decide)
/-- 2.0 -/
theorem AllReal.constant_two : AllReal (constant (F := Ideal) S .f32 0x40000000#32) :=
  AllReal.constant_of_finite S _ (by decide)
/-- the small positive number 0x3727C5AC (about 1e-5) -/
theorem AllReal.constant_eps : AllReal (constant (F := Ideal) S .f32 0x3727C5AC#32) :=
  AllReal.constant_of_finite S _ (by decide)

end Constants

/-! ## Finite sums: a scatter with addition, a dot product -/

section Sums

/-- A scatter with addition gives, at each entry, the operand's entry plus a finite sum of update entries. -/
theorem AllReal.scatterAdd {s si u : Shape} {w : Nat} {φ : FTy} {x : FVec Ideal s φ} {upd : FVec Ideal u φ}
    (hx : AllReal x) (hu : AllReal upd) (d : ScatterDims s si u) (idx : IVec si w) :
    AllReal (Host.scatterAdd d x idx upd) := fun i => by
  show ∃ r : ℝ, x i + ∑ j ∈ Finset.univ.filter (fun j => d.resultIdx? j idx = some i), upd j = (r : EReal)
  obtain ⟨p, hp⟩ := hx i
  obtain ⟨q, hq⟩ := real_sum _ upd (fun j _ => hu j)
  exact ⟨p + q, by rw [hp, hq, EReal.coe_add]⟩

/-- A dot product gives, at each entry, a finite sum of products of the operands' entries. -/
theorem AllReal.dotGeneral {sl sr so : Shape} {φ₁ φ₂ : FTy} {l : FVec Ideal sl φ₁} {r : FVec Ideal sr φ₂}
    (hl : AllReal l) (hr : AllReal r) (d : DotDims sl sr so) (prec : Option ContractPrecision) :
    AllReal (Host.dotGeneral d prec l r) := fun j => by
  show ∃ q : ℝ, FloatOps.dotGeneral d prec .single l r j = (q : EReal)
  rw [Ideal.dotGeneral_apply]
  refine real_sum _ _ (fun k _ => ?_)
  obtain ⟨p, hp⟩ := hl (d.lhsIdx j k)
  obtain ⟨q, hq⟩ := hr (d.rhsIdx j k)
  exact ⟨p * q, by rw [hp, hq, EReal.coe_mul]⟩

end Sums

/-! ## Further operations: a transpose, a concatenation, an integer conversion, a sum-reduction, and more arithmetic -/

section More
variable {s t : Shape} {φ : FTy}

/-- A transpose reads the operand at the permuted index. -/
theorem AllReal.transpose {x : s.Idx → EReal} (hx : AllReal x) (perm : List (Fin s.rank)) (h : s.Transposes perm t) :
    AllReal (transpose t perm x h) := fun j => hx _

/-- A concatenation reads, at each index, one of the listed arrays. -/
theorem AllReal.concatenate (a : Fin t.rank) (xs : List ((s : Shape) × (s.Idx → EReal)))
    (hxs : ∀ p ∈ xs, AllReal p.2) (h : Shape.Concatenates (xs.map (·.1)) t a) :
    AllReal (Idealize.ShloMosaic.concatenate t a xs h) := fun j => by
  unfold Idealize.ShloMosaic.concatenate
  dsimp only
  exact hxs _ (List.getElem_mem _) _

/-- A signed integer converted to a float is a real. -/
theorem AllReal.sitofp {w : Nat} (x : IVec s w) : AllReal (sitofp (F := Ideal) φ x) :=
  fun j => ⟨((x j).toInt : ℝ), rfl⟩

theorem AllReal.negf {a : FVec Ideal s φ} (ha : AllReal a) : AllReal (negf a) := fun j => by
  obtain ⟨p, hp⟩ := ha j
  exact ⟨-p, by show -(a j) = _; rw [hp, EReal.coe_neg]⟩

theorem AllReal.hostNegf {a : FVec Ideal s φ} (ha : AllReal a) : AllReal (Host.negf a) := fun j => by
  obtain ⟨p, hp⟩ := ha j
  exact ⟨-p, by show -(a j) = _; rw [hp, EReal.coe_neg]⟩

theorem AllReal.minimumf {a b : FVec Ideal s φ} (ha : AllReal a) (hb : AllReal b) : AllReal (minimumf a b) := fun j => by
  show ∃ r : ℝ, min (a j) (b j) = (r : EReal)
  rcases min_choice (a j) (b j) with e | e <;> rw [e]
  · exact ha j
  · exact hb j

/-- The exponential of a real is a real. -/
theorem AllReal.exp {a : FVec Ideal s φ} (ha : AllReal a) : AllReal (Host.exp a) := fun j => by
  obtain ⟨p, hp⟩ := ha j
  exact ⟨Real.exp p, by show Ideal.exp (a j) = _; rw [hp]; rfl⟩

/-- A sum-reduction gives, at each entry, the initial value plus a finite sum of operand entries. -/
theorem AllReal.reduceAdd {axes : List (Fin s.rank)} {u : Shape} {x : FVec Ideal s φ} {init : u.Idx → Ideal φ}
    (hx : AllReal x) (hi : AllReal init) (h : s.ReducesTo axes t) (hu : 0 < u.numel) :
    AllReal (Host.reduceAdd x init h hu) := fun j => by
  show ∃ r : ℝ, init (Shape.Idx.first hu) + ∑ i ∈ Finset.univ.filter (fun i => h.drop i = j), x i = (r : EReal)
  obtain ⟨p, hp⟩ := hi (Shape.Idx.first hu)
  obtain ⟨q, hq⟩ := real_sum _ x (fun i _ => hx i)
  exact ⟨p + q, by rw [hp, hq, EReal.coe_add]⟩

end More

end Cert.LibAllReal

end
-- ==== Proof.SpecLaws.lean ====
/- Laws of the shared function over the extended reals.

   Two facts are established. First, the pooled mean written as a product with 2⁻¹² is the same number as the
   quotient by 4096. Second, on real-valued tokens and real-valued parameters the two ways of normalising an
   exponential by the sum of the four exponentials, the quotient e / s and the product e · (1 / s), give the same
   results: they can differ only where s = 0, and s is a sum of four exponentials of real numbers, hence a positive
   real. The realness is carried through the whole front of the computation: the token mean (a real sum over 256
   features divided by 256), the centred features, the variance (a sum of squares of reals divided by 256, so a
   nonnegative real), the reciprocal square root of variance plus a positive ε, the normalised token, the three
   projections (real sums of products plus a real bias), the appended register row, the logits and their maximum. -/
import proofs.«428392_j60172491817603_3_alg».proof.Proof.Spec
import proofs.«428392_j60172491817603_3_alg».proof.Proof.Consts
import proofs.«428392_j60172491817603_3_alg».proof.Proof.LibAllReal
import Mathlib.Algebra.BigOperators.Fin

noncomputable section

open scoped BigOperators

namespace Cert.Spec

open Idealize.ShloMosaic Idealize.ShloMosaic.ValueIdx Cert.LibAllReal

/-! ## Real scalars -/

/-- An extended real that is a real number (neither infinity). -/
abbrev IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with e | e <;> rw [e]
  · exact hx
  · exact hy

/-- A finite sum of nonnegative reals is a nonnegative real. -/
theorem nnreal_sum {ι : Type} (s : Finset ι) (g : ι → EReal)
    (h : ∀ i ∈ s, ∃ r : ℝ, 0 ≤ r ∧ g i = (r : EReal)) : ∃ r : ℝ, 0 ≤ r ∧ ∑ i ∈ s, g i = (r : EReal) :=
  Finset.sum_induction g (fun x => ∃ r : ℝ, 0 ≤ r ∧ x = (r : EReal))
    (by rintro _ _ ⟨a, ha, rfl⟩ ⟨b, hb, rfl⟩; exact ⟨a + b, add_nonneg ha hb, (EReal.coe_add a b).symm⟩)
    ⟨0, le_refl 0, EReal.coe_zero.symm⟩ h

/-! ## The literals' values -/

theorem cLen_eq : cLen = ((4096 : ℝ) : EReal) := Consts.ofBits_4096
theorem cInvLen_eq : cInvLen = ((1 / 4096 : ℝ) : EReal) := Consts.ofBits_inv4096
theorem cDim_eq : cDim = ((256 : ℝ) : EReal) := Consts.ofBits_256
theorem cScale_eq : cScale = ((1 / 8 : ℝ) : EReal) := Consts.ofBits_eighth
theorem cOne_eq : cOne = 1 := Consts.ofBits_one

/-! ## Pooling -/

/-- The product with 2⁻¹² is the quotient by 4096 = 2¹². -/
theorem poolMul_eq (x : A3 128 4096 256) (b : Fin 128) (d : Fin 256) : poolMul x b d = pool x b d := by
  unfold poolMul pool
  rw [cLen_eq, cInvLen_eq, Ideal.div_coe (by norm_num : (4096 : ℝ) ≠ 0)]

theorem feaMul_eq (x1 x2 x3 : A3 128 4096 256) : feaMul x1 x2 x3 = fea x1 x2 x3 := by
  funext j
  simp only [feaMul, fea]
  split <;> exact poolMul_eq _ _ _

/-- A pooled mean of reals is a real: a real sum divided by 4096. -/
theorem pool_real {x : A3 128 4096 256} (h : AllReal x) (b : Fin 128) (d : Fin 256) : IsReal (pool x b d) := by
  unfold pool
  rw [cLen_eq]
  exact real_div (real_sum _ _ (fun l _ => h _)) ⟨_, rfl⟩ (EReal.coe_ne_zero.mpr (by norm_num))

theorem fea_real {x1 x2 x3 : A3 128 4096 256} (h1 : AllReal x1) (h2 : AllReal x2) (h3 : AllReal x3) :
    AllReal (fea x1 x2 x3) := by
  intro j
  simp only [fea]
  split
  · exact pool_real h1 _ _
  · exact pool_real h2 _ _
  · exact pool_real h3 _ _

/-! ## The parameters -/

/-- every parameter array is real-valued -/
structure Params.Real (p : Params) : Prop where
  lnw : AllReal p.lnw
  lnb : AllReal p.lnb
  Wt : AllReal p.Wt
  bt : AllReal p.bt
  Wp : AllReal p.Wp
  bp : AllReal p.bp
  Wm : AllReal p.Wm
  bm : AllReal p.bm
  Wo : AllReal p.Wo
  bo : AllReal p.bo
  rp : AllReal p.rp
  rm : AllReal p.rm

/-! ## Layer norm and the projections on real tokens -/

section Norm

variable {f : A3 128 3 256} (hf : AllReal f)
include hf

/-- The mean of 256 real features is a real. -/
theorem mean_real (b : Fin 128) (n : Fin 3) : IsReal (mean f b n) := by
  unfold mean
  rw [cDim_eq]
  exact real_div (real_sum _ _ (fun d _ => hf _)) ⟨_, rfl⟩ (EReal.coe_ne_zero.mpr (by norm_num))

theorem cen_real (b : Fin 128) (n : Fin 3) (d : Fin 256) : IsReal (cen f b n d) :=
  IsReal.sub (hf _) (mean_real hf b n)

/-- The variance is a sum of squares of reals divided by 256: a nonnegative real. -/
theorem var_nnreal (b : Fin 128) (n : Fin 3) : ∃ r : ℝ, 0 ≤ r ∧ var f b n = (r : EReal) := by
  obtain ⟨s, hs, e⟩ := nnreal_sum Finset.univ (fun d => cen f b n d * cen f b n d) (fun d _ => by
    obtain ⟨c, hc⟩ := cen_real hf b n d
    exact ⟨c * c, mul_self_nonneg c, by rw [hc, EReal.coe_mul]⟩)
  refine ⟨s * (1 / 256), by positivity, ?_⟩
  unfold var
  rw [e, cDim_eq, Ideal.div_coe (by norm_num : (256 : ℝ) ≠ 0), EReal.coe_mul]

/-- Variance plus the positive ε is a positive real, so its reciprocal square root is a real. -/
theorem rstd_real (b : Fin 128) (n : Fin 3) : IsReal (Ideal.rsqrt (var f b n + cEps)) := by
  obtain ⟨v, hv, e⟩ := var_nnreal hf b n
  obtain ⟨ε, hε, eε⟩ := Consts.ofBits_eps
  have h : var f b n + cEps = ((v + ε : ℝ) : EReal) := by
    rw [e, show cEps = (ε : EReal) from eε, EReal.coe_add]
  rw [h]
  exact real_rsqrt ⟨_, rfl⟩ (EReal.coe_pos.2 (by linarith))

theorem xn_real {lnw lnb : A1 256} (hw : AllReal lnw) (hb : AllReal lnb) (b : Fin 128) (n : Fin 3) (d : Fin 256) :
    IsReal (xn f lnw lnb b n d) := by
  unfold xn
  exact IsReal.add (IsReal.mul (IsReal.mul (cen_real hf b n d) (rstd_real hf b n)) (hw _)) (hb _)

/-- A projection is a real sum of products of reals plus a real bias. -/
theorem proj_real {lnw lnb : A1 256} (hw : AllReal lnw) (hb : AllReal lnb) {W : A2 256 256} {bias : A1 256}
    (hW : AllReal W) (hbias : AllReal bias) (b : Fin 128) (n : Fin 3) (i : Fin 256) :
    IsReal (proj f lnw lnb W bias b n i) := by
  unfold proj
  exact IsReal.add (real_sum _ _ (fun d _ => IsReal.mul (xn_real hf hw hb b n d) (hW _))) (hbias _)

end Norm

/-- Appending a real register row to real token rows keeps every entry real. -/
theorem withReg_real {t : Tok3} {r : A3 1 1 256} (ht : ∀ b n i, IsReal (t b n i)) (hr : AllReal r)
    (b : Fin 128) (m : Fin 4) (i : Fin 256) : IsReal (withReg t r b m i) := by
  unfold withReg
  split
  · exact ht _ _ _
  · exact hr _

/-! ## The attention weights on real queries and keys -/

section Attention

variable {θ : Tok3} {φ : Tok4} (hθ : ∀ b n i, IsReal (θ b n i)) (hφ : ∀ b m i, IsReal (φ b m i))
include hθ hφ

/-- A logit is a sum of 64 products of reals. -/
theorem gram_real (b : Fin 128) (h : Fin 4) (n : Fin 3) (m : Fin 4) : IsReal (gram θ φ b h n m) := by
  unfold gram
  exact real_sum _ _ (fun e _ => IsReal.mul (IsReal.mul (hθ _ _ _) ⟨_, cScale_eq⟩) (hφ _ _ _))

/-- The largest of four reals is a real. -/
theorem gmax_real (b : Fin 128) (h : Fin 4) (n : Fin 3) : IsReal (gmax θ φ b h n) := by
  unfold gmax
  exact IsReal.max (IsReal.max (IsReal.max (gram_real hθ hφ b h n 0) (gram_real hθ hφ b h n 1))
    (gram_real hθ hφ b h n 2)) (gram_real hθ hφ b h n 3)

/-- The exponential of a difference of reals is a positive real. -/
theorem ex_pos_real (b : Fin 128) (h : Fin 4) (n : Fin 3) (m : Fin 4) :
    ∃ r : ℝ, 0 < r ∧ ex θ φ b h n m = (r : EReal) := by
  obtain ⟨g, hg⟩ := gram_real hθ hφ b h n m
  obtain ⟨M, hM⟩ := gmax_real hθ hφ b h n
  refine ⟨Real.exp (g - M), Real.exp_pos _, ?_⟩
  unfold ex
  rw [hg, hM, ← EReal.coe_sub, Ideal.exp_coe]

/-- The sum of the four exponentials is a positive real, in particular not zero. -/
theorem esum_ne_zero (b : Fin 128) (h : Fin 4) (n : Fin 3) : esum θ φ b h n ≠ 0 := by
  obtain ⟨r0, p0, e0⟩ := ex_pos_real hθ hφ b h n 0
  obtain ⟨r1, p1, e1⟩ := ex_pos_real hθ hφ b h n 1
  obtain ⟨r2, p2, e2⟩ := ex_pos_real hθ hφ b h n 2
  obtain ⟨r3, p3, e3⟩ := ex_pos_real hθ hφ b h n 3
  unfold esum
  rw [Fin.sum_univ_four, e0, e1, e2, e3, ← EReal.coe_add, ← EReal.coe_add, ← EReal.coe_add]
  exact EReal.coe_ne_zero.mpr (ne_of_gt (by linarith))

end Attention

/-- Off a zero divisor the quotient e / s is e · s⁻¹, and 1 / s is s⁻¹: the two normalisations agree. -/
theorem norm_eq {e s : EReal} (h : s ≠ 0) : normMul e s = normDiv e s := by
  unfold normMul normDiv Ideal.div
  rw [if_neg h, if_neg h, cOne_eq, one_mul]

section Agree

variable {θ : Tok3} {φ : Tok4} (hθ : ∀ b n i, IsReal (θ b n i)) (hφ : ∀ b m i, IsReal (φ b m i))
include hθ hφ

theorem prob_eq (b : Fin 128) (h : Fin 4) (n : Fin 3) (m : Fin 4) :
    prob normMul θ φ b h n m = prob normDiv θ φ b h n m := by
  unfold prob
  exact norm_eq (esum_ne_zero hθ hφ b h n)

theorem att_eq (μ : Tok4) : att normMul θ φ μ = att normDiv θ φ μ := by
  funext b n i
  unfold att
  simp only [prob_eq hθ hφ]

theorem matchMean_eq : matchMean normMul θ φ = matchMean normDiv θ φ := by
  funext j
  unfold matchMean
  refine congrArg (fun s => Ideal.div s cHeads) (Finset.sum_congr rfl (fun h _ => ?_))
  exact prob_eq hθ hφ _ _ _ _

end Agree

/-! ## The two results -/

section Results

variable {f : A3 128 3 256} {p : Params} (hf : AllReal f) (hp : p.Real)
include hf hp

theorem theta_real (b : Fin 128) (n : Fin 3) (i : Fin 256) : IsReal (theta f p b n i) :=
  proj_real hf hp.lnw hp.lnb hp.Wt hp.bt b n i

theorem phi4_real (b : Fin 128) (m : Fin 4) (i : Fin 256) : IsReal (phi4 f p b m i) :=
  withReg_real (proj_real hf hp.lnw hp.lnb hp.Wp hp.bp) hp.rp b m i

end Results

theorem out_norm_eq (f : A3 128 3 256) (p : Params) (hf : AllReal f) (hp : p.Real) :
    out normMul f p = out normDiv f p := by
  unfold out
  rw [att_eq (theta_real hf hp) (phi4_real hf hp)]

theorem matchOut_norm_eq (f : A3 128 3 256) (p : Params) (hf : AllReal f) (hp : p.Real) :
    matchOut normMul f p = matchOut normDiv f p := by
  unfold matchOut
  exact matchMean_eq (theta_real hf hp) (phi4_real hf hp)

end Cert.Spec

end
-- ==== Proof.PreReal.lean ====
/-
  THE PRECONDITION READ AS "EVERY ENTRY IS A REAL". The precondition of the idealized kernel is a conjunction over its
  fifteen float arguments; the conjunct of an argument x says that |x| < +∞ holds at every entry of x, where |x| is
  max x (−x) over the extended reals. An extended real with max x (−x) < +∞ is neither +∞ nor −∞, hence a real. So the
  precondition gives, for each argument, that all its entries are reals.
-/
import proofs.«428392_j60172491817603_3_alg».proof.Defs
import proofs.«428392_j60172491817603_3_alg».proof.Proof.Gen.Pre_finite_inputs
import proofs.«428392_j60172491817603_3_alg».proof.Proof.LibAllReal
import Idealize.ShloMosaic.Lib.ReduceAll
import Idealize.ShloMosaic.Lib.ValueIdx

noncomputable section

namespace Cert.PreReal

open Idealize.ShloMosaic Idealize.SL.Sem Idealize.ShloMosaic.ValueIdx Cert.Pre_finite_inputs Cert.LibAllReal

/-- The pattern with exponent field all ones and fraction zero, sign clear, denotes +∞. -/
theorem ofBits_pos_inf : Ideal.ofBits .f32 0x7F800000#32 = ⊤ := by
  simp [Ideal.ofBits, Ideal.ieee]

/-- An extended real whose absolute value max x (−x) lies strictly below +∞ is a real. -/
theorem real_of_abs_lt_top (x : EReal) (h : Ideal.cmp .olt (max x (-x)) ⊤ = 1#1) : ∃ r : ℝ, x = (r : EReal) := by
  induction x using EReal.rec with
  | bot => exact absurd h (by simp [Ideal.cmp])
  | top => exact absurd h (by simp [Ideal.cmp])
  | coe r => exact ⟨r, rfl⟩

instance : Subsingleton S_.Idx := ⟨fun a b => funext fun d => d.elim0⟩

/-- One array: when the conjunction over all entries of |x| < +∞ comes out 1, every entry of x is a real. -/
theorem allReal_of_all {s : Shape} {axes : List (Fin s.rank)} (x : FVec Ideal s .f32)
    (hb : S_.BroadcastsInDim s (![] : Fin 0 → Fin s.rank)) (hr : s.ReducesTo axes S_) (hS : 0 < S_.numel) (j : S_.Idx)
    (e : Host.reduce IntOp.andi
          (cmpf .olt (Host.absf x) (broadcastInDim s ![] hb (constant (F := Ideal) S_ .f32 0x7F800000#32)))
          (constantI S_ 1 1#1) hr hS j = 1#1) : AllReal x := fun i => by
  have hi := Host.reduce_andi_all _ _ hr hS j e i
  refine real_of_abs_lt_top (x i) ?_
  rw [← ofBits_pos_inf]
  exact hi

/-- The program-free core: if the printed predicate evaluates to the all-ones word on fifteen arrays of extended reals,
    then each of the fifteen has only real entries. The predicate is a conjunction, one conjunct per array, of
    "every entry has absolute value strictly below +∞". -/
theorem args_real [Facts]
    (a0 a1 a2 : FVec Ideal S128x4096x256 .f32) (a3 a4 : FVec Ideal S256 .f32) (a5 : FVec Ideal S256x256 .f32)
    (a6 : FVec Ideal S256 .f32) (a7 : FVec Ideal S256x256 .f32) (a8 : FVec Ideal S256 .f32)
    (a9 : FVec Ideal S256x256 .f32) (a10 : FVec Ideal S256 .f32) (a11 : FVec Ideal S256x256 .f32)
    (a12 : FVec Ideal S256 .f32) (a13 a14 : FVec Ideal S1x1x256 .f32)
    (h : fn (F := Ideal) a0 a1 a2 a3 a4 a5 a6 a7 a8 a9 a10 a11 a12 a13 a14 = fun _ => 1#1) :
    AllReal a0 ∧ AllReal a1 ∧ AllReal a2 ∧ AllReal a3 ∧ AllReal a4 ∧ AllReal a5 ∧ AllReal a6 ∧ AllReal a7
      ∧ AllReal a8 ∧ AllReal a9 ∧ AllReal a10 ∧ AllReal a11 ∧ AllReal a12 ∧ AllReal a13 ∧ AllReal a14 := by
  have h0 := congrFun h ix0
  dsimp only [fn, fn_part1, fn_part2, fn_part3, fn_part4] at h0
  simp only [andi, IntOp.andi_eq_one] at h0
  obtain ⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩ := h0
  exact ⟨allReal_of_all a0 _ _ _ _ e0, allReal_of_all a1 _ _ _ _ e1, allReal_of_all a2 _ _ _ _ e2,
    allReal_of_all a3 _ _ _ _ e3, allReal_of_all a4 _ _ _ _ e4, allReal_of_all a5 _ _ _ _ e5,
    allReal_of_all a6 _ _ _ _ e6, allReal_of_all a7 _ _ _ _ e7, allReal_of_all a8 _ _ _ _ e8,
    allReal_of_all a9 _ _ _ _ e9, allReal_of_all a10 _ _ _ _ e10, allReal_of_all a11 _ _ _ _ e11,
    allReal_of_all a12 _ _ _ _ e12, allReal_of_all a13 _ _ _ _ e13, allReal_of_all a14 _ _ _ _ e14⟩

/-- At the idealized kernel's initial memory: under its precondition, on every device, each of the fifteen argument
    arrays has only real entries. -/
theorem kernelIdeal_args_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
      ∧ AllReal (m ((c.tc : Thread Cert.KernelIdeal.nD Cert.KernelIdeal.τ).loc Cert.KernelIdeal.main_arg1))
      ∧ AllReal (m ((c.tc : Thread Cert.KernelIdeal.nD Cert.KernelIdeal.τ).loc Cert.KernelIdeal.main_arg2))
      ∧ AllReal (m ((c.tc : Thread Cert.KernelIdeal.nD Cert.KernelIdeal.τ).loc Cert.KernelIdeal.main_arg3))
      ∧ AllReal (m ((c.tc : Thread Cert.KernelIdeal.nD Cert.KernelIdeal.τ).loc Cert.KernelIdeal.main_arg4))
      ∧ AllReal (m ((c.tc : Thread Cert.KernelIdeal.nD Cert.KernelIdeal.τ).loc Cert.KernelIdeal.main_arg5))
      ∧ AllReal (m ((c.tc : Thread Cert.KernelIdeal.nD Cert.KernelIdeal.τ).loc Cert.KernelIdeal.main_arg6))
      ∧ AllReal (m ((c.tc : Thread Cert.KernelIdeal.nD Cert.KernelIdeal.τ).loc Cert.KernelIdeal.main_arg7))
      ∧ AllReal (m ((c.tc : Thread Cert.KernelIdeal.nD Cert.KernelIdeal.τ).loc Cert.KernelIdeal.main_arg8))
      ∧ AllReal (m ((c.tc : Thread Cert.KernelIdeal.nD Cert.KernelIdeal.τ).loc Cert.KernelIdeal.main_arg9))
      ∧ AllReal (m ((c.tc : Thread Cert.KernelIdeal.nD Cert.KernelIdeal.τ).loc Cert.KernelIdeal.main_arg10))
      ∧ AllReal (m ((c.tc : Thread Cert.KernelIdeal.nD Cert.KernelIdeal.τ).loc Cert.KernelIdeal.main_arg11))
      ∧ AllReal (m ((c.tc : Thread Cert.KernelIdeal.nD Cert.KernelIdeal.τ).loc Cert.KernelIdeal.main_arg12))
      ∧ AllReal (m ((c.tc : Thread Cert.KernelIdeal.nD Cert.KernelIdeal.τ).loc Cert.KernelIdeal.main_arg13))
      ∧ AllReal (m ((c.tc : Thread Cert.KernelIdeal.nD Cert.KernelIdeal.τ).loc Cert.KernelIdeal.main_arg14)) :=
  args_real _ _ _ _ _ _ _ _ _ _ _ _ _ _ _ (h c)

end Cert.PreReal

end
-- ==== Proof.KernelValue.lean ====
/- The kernel program's two results as the specification's, from its launch memory.

   After both regions the first result buffer holds what the second kernel's body leaves there, a function of the
   pooled tokens (what the first kernel leaves in its output array) and of the parameters as the host lines between
   the two kernels re-laid them (biases and layer-norm vectors as [1, 256] rows, matrices transposed, register rows
   as [1, 256]). The body is the specification's epilogue with the normalisation `e · (1 / s)`, applied to the re-laid
   parameters read back in their original layout; the pooled tokens are the means in product form, equal to the
   quotient form; and on finite inputs the normalisation `e · (1 / s)` is `e / s`. -/
import proofs.«428392_j60172491817603_3_alg».proof.Defs
import proofs.«428392_j60172491817603_3_alg».proof.Proof.KVal
import proofs.«428392_j60172491817603_3_alg».proof.Proof.KEpiBridge
import proofs.«428392_j60172491817603_3_alg».proof.Proof.KEpi
import proofs.«428392_j60172491817603_3_alg».proof.Proof.KPool
import proofs.«428392_j60172491817603_3_alg».proof.Proof.SpecLaws
import proofs.«428392_j60172491817603_3_alg».proof.Proof.PreReal

noncomputable section

namespace Cert.KernelIdeal.Named

open Cert.KernelIdeal Cert.KernelIdeal.Gen Cert.KernelIdeal.Epi
open Idealize.ShloMosaic Idealize.ShloMosaic.TcCoe Idealize.ShloMosaic.ValueIdx Idealize.SL.Sem

variable (m : (ℓ : Loc nD τ sig) → Buf (Elt Ideal) ℓ) (ρ : Dev nD → PrngReg)

/-- The pooled tokens of the launch arrays (quotient form). -/
def feaOf (c : Dev nD) : Cert.Spec.A3 128 3 256 :=
  Cert.Spec.fea (m ((c.tc : Thread nD τ).loc main_arg0)) (m ((c.tc : Thread nD τ).loc main_arg1)) (m ((c.tc : Thread nD τ).loc main_arg2))

/-- The parameters as launched. -/
def paramsOf (c : Dev nD) : Cert.Spec.Params :=
  ⟨(m ((c.tc : Thread nD τ).loc main_arg3)), (m ((c.tc : Thread nD τ).loc main_arg4)), (m ((c.tc : Thread nD τ).loc main_arg5)), (m ((c.tc : Thread nD τ).loc main_arg6)), (m ((c.tc : Thread nD τ).loc main_arg7)), (m ((c.tc : Thread nD τ).loc main_arg8)),
   (m ((c.tc : Thread nD τ).loc main_arg9)), (m ((c.tc : Thread nD τ).loc main_arg10)), (m ((c.tc : Thread nD τ).loc main_arg11)), (m ((c.tc : Thread nD τ).loc main_arg12)), (m ((c.tc : Thread nD τ).loc main_arg13)), (m ((c.tc : Thread nD τ).loc main_arg14))⟩

/-- A vector laid as a [1, 256] row; a matrix transposed; a [1, 1, 256] row laid as [1, 256]. -/
abbrev rowOf (a : Cert.Spec.A1 256) : S1x256.Idx → EReal := fun y => a (ix1 (y 1))
abbrev trOf (a : Cert.Spec.A2 256 256) : S256x256.Idx → EReal := fun y => a (ix2 (y 1) (y 0))
abbrev regOf (a : Cert.Spec.A3 1 1 256) : S1x256.Idx → EReal := fun y => a (ix3 0 0 (y 1))

/-- A vector laid as a row and read back as a vector is itself. -/
theorem rowA_row (a : Cert.Spec.A1 256) : rowA (rowOf a) = a :=
  funext fun j => congrArg a (eq_ix1 j).symm

/-- A matrix transposed and read back transposed is itself. -/
theorem trA_tr (a : Cert.Spec.A2 256 256) : trA (trOf a) = a :=
  funext fun j => congrArg a (eq_ix2 j).symm

/-- A [1, 1, 256] row laid as [1, 256] and read back as [1, 1, 256] is itself: the two unit coordinates are zero. -/
theorem regA_reg (a : Cert.Spec.A3 1 1 256) : regA (regOf a) = a :=
  funext fun j => congrArg a (funext fun d => by
    match d with
    | ⟨0, _⟩ => exact Subsingleton.elim (α := Fin 1) _ _
    | ⟨1, _⟩ => exact Subsingleton.elim (α := Fin 1) _ _
    | ⟨2, _⟩ => rfl)

/-- The re-laid parameters read back are the parameters. -/
theorem paramsK_relaid (a3 a4 : Cert.Spec.A1 256) (a5 : Cert.Spec.A2 256 256) (a6 : Cert.Spec.A1 256) (a7 : Cert.Spec.A2 256 256)
    (a8 : Cert.Spec.A1 256) (a9 : Cert.Spec.A2 256 256) (a10 : Cert.Spec.A1 256) (a11 : Cert.Spec.A2 256 256) (a12 : Cert.Spec.A1 256)
    (a13 a14 : Cert.Spec.A3 1 1 256) :
    paramsK (rowOf a3) (rowOf a4) (trOf a5) (rowOf a6) (trOf a7) (rowOf a8) (trOf a9) (rowOf a10) (trOf a11) (rowOf a12) (regOf a13) (regOf a14)
      = ⟨a3, a4, a5, a6, a7, a8, a9, a10, a11, a12, a13, a14⟩ := by
  unfold paramsK
  simp only [rowA_row, trA_tr, regA_reg]

/-- FIRST RESULT: the first result buffer after the run is the specification's first result of the launch arrays. -/
theorem W3_out0_spec [Cert.Pre_finite_inputs.Facts] (hpre : Cert.Pre_KernelIdeal m) (c : Dev nD) :
    W3 (F := Ideal) m ρ c (Proc.devRef .tc main_v13_0) = Cert.Spec.out Cert.Spec.normDiv (feaOf m c) (paramsOf m c) := by
  obtain ⟨h0, h1, h2, h3, h4, h5, h6, h7, h8, h9, h10, h11, h12, h13, h14⟩ := Cert.PreReal.kernelIdeal_args_real m hpre c
  refine (W3_out0 m ρ c).trans ((out1_13_eq _ _ _ _ _ _ _ _ _ _ _ _ _).trans ?_)
  refine (epiOut_eq _ (rowOf (m ((c.tc : Thread nD τ).loc main_arg3))) (rowOf (m ((c.tc : Thread nD τ).loc main_arg4))) (trOf (m ((c.tc : Thread nD τ).loc main_arg5))) (rowOf (m ((c.tc : Thread nD τ).loc main_arg6))) (trOf (m ((c.tc : Thread nD τ).loc main_arg7))) (rowOf (m ((c.tc : Thread nD τ).loc main_arg8)))
    (trOf (m ((c.tc : Thread nD τ).loc main_arg9))) (rowOf (m ((c.tc : Thread nD τ).loc main_arg10))) (trOf (m ((c.tc : Thread nD τ).loc main_arg11))) (rowOf (m ((c.tc : Thread nD τ).loc main_arg12))) (regOf (m ((c.tc : Thread nD τ).loc main_arg13))) (regOf (m ((c.tc : Thread nD τ).loc main_arg14)))).trans ?_
  rw [paramsK_relaid, Pool.pooled m ρ c, Cert.Spec.feaMul_eq]
  exact Cert.Spec.out_norm_eq _ _ (Cert.Spec.fea_real h0 h1 h2) ⟨h3, h4, h5, h6, h7, h8, h9, h10, h11, h12, h13, h14⟩

/-- SECOND RESULT. -/
theorem W3_out1_spec [Cert.Pre_finite_inputs.Facts] (hpre : Cert.Pre_KernelIdeal m) (c : Dev nD) :
    W3 (F := Ideal) m ρ c (Proc.devRef .tc main_v13_1) = Cert.Spec.matchOut Cert.Spec.normDiv (feaOf m c) (paramsOf m c) := by
  obtain ⟨h0, h1, h2, h3, h4, h5, h6, h7, h8, h9, h10, h11, h12, h13, h14⟩ := Cert.PreReal.kernelIdeal_args_real m hpre c
  refine (W3_out1 m ρ c).trans ((out1_14_eq _ _ _ _ _ _ _ _ _ _ _ _ _).trans ?_)
  refine (epiMatch_eq _ (rowOf (m ((c.tc : Thread nD τ).loc main_arg3))) (rowOf (m ((c.tc : Thread nD τ).loc main_arg4))) (trOf (m ((c.tc : Thread nD τ).loc main_arg5))) (rowOf (m ((c.tc : Thread nD τ).loc main_arg6))) (trOf (m ((c.tc : Thread nD τ).loc main_arg7))) (rowOf (m ((c.tc : Thread nD τ).loc main_arg8)))
    (trOf (m ((c.tc : Thread nD τ).loc main_arg9))) (rowOf (m ((c.tc : Thread nD τ).loc main_arg10))) (trOf (m ((c.tc : Thread nD τ).loc main_arg11))) (rowOf (m ((c.tc : Thread nD τ).loc main_arg12))) (regOf (m ((c.tc : Thread nD τ).loc main_arg13))) (regOf (m ((c.tc : Thread nD τ).loc main_arg14)))).trans ?_
  rw [paramsK_relaid, Pool.pooled m ρ c, Cert.Spec.feaMul_eq]
  exact Cert.Spec.matchOut_norm_eq _ _ (Cert.Spec.fea_real h0 h1 h2) ⟨h3, h4, h5, h6, h7, h8, h9, h10, h11, h12, h13, h14⟩

end Cert.KernelIdeal.Named

end
-- ==== Proof.RefFront.lean ====
/- The front of the reference program, read index by index: three sequences averaged over their 4096 positions and
   stacked as three tokens; each token normalised over its 256 features; three affine projections of the normalised
   token. Each stage is identified with the corresponding function of the specification. -/
import proofs.«428392_j60172491817603_3_alg».proof.Proof.Gen.ReferenceIdeal.Read
import proofs.«428392_j60172491817603_3_alg».proof.Proof.Spec
import proofs.«428392_j60172491817603_3_alg».proof.Proof.Consts

noncomputable section

namespace Cert.ReferenceIdeal.RefValue

open Cert.ReferenceIdeal Cert.ReferenceIdeal.Gen Idealize.ShloMosaic Idealize.ShloMosaic.ValueIdx
open scoped BigOperators

/-! ## Pooling: the sum over the 4096 positions, divided by 4096 -/

/-- The position sum of the first sequence at row b, feature d. -/
theorem v0_apply (x0 : (⟨S128x4096x256, .f32⟩ : BufTy).Contents (Elt Ideal)) (b : Fin 128) (d : Fin 256) :
    Read.val_main_v0 (F := Ideal) x0 (ix2 b d) = ∑ l : Fin 4096, x0 (ix3 b l d) := by
  rw [Read.val_main_v0_apply, Read.val_main_cst_apply]
  simp only [Ideal.ofBits_def, Cert.Consts.ofBits_zero, zero_add]
  exact Finset.sum_congr rfl fun k _ => congrArg x0
    (funext fun a => Fin.ext (by match a with | ⟨0, _⟩ => rfl | ⟨1, _⟩ => rfl | ⟨2, _⟩ => rfl))

/-- The position sum of the second sequence. -/
theorem v3_apply (x1 : (⟨S128x4096x256, .f32⟩ : BufTy).Contents (Elt Ideal)) (b : Fin 128) (d : Fin 256) :
    Read.val_main_v3 (F := Ideal) x1 (ix2 b d) = ∑ l : Fin 4096, x1 (ix3 b l d) := by
  rw [Read.val_main_v3_apply, Read.val_main_cst_1_apply]
  simp only [Ideal.ofBits_def, Cert.Consts.ofBits_zero, zero_add]
  exact Finset.sum_congr rfl fun k _ => congrArg x1
    (funext fun a => Fin.ext (by match a with | ⟨0, _⟩ => rfl | ⟨1, _⟩ => rfl | ⟨2, _⟩ => rfl))

/-- The position sum of the third sequence. -/
theorem v6_apply (x2 : (⟨S128x4096x256, .f32⟩ : BufTy).Contents (Elt Ideal)) (b : Fin 128) (d : Fin 256) :
    Read.val_main_v6 (F := Ideal) x2 (ix2 b d) = ∑ l : Fin 4096, x2 (ix3 b l d) := by
  rw [Read.val_main_v6_apply, Read.val_main_cst_3_apply]
  simp only [Ideal.ofBits_def, Cert.Consts.ofBits_zero, zero_add]
  exact Finset.sum_congr rfl fun k _ => congrArg x2
    (funext fun a => Fin.ext (by match a with | ⟨0, _⟩ => rfl | ⟨1, _⟩ => rfl | ⟨2, _⟩ => rfl))

/-- The first sequence's mean over positions is the specification's pooled value. -/
theorem v2_apply (x0 : (⟨S128x4096x256, .f32⟩ : BufTy).Contents (Elt Ideal)) (b : Fin 128) (d : Fin 256) :
    Read.val_main_v2 (F := Ideal) x0 (ix2 b d) = Cert.Spec.pool x0 b d := by
  rw [Read.val_main_v2_apply, v0_apply, Read.val_main_v1_apply, Read.val_main_cst_0_apply]
  simp only [Ideal.hostDivf_def, Ideal.ofBits_def]
  rfl

theorem v5_apply (x1 : (⟨S128x4096x256, .f32⟩ : BufTy).Contents (Elt Ideal)) (b : Fin 128) (d : Fin 256) :
    Read.val_main_v5 (F := Ideal) x1 (ix2 b d) = Cert.Spec.pool x1 b d := by
  rw [Read.val_main_v5_apply, v3_apply, Read.val_main_v4_apply, Read.val_main_cst_2_apply]
  simp only [Ideal.hostDivf_def, Ideal.ofBits_def]
  rfl

theorem v8_apply (x2 : (⟨S128x4096x256, .f32⟩ : BufTy).Contents (Elt Ideal)) (b : Fin 128) (d : Fin 256) :
    Read.val_main_v8 (F := Ideal) x2 (ix2 b d) = Cert.Spec.pool x2 b d := by
  rw [Read.val_main_v8_apply, v6_apply, Read.val_main_v7_apply, Read.val_main_cst_4_apply]
  simp only [Ideal.hostDivf_def, Ideal.ofBits_def]
  rfl

/-! ## The three pooled rows laid side by side along the token axis -/

theorem v9_apply (x0 : (⟨S128x4096x256, .f32⟩ : BufTy).Contents (Elt Ideal)) (b : Fin 128) (z : Fin 1) (d : Fin 256) :
    Read.val_main_v9 (F := Ideal) x0 (ix3 b z d) = Cert.Spec.pool x0 b d := by
  rw [Read.val_main_v9_apply]
  have e : Read.idx_main_v9 (ix3 b z d) = ix2 b d :=
    funext fun a => Fin.ext (by match a with | ⟨0, _⟩ => rfl | ⟨1, _⟩ => rfl)
  rw [e, v2_apply]

theorem v10_apply (x1 : (⟨S128x4096x256, .f32⟩ : BufTy).Contents (Elt Ideal)) (b : Fin 128) (z : Fin 1) (d : Fin 256) :
    Read.val_main_v10 (F := Ideal) x1 (ix3 b z d) = Cert.Spec.pool x1 b d := by
  rw [Read.val_main_v10_apply]
  have e : Read.idx_main_v10 (ix3 b z d) = ix2 b d :=
    funext fun a => Fin.ext (by match a with | ⟨0, _⟩ => rfl | ⟨1, _⟩ => rfl)
  rw [e, v5_apply]

theorem v11_apply (x2 : (⟨S128x4096x256, .f32⟩ : BufTy).Contents (Elt Ideal)) (b : Fin 128) (z : Fin 1) (d : Fin 256) :
    Read.val_main_v11 (F := Ideal) x2 (ix3 b z d) = Cert.Spec.pool x2 b d := by
  rw [Read.val_main_v11_apply]
  have e : Read.idx_main_v11 (ix3 b z d) = ix2 b d :=
    funext fun a => Fin.ext (by match a with | ⟨0, _⟩ => rfl | ⟨1, _⟩ => rfl)
  rw [e, v8_apply]

/-- Token 0 of the stacked array is the first sequence's pooled row. -/
theorem v12_apply_0 (x0 x1 x2 : (⟨S128x4096x256, .f32⟩ : BufTy).Contents (Elt Ideal)) (b : Fin 128) (d : Fin 256) :
    Read.val_main_v12 (F := Ideal) x0 x1 x2 (ix3 b (0 : Fin 3) d) = Cert.Spec.pool x0 b d := by
  unfold Read.val_main_v12
  exact (concatenate_apply_piece (t := S128x3x256) 1
    [⟨S128x1x256, Read.val_main_v9 (F := Ideal) x0⟩, ⟨S128x1x256, Read.val_main_v10 (F := Ideal) x1⟩,
      ⟨S128x1x256, Read.val_main_v11 (F := Ideal) x2⟩]
    concatenates_S128x1x256_S128x1x256_S128x1x256_S128x3x256_d1
    (ix3 b (0 : Fin 3) d) 0 (show (0 : Nat) < 3 by decide) S128x1x256
    (Read.val_main_v9 (F := Ideal) x0) rfl rfl 0 rfl (ix3 b (0 : Fin 1) d)
    (fun a => by
      match a with
      | ⟨0, _⟩ => exact fun _ => rfl
      | ⟨1, _⟩ => exact fun h => absurd rfl h
      | ⟨2, _⟩ => exact fun _ => rfl)
    rfl).trans (v9_apply x0 b 0 d)

/-- Token 1 of the stacked array is the second sequence's pooled row. -/
theorem v12_apply_1 (x0 x1 x2 : (⟨S128x4096x256, .f32⟩ : BufTy).Contents (Elt Ideal)) (b : Fin 128) (d : Fin 256) :
    Read.val_main_v12 (F := Ideal) x0 x1 x2 (ix3 b (1 : Fin 3) d) = Cert.Spec.pool x1 b d := by
  unfold Read.val_main_v12
  exact (concatenate_apply_piece (t := S128x3x256) 1
    [⟨S128x1x256, Read.val_main_v9 (F := Ideal) x0⟩, ⟨S128x1x256, Read.val_main_v10 (F := Ideal) x1⟩,
      ⟨S128x1x256, Read.val_main_v11 (F := Ideal) x2⟩]
    concatenates_S128x1x256_S128x1x256_S128x1x256_S128x3x256_d1
    (ix3 b (1 : Fin 3) d) 1 (show (1 : Nat) < 3 by decide) S128x1x256
    (Read.val_main_v10 (F := Ideal) x1) rfl rfl 1 rfl (ix3 b (0 : Fin 1) d)
    (fun a => by
      match a with
      | ⟨0, _⟩ => exact fun _ => rfl
      | ⟨1, _⟩ => exact fun h => absurd rfl h
      | ⟨2, _⟩ => exact fun _ => rfl)
    rfl).trans (v10_apply x1 b 0 d)

/-- Token 2 of the stacked array is the third sequence's pooled row. -/
theorem v12_apply_2 (x0 x1 x2 : (⟨S128x4096x256, .f32⟩ : BufTy).Contents (Elt Ideal)) (b : Fin 128) (d : Fin 256) :
    Read.val_main_v12 (F := Ideal) x0 x1 x2 (ix3 b (2 : Fin 3) d) = Cert.Spec.pool x2 b d := by
  unfold Read.val_main_v12
  exact (concatenate_apply_piece (t := S128x3x256) 1
    [⟨S128x1x256, Read.val_main_v9 (F := Ideal) x0⟩, ⟨S128x1x256, Read.val_main_v10 (F := Ideal) x1⟩,
      ⟨S128x1x256, Read.val_main_v11 (F := Ideal) x2⟩]
    concatenates_S128x1x256_S128x1x256_S128x1x256_S128x3x256_d1
    (ix3 b (2 : Fin 3) d) 2 (show (2 : Nat) < 3 by decide) S128x1x256
    (Read.val_main_v11 (F := Ideal) x2) rfl rfl 2 rfl (ix3 b (0 : Fin 1) d)
    (fun a => by
      match a with
      | ⟨0, _⟩ => exact fun _ => rfl
      | ⟨1, _⟩ => exact fun h => absurd rfl h
      | ⟨2, _⟩ => exact fun _ => rfl)
    rfl).trans (v11_apply x2 b 0 d)

/-- The stacked array is the specification's three pooled tokens. -/
theorem v12_eq (x0 x1 x2 : (⟨S128x4096x256, .f32⟩ : BufTy).Contents (Elt Ideal)) :
    Read.val_main_v12 (F := Ideal) x0 x1 x2 = Cert.Spec.fea x0 x1 x2 := by
  funext j
  obtain ⟨b, n, d, rfl⟩ : ∃ (b : Fin 128) (n : Fin 3) (d : Fin 256), j = ix3 b n d := ⟨j 0, j 1, j 2, eq_ix3 j⟩
  match n with
  | ⟨0, _⟩ => exact v12_apply_0 x0 x1 x2 b d
  | ⟨1, _⟩ => exact v12_apply_1 x0 x1 x2 b d
  | ⟨2, _⟩ => exact v12_apply_2 x0 x1 x2 b d

/-! ## The token mean -/

/-- The feature sum of token n of row b. -/
theorem v13_apply (x0 x1 x2 : (⟨S128x4096x256, .f32⟩ : BufTy).Contents (Elt Ideal)) (b : Fin 128) (n : Fin 3) :
    Read.val_main_v13 (F := Ideal) x0 x1 x2 (ix2 b n) = ∑ d : Fin 256, Cert.Spec.fea x0 x1 x2 (ix3 b n d) := by
  rw [Read.val_main_v13_apply, Read.val_main_cst_5_apply, v12_eq]
  simp only [Ideal.ofBits_def, Cert.Consts.ofBits_zero, zero_add]
  exact Finset.sum_congr rfl fun k _ => congrArg (Cert.Spec.fea x0 x1 x2)
    (funext fun a => Fin.ext (by match a with | ⟨0, _⟩ => rfl | ⟨1, _⟩ => rfl | ⟨2, _⟩ => rfl))

/-- The feature sum divided by 256 is the specification's token mean. -/
theorem v16_apply (x0 x1 x2 : (⟨S128x4096x256, .f32⟩ : BufTy).Contents (Elt Ideal)) (b : Fin 128) (n : Fin 3) (z : Fin 1) :
    Read.val_main_v16 (F := Ideal) x0 x1 x2 (ix3 b n z) = Cert.Spec.mean (Cert.Spec.fea x0 x1 x2) b n := by
  rw [Read.val_main_v16_apply, Read.val_main_v14_apply, Read.val_main_v15_apply, Read.val_main_cst_6_apply]
  have e : Read.idx_main_v14 (ix3 b n z) = ix2 b n :=
    funext fun a => Fin.ext (by match a with | ⟨0, _⟩ => rfl | ⟨1, _⟩ => rfl)
  rw [e, v13_apply]
  simp only [Ideal.hostDivf_def, Ideal.ofBits_def]
  rfl

/-! ## Centred features and their squared mean -/

/-- A feature minus its token's mean (first of the two identical subtractions). -/
theorem v18_apply (x0 x1 x2 : (⟨S128x4096x256, .f32⟩ : BufTy).Contents (Elt Ideal)) (b : Fin 128) (n : Fin 3) (d : Fin 256) :
    Read.val_main_v18 (F := Ideal) x0 x1 x2 (ix3 b n d) = Cert.Spec.cen (Cert.Spec.fea x0 x1 x2) b n d := by
  rw [Read.val_main_v18_apply, Read.val_main_v17_apply, v12_eq]
  have e : Read.idx_main_v17 (ix3 b n d) = ix3 b n (0 : Fin 1) :=
    funext fun a => Fin.ext (by match a with | ⟨0, _⟩ => rfl | ⟨1, _⟩ => rfl | ⟨2, _⟩ => rfl)
  rw [e, v16_apply]
  simp only [Ideal.subf_def]
  rfl

/-- The sum over the features of the centred squares. -/
theorem v20_apply (x0 x1 x2 : (⟨S128x4096x256, .f32⟩ : BufTy).Contents (Elt Ideal)) (b : Fin 128) (n : Fin 3) :
    Read.val_main_v20 (F := Ideal) x0 x1 x2 (ix2 b n)
      = ∑ d : Fin 256, Cert.Spec.cen (Cert.Spec.fea x0 x1 x2) b n d * Cert.Spec.cen (Cert.Spec.fea x0 x1 x2) b n d := by
  rw [Read.val_main_v20_apply, Read.val_main_cst_7_apply]
  simp only [Ideal.ofBits_def, Cert.Consts.ofBits_zero, zero_add]
  refine Finset.sum_congr rfl fun k _ => ?_
  have e : Read.idx_main_v20 (ix2 b n) k = ix3 b n k :=
    funext fun a => Fin.ext (by match a with | ⟨0, _⟩ => rfl | ⟨1, _⟩ => rfl | ⟨2, _⟩ => rfl)
  rw [e, Read.val_main_v19_apply, v18_apply]
  simp only [Ideal.mulf_def]

/-- The centred squares' sum divided by 256 is the specification's variance. -/
theorem v23_apply (x0 x1 x2 : (⟨S128x4096x256, .f32⟩ : BufTy).Contents (Elt Ideal)) (b : Fin 128) (n : Fin 3) (z : Fin 1) :
    Read.val_main_v23 (F := Ideal) x0 x1 x2 (ix3 b n z) = Cert.Spec.var (Cert.Spec.fea x0 x1 x2) b n := by
  rw [Read.val_main_v23_apply, Read.val_main_v21_apply, Read.val_main_v22_apply, Read.val_main_cst_8_apply]
  have e : Read.idx_main_v21 (ix3 b n z) = ix2 b n :=
    funext fun a => Fin.ext (by match a with | ⟨0, _⟩ => rfl | ⟨1, _⟩ => rfl)
  rw [e, v20_apply]
  simp only [Ideal.hostDivf_def, Ideal.ofBits_def]
  rfl

/-- The second, identical, subtraction of the token mean. -/
theorem v25_apply (x0 x1 x2 : (⟨S128x4096x256, .f32⟩ : BufTy).Contents (Elt Ideal)) (b : Fin 128) (n : Fin 3) (d : Fin 256) :
    Read.val_main_v25 (F := Ideal) x0 x1 x2 (ix3 b n d) = Cert.Spec.cen (Cert.Spec.fea x0 x1 x2) b n d := by
  rw [Read.val_main_v25_apply, Read.val_main_v24_apply, v12_eq]
  have e : Read.idx_main_v24 (ix3 b n d) = ix3 b n (0 : Fin 1) :=
    funext fun a => Fin.ext (by match a with | ⟨0, _⟩ => rfl | ⟨1, _⟩ => rfl | ⟨2, _⟩ => rfl)
  rw [e, v16_apply]
  simp only [Ideal.subf_def]
  rfl

/-! ## The reciprocal standard deviation, the scale and the shift -/

/-- The reciprocal square root of the variance plus ε. -/
theorem v28_apply (x0 x1 x2 : (⟨S128x4096x256, .f32⟩ : BufTy).Contents (Elt Ideal)) (b : Fin 128) (n : Fin 3) (z : Fin 1) :
    Read.val_main_v28 (F := Ideal) x0 x1 x2 (ix3 b n z)
      = Ideal.rsqrt (Cert.Spec.var (Cert.Spec.fea x0 x1 x2) b n + Cert.Spec.cEps) := by
  rw [Read.val_main_v28_apply, Read.val_main_v27_apply, v23_apply, Read.val_main_v26_apply, Read.val_main_cst_9_apply]
  simp only [Ideal.hostUnary_rsqrt_def, Ideal.addf_def, Ideal.ofBits_def]

/-- The centred feature times the reciprocal standard deviation. -/
theorem v30_apply (x0 x1 x2 : (⟨S128x4096x256, .f32⟩ : BufTy).Contents (Elt Ideal)) (b : Fin 128) (n : Fin 3) (d : Fin 256) :
    Read.val_main_v30 (F := Ideal) x0 x1 x2 (ix3 b n d)
      = Cert.Spec.cen (Cert.Spec.fea x0 x1 x2) b n d
          * Ideal.rsqrt (Cert.Spec.var (Cert.Spec.fea x0 x1 x2) b n + Cert.Spec.cEps) := by
  rw [Read.val_main_v30_apply, v25_apply, Read.val_main_v29_apply]
  have e : Read.idx_main_v29 (ix3 b n d) = ix3 b n (0 : Fin 1) :=
    funext fun a => Fin.ext (by match a with | ⟨0, _⟩ => rfl | ⟨1, _⟩ => rfl | ⟨2, _⟩ => rfl)
  rw [e, v28_apply]
  simp only [Ideal.mulf_def]

/-- The learned scale, the same for every row and token. -/
theorem v32_apply (x3 : (⟨S256, .f32⟩ : BufTy).Contents (Elt Ideal)) (b : Fin 128) (n : Fin 3) (d : Fin 256) :
    Read.val_main_v32 (F := Ideal) x3 (ix3 b n d) = x3 (ix1 d) := by
  rw [Read.val_main_v32_apply, Read.val_main_v31_apply]
  exact congrArg x3 (funext fun a => Fin.ext (by match a with | ⟨0, _⟩ => rfl))

/-- The learned shift, the same for every row and token. -/
theorem v35_apply (x4 : (⟨S256, .f32⟩ : BufTy).Contents (Elt Ideal)) (b : Fin 128) (n : Fin 3) (d : Fin 256) :
    Read.val_main_v35 (F := Ideal) x4 (ix3 b n d) = x4 (ix1 d) := by
  rw [Read.val_main_v35_apply, Read.val_main_v34_apply]
  exact congrArg x4 (funext fun a => Fin.ext (by match a with | ⟨0, _⟩ => rfl))

/-- The normalised token of the reference is the specification's. -/
theorem v36_apply (x0 x1 x2 : (⟨S128x4096x256, .f32⟩ : BufTy).Contents (Elt Ideal)) (x3 x4 : (⟨S256, .f32⟩ : BufTy).Contents (Elt Ideal))
    (b : Fin 128) (n : Fin 3) (d : Fin 256) :
    Read.val_main_v36 (F := Ideal) x0 x1 x2 x3 x4 (ix3 b n d)
      = Cert.Spec.xn (Cert.Spec.fea x0 x1 x2) x3 x4 b n d := by
  rw [Read.val_main_v36_apply, Read.val_main_v33_apply, v30_apply, v32_apply, v35_apply]
  simp only [Ideal.mulf_def, Ideal.addf_def]
  rfl

/-! ## The three projections of the normalised token -/

/-- A bias row spread over rows and tokens (first projection). -/
theorem v39_apply (x6 : (⟨S256, .f32⟩ : BufTy).Contents (Elt Ideal)) (b : Fin 128) (n : Fin 3) (i : Fin 256) :
    Read.val_main_v39 (F := Ideal) x6 (ix3 b n i) = x6 (ix1 i) := by
  rw [Read.val_main_v39_apply, Read.val_main_v38_apply]
  exact congrArg x6 (funext fun a => Fin.ext (by match a with | ⟨0, _⟩ => rfl))

theorem v43_apply (x8 : (⟨S256, .f32⟩ : BufTy).Contents (Elt Ideal)) (b : Fin 128) (n : Fin 3) (i : Fin 256) :
    Read.val_main_v43 (F := Ideal) x8 (ix3 b n i) = x8 (ix1 i) := by
  rw [Read.val_main_v43_apply, Read.val_main_v42_apply]
  exact congrArg x8 (funext fun a => Fin.ext (by match a with | ⟨0, _⟩ => rfl))

theorem v47_apply (x10 : (⟨S256, .f32⟩ : BufTy).Contents (Elt Ideal)) (b : Fin 128) (n : Fin 3) (i : Fin 256) :
    Read.val_main_v47 (F := Ideal) x10 (ix3 b n i) = x10 (ix1 i) := by
  rw [Read.val_main_v47_apply, Read.val_main_v46_apply]
  exact congrArg x10 (funext fun a => Fin.ext (by match a with | ⟨0, _⟩ => rfl))

/-- Output feature i of the first matrix product: the normalised token dotted with row i of the matrix. -/
theorem v37_apply (x0 x1 x2 : (⟨S128x4096x256, .f32⟩ : BufTy).Contents (Elt Ideal)) (x3 x4 : (⟨S256, .f32⟩ : BufTy).Contents (Elt Ideal))
    (x5 : (⟨S256x256, .f32⟩ : BufTy).Contents (Elt Ideal)) (b : Fin 128) (n : Fin 3) (i : Fin 256) :
    Read.val_main_v37 (F := Ideal) x0 x1 x2 x3 x4 x5 (ix3 b n i)
      = ∑ d : Fin 256, Cert.Spec.xn (Cert.Spec.fea x0 x1 x2) x3 x4 b n d * x5 (ix2 i d) := by
  rw [Read.val_main_v37_apply]
  refine Finset.sum_congr rfl fun k _ => ?_
  have el : Read.lidx_main_v37 (ix3 b n i) k = ix3 b n k :=
    funext fun a => Fin.ext (by match a with | ⟨0, _⟩ => rfl | ⟨1, _⟩ => rfl | ⟨2, _⟩ => rfl)
  have er : Read.ridx_main_v37 (ix3 b n i) k = ix2 i k :=
    funext fun a => Fin.ext (by match a with | ⟨0, _⟩ => rfl | ⟨1, _⟩ => rfl)
  rw [el, er, v36_apply]

theorem v41_apply (x0 x1 x2 : (⟨S128x4096x256, .f32⟩ : BufTy).Contents (Elt Ideal)) (x3 x4 : (⟨S256, .f32⟩ : BufTy).Contents (Elt Ideal))
    (x7 : (⟨S256x256, .f32⟩ : BufTy).Contents (Elt Ideal)) (b : Fin 128) (n : Fin 3) (i : Fin 256) :
    Read.val_main_v41 (F := Ideal) x0 x1 x2 x3 x4 x7 (ix3 b n i)
      = ∑ d : Fin 256, Cert.Spec.xn (Cert.Spec.fea x0 x1 x2) x3 x4 b n d * x7 (ix2 i d) := by
  rw [Read.val_main_v41_apply]
  refine Finset.sum_congr rfl fun k _ => ?_
  have el : Read.lidx_main_v41 (ix3 b n i) k = ix3 b n k :=
    funext fun a => Fin.ext (by match a with | ⟨0, _⟩ => rfl | ⟨1, _⟩ => rfl | ⟨2, _⟩ => rfl)
  have er : Read.ridx_main_v41 (ix3 b n i) k = ix2 i k :=
    funext fun a => Fin.ext (by match a with | ⟨0, _⟩ => rfl | ⟨1, _⟩ => rfl)
  rw [el, er, v36_apply]

theorem v45_apply (x0 x1 x2 : (⟨S128x4096x256, .f32⟩ : BufTy).Contents (Elt Ideal)) (x3 x4 : (⟨S256, .f32⟩ : BufTy).Contents (Elt Ideal))
    (x9 : (⟨S256x256, .f32⟩ : BufTy).Contents (Elt Ideal)) (b : Fin 128) (n : Fin 3) (i : Fin 256) :
    Read.val_main_v45 (F := Ideal) x0 x1 x2 x3 x4 x9 (ix3 b n i)
      = ∑ d : Fin 256, Cert.Spec.xn (Cert.Spec.fea x0 x1 x2) x3 x4 b n d * x9 (ix2 i d) := by
  rw [Read.val_main_v45_apply]
  refine Finset.sum_congr rfl fun k _ => ?_
  have el : Read.lidx_main_v45 (ix3 b n i) k = ix3 b n k :=
    funext fun a => Fin.ext (by match a with | ⟨0, _⟩ => rfl | ⟨1, _⟩ => rfl | ⟨2, _⟩ => rfl)
  have er : Read.ridx_main_v45 (ix3 b n i) k = ix2 i k :=
    funext fun a => Fin.ext (by match a with | ⟨0, _⟩ => rfl | ⟨1, _⟩ => rfl)
  rw [el, er, v36_apply]

/-- The query projection: matrix product plus bias. -/
theorem v40_apply (x0 x1 x2 : (⟨S128x4096x256, .f32⟩ : BufTy).Contents (Elt Ideal)) (x3 x4 : (⟨S256, .f32⟩ : BufTy).Contents (Elt Ideal))
    (x5 : (⟨S256x256, .f32⟩ : BufTy).Contents (Elt Ideal)) (x6 : (⟨S256, .f32⟩ : BufTy).Contents (Elt Ideal))
    (b : Fin 128) (n : Fin 3) (i : Fin 256) :
    Read.val_main_v40 (F := Ideal) x0 x1 x2 x3 x4 x5 x6 (ix3 b n i)
      = Cert.Spec.proj (Cert.Spec.fea x0 x1 x2) x3 x4 x5 x6 b n i := by
  rw [Read.val_main_v40_apply, v37_apply, v39_apply]
  simp only [Ideal.addf_def]
  rfl

/-- The key projection. -/
theorem v44_apply (x0 x1 x2 : (⟨S128x4096x256, .f32⟩ : BufTy).Contents (Elt Ideal)) (x3 x4 : (⟨S256, .f32⟩ : BufTy).Contents (Elt Ideal))
    (x7 : (⟨S256x256, .f32⟩ : BufTy).Contents (Elt Ideal)) (x8 : (⟨S256, .f32⟩ : BufTy).Contents (Elt Ideal))
    (b : Fin 128) (n : Fin 3) (i : Fin 256) :
    Read.val_main_v44 (F := Ideal) x0 x1 x2 x3 x4 x7 x8 (ix3 b n i)
      = Cert.Spec.proj (Cert.Spec.fea x0 x1 x2) x3 x4 x7 x8 b n i := by
  rw [Read.val_main_v44_apply, v41_apply, v43_apply]
  simp only [Ideal.addf_def]
  rfl

/-- The value projection. -/
theorem v48_apply (x0 x1 x2 : (⟨S128x4096x256, .f32⟩ : BufTy).Contents (Elt Ideal)) (x3 x4 : (⟨S256, .f32⟩ : BufTy).Contents (Elt Ideal))
    (x9 : (⟨S256x256, .f32⟩ : BufTy).Contents (Elt Ideal)) (x10 : (⟨S256, .f32⟩ : BufTy).Contents (Elt Ideal))
    (b : Fin 128) (n : Fin 3) (i : Fin 256) :
    Read.val_main_v48 (F := Ideal) x0 x1 x2 x3 x4 x9 x10 (ix3 b n i)
      = Cert.Spec.proj (Cert.Spec.fea x0 x1 x2) x3 x4 x9 x10 b n i := by
  rw [Read.val_main_v48_apply, v45_apply, v47_apply]
  simp only [Ideal.addf_def]
  rfl

end Cert.ReferenceIdeal.RefValue

end
-- ==== Proof.RefBack.lean ====
/- The reference's back half — attention and output — is the specification's.

   The reference's last thirty-five operations, read one stage at a time at explicit coordinates: the keys and values with
   the register row appended, the split of 256 features into 4 heads of 64, the scaled logits, the shifted exponentials
   and their normalisation, the weighted values laid side by side again, the output projection with bias and residual,
   and the weights averaged over the heads. The front half's three projections and the pooled tokens enter as
   hypotheses, so nothing here depends on how they are computed. -/
import proofs.«428392_j60172491817603_3_alg».proof.Proof.Gen.ReferenceIdeal.Read
import proofs.«428392_j60172491817603_3_alg».proof.Proof.Spec
import proofs.«428392_j60172491817603_3_alg».proof.Proof.Consts

noncomputable section

namespace Cert.ReferenceIdeal.RefValue

open Cert.ReferenceIdeal Cert.ReferenceIdeal.Gen Idealize.ShloMosaic Idealize.ShloMosaic.ValueIdx Idealize.ShloMosaic.StableHlo
open Cert.Spec (Tok3 Tok4 withReg hd headOf gram gmax ex esum prob att matchMean outOf normDiv cScale cHeads)
open scoped BigOperators

variable (x0 x1 x2 : (⟨S128x4096x256, .f32⟩ : BufTy).Contents (Elt Ideal))
  (x3 x4 : (⟨S256, .f32⟩ : BufTy).Contents (Elt Ideal))
  (x5 : (⟨S256x256, .f32⟩ : BufTy).Contents (Elt Ideal)) (x6 : (⟨S256, .f32⟩ : BufTy).Contents (Elt Ideal))
  (x7 : (⟨S256x256, .f32⟩ : BufTy).Contents (Elt Ideal)) (x8 : (⟨S256, .f32⟩ : BufTy).Contents (Elt Ideal))
  (x9 : (⟨S256x256, .f32⟩ : BufTy).Contents (Elt Ideal)) (x10 : (⟨S256, .f32⟩ : BufTy).Contents (Elt Ideal))
  (x11 : (⟨S256x256, .f32⟩ : BufTy).Contents (Elt Ideal)) (x12 : (⟨S256, .f32⟩ : BufTy).Contents (Elt Ideal))
  (x13 x14 : (⟨S1x1x256, .f32⟩ : BufTy).Contents (Elt Ideal))

/-! ## Keys and values with the register row -/

/-- A register row broadcast over the batch reads the row itself, whatever the batch coordinate. -/
theorem reg_row (r : (⟨S1x1x256, .f32⟩ : BufTy).Contents (Elt Ideal)) (b : Fin 128) (i : Fin 256) :
    r (Read.idx_main_v49 (ix3 b (0 : Fin 1) i)) = r (ix3 0 0 i) :=
  congrArg r (funext fun a => Fin.ext (by match a with | ⟨0, _⟩ => rfl | ⟨1, _⟩ => rfl | ⟨2, _⟩ => rfl))

/-- Rows 0, 1, 2 of the keys are the projected tokens; row 3 is the register key, for every batch row. -/
theorem v50_at (tφ : Tok3)
    (h44 : ∀ b n i, Read.val_main_v44 (F := Ideal) x0 x1 x2 x3 x4 x7 x8 (ix3 b n i) = tφ b n i)
    (b : Fin 128) (m : Fin 4) (i : Fin 256) :
    Read.val_main_v50 (F := Ideal) x0 x1 x2 x3 x4 x7 x8 x13 (ix3 b m i) = withReg tφ x13 b m i := by
  unfold Read.val_main_v50 withReg
  by_cases h : m.val < 3
  · rw [dif_pos h]
    refine (concatenate_pair_apply_left 1 _ _ concatenates_S128x3x256_S128x1x256_S128x4x256_d1 (ix3 b m i) rfl
      (ix3 b ⟨m.val, h⟩ i) (fun c => ?_)).trans (h44 b ⟨m.val, h⟩ i)
    match c with
    | ⟨0, _⟩ => rfl
    | ⟨1, _⟩ => rfl
    | ⟨2, _⟩ => rfl
  · rw [dif_neg h]
    refine (concatenate_pair_apply_right 1 _ _ concatenates_S128x3x256_S128x1x256_S128x4x256_d1 (ix3 b m i) rfl rfl
      (ix3 b (0 : Fin 1) i) (fun c hc => ?_) ?_).trans ?_
    · match c with
      | ⟨0, _⟩ => rfl
      | ⟨1, _⟩ => exact absurd rfl hc
      | ⟨2, _⟩ => rfl
    · have := m.isLt
      show 0 + 3 = m.val
      omega
    · rw [Read.val_main_v49_apply]; exact reg_row x13 b i

/-- The same for the values. -/
theorem v52_at (tμ : Tok3)
    (h48 : ∀ b n i, Read.val_main_v48 (F := Ideal) x0 x1 x2 x3 x4 x9 x10 (ix3 b n i) = tμ b n i)
    (b : Fin 128) (m : Fin 4) (i : Fin 256) :
    Read.val_main_v52 (F := Ideal) x0 x1 x2 x3 x4 x9 x10 x14 (ix3 b m i) = withReg tμ x14 b m i := by
  unfold Read.val_main_v52 withReg
  by_cases h : m.val < 3
  · rw [dif_pos h]
    refine (concatenate_pair_apply_left 1 _ _ concatenates_S128x3x256_S128x1x256_S128x4x256_d1 (ix3 b m i) rfl
      (ix3 b ⟨m.val, h⟩ i) (fun c => ?_)).trans (h48 b ⟨m.val, h⟩ i)
    match c with
    | ⟨0, _⟩ => rfl
    | ⟨1, _⟩ => rfl
    | ⟨2, _⟩ => rfl
  · rw [dif_neg h]
    refine (concatenate_pair_apply_right 1 _ _ concatenates_S128x3x256_S128x1x256_S128x4x256_d1 (ix3 b m i) rfl rfl
      (ix3 b (0 : Fin 1) i) (fun c hc => ?_) ?_).trans ?_
    · match c with
      | ⟨0, _⟩ => rfl
      | ⟨1, _⟩ => exact absurd rfl hc
      | ⟨2, _⟩ => rfl
    · have := m.isLt
      show 0 + 3 = m.val
      omega
    · rw [Read.val_main_v51_apply]; exact reg_row x14 b i

/-! ## Heads: 256 features read as 4 × 64, the head axis moved in front of the token axis -/

/-- Entry (b, h, n, e) of the head-major query array is entry (b, n, 64 h + e) of the token-major one. -/
theorem split3 (b : Fin 128) (h : Fin 4) (n : Fin 3) (e : Fin 64) :
    Read.idx_main_v53 (Read.idx_main_v54 (ix4 b h n e)) = ix3 b n (hd h e) := by
  have hb := b.isLt; have hh := h.isLt; have hn := n.isLt; have he := e.isLt
  funext a; apply Fin.ext
  match a with
  | ⟨0, _⟩ => show (((b.val * 3 + n.val) * 4 + h.val) * 64 + e.val) / 768 = b.val; omega
  | ⟨1, _⟩ => show (((b.val * 3 + n.val) * 4 + h.val) * 64 + e.val) / 256 % 3 = n.val; omega
  | ⟨2, _⟩ => show (((b.val * 3 + n.val) * 4 + h.val) * 64 + e.val) % 256 = 64 * h.val + e.val; omega

/-- The same for the four-row key and value arrays. -/
theorem split4 (b : Fin 128) (h : Fin 4) (m : Fin 4) (e : Fin 64) :
    Read.idx_main_v57 (Read.idx_main_v58 (ix4 b h m e)) = ix3 b m (hd h e) := by
  have hb := b.isLt; have hh := h.isLt; have hm := m.isLt; have he := e.isLt
  funext a; apply Fin.ext
  match a with
  | ⟨0, _⟩ => show (((b.val * 4 + m.val) * 4 + h.val) * 64 + e.val) / 1024 = b.val; omega
  | ⟨1, _⟩ => show (((b.val * 4 + m.val) * 4 + h.val) * 64 + e.val) / 256 % 4 = m.val; omega
  | ⟨2, _⟩ => show (((b.val * 4 + m.val) * 4 + h.val) * 64 + e.val) % 256 = 64 * h.val + e.val; omega

/-- The scaled query of head h, token n, feature e. -/
theorem v56_at (θ : Tok3)
    (h40 : ∀ b n i, Read.val_main_v40 (F := Ideal) x0 x1 x2 x3 x4 x5 x6 (ix3 b n i) = θ b n i)
    (b : Fin 128) (h : Fin 4) (n : Fin 3) (e : Fin 64) :
    Read.val_main_v56 (F := Ideal) x0 x1 x2 x3 x4 x5 x6 (ix4 b h n e) = θ b n (hd h e) * cScale := by
  rw [Read.val_main_v56_apply, Read.val_main_v54_apply, Read.val_main_v53_apply, Read.val_main_v55_apply,
    Read.val_main_cst_10_apply, split3, h40]
  rfl

/-- The key of head h, row m, feature e. -/
theorem v58_at (tφ : Tok3)
    (h44 : ∀ b n i, Read.val_main_v44 (F := Ideal) x0 x1 x2 x3 x4 x7 x8 (ix3 b n i) = tφ b n i)
    (b : Fin 128) (h : Fin 4) (m : Fin 4) (e : Fin 64) :
    Read.val_main_v58 (F := Ideal) x0 x1 x2 x3 x4 x7 x8 x13 (ix4 b h m e) = withReg tφ x13 b m (hd h e) := by
  rw [Read.val_main_v58_apply, Read.val_main_v57_apply, split4]
  exact v50_at x0 x1 x2 x3 x4 x7 x8 x13 tφ h44 b m (hd h e)

/-- The value of head h, row m, feature e. -/
theorem v60_at (tμ : Tok3)
    (h48 : ∀ b n i, Read.val_main_v48 (F := Ideal) x0 x1 x2 x3 x4 x9 x10 (ix3 b n i) = tμ b n i)
    (b : Fin 128) (h : Fin 4) (m : Fin 4) (e : Fin 64) :
    Read.val_main_v60 (F := Ideal) x0 x1 x2 x3 x4 x9 x10 x14 (ix4 b h m e) = withReg tμ x14 b m (hd h e) := by
  rw [Read.val_main_v60_apply, Read.val_main_v59_apply]
  exact (congrArg _ (split4 b h m e)).trans (v52_at x0 x1 x2 x3 x4 x9 x10 x14 tμ h48 b m (hd h e))

/-! ## Logits -/

/-- The logit of query n against key m in head h. -/
theorem v61_at (θ tφ : Tok3)
    (h40 : ∀ b n i, Read.val_main_v40 (F := Ideal) x0 x1 x2 x3 x4 x5 x6 (ix3 b n i) = θ b n i)
    (h44 : ∀ b n i, Read.val_main_v44 (F := Ideal) x0 x1 x2 x3 x4 x7 x8 (ix3 b n i) = tφ b n i)
    (b : Fin 128) (h : Fin 4) (n : Fin 3) (m : Fin 4) :
    Read.val_main_v61 (F := Ideal) x0 x1 x2 x3 x4 x5 x6 x7 x8 x13 (ix4 b h n m)
      = gram θ (withReg tφ x13) b h n m := by
  rw [Read.val_main_v61_apply]
  unfold gram
  refine Finset.sum_congr rfl fun k _ => ?_
  have el : Read.lidx_main_v61 (ix4 b h n m) k = ix4 b h n k :=
    funext fun a => Fin.ext (by match a with | ⟨0, _⟩ => rfl | ⟨1, _⟩ => rfl | ⟨2, _⟩ => rfl | ⟨3, _⟩ => rfl)
  have er : Read.ridx_main_v61 (ix4 b h n m) k = ix4 b h m k :=
    funext fun a => Fin.ext (by match a with | ⟨0, _⟩ => rfl | ⟨1, _⟩ => rfl | ⟨2, _⟩ => rfl | ⟨3, _⟩ => rfl)
  rw [el, er, v56_at x0 x1 x2 x3 x4 x5 x6 θ h40, v58_at x0 x1 x2 x3 x4 x7 x8 x13 tφ h44]

/-! ## The running maximum, the shifted exponentials, their sum, the weights -/

/-- A fold of the maximum over four values from −∞ is their left-nested maximum. -/
theorem fold_max_four (g : Fin 4 → EReal) :
    (Finset.univ : Finset (Fin 4)).fold max ⊥ g = max (max (max (g 0) (g 1)) (g 2)) (g 3) := by
  have hu : (Finset.univ : Finset (Fin 4)) = insert 0 (insert 1 (insert 2 {3})) := by decide
  rw [hu, Finset.fold_insert (by decide), Finset.fold_insert (by decide), Finset.fold_insert (by decide),
    Finset.fold_singleton, max_bot_right, ← max_assoc, ← max_assoc]

/-- The index (b, h, n) of the reduced array with the key coordinate k put back is (b, h, n, k). -/
theorem lift_key (hr : S128x4x3x4.Reduces [3] S128x4x3) (b : Fin 128) (h : Fin 4) (n : Fin 3)
    (k : Fin (S128x4x3x4.size 3)) : hr.lift (ix3 b h n) k = ix4 b h n (⟨k.val, k.isLt⟩ : Fin 4) := by
  funext c; apply Fin.ext
  fin_cases c <;> rfl

/-- The reduction by maximum over the key axis, seeded with −∞, at (b, h, n): the left-nested maximum of the four. -/
theorem hostMax_at (y : (⟨S128x4x3x4, .f32⟩ : BufTy).Contents (Elt Ideal)) (b : Fin 128) (h : Fin 4) (n : Fin 3) :
    (Host.reduce (FloatOps.maximumf (F := Ideal) (φ := .f32)) y (Read.val_main_cst_11 (F := Ideal)) reducesTo_S128x4x3x4_S128x4x3_d3 h_S_
        : (⟨S128x4x3, .f32⟩ : BufTy).Contents (Elt Ideal)) (ix3 b h n)
      = max (max (max (y (ix4 b h n 0)) (y (ix4 b h n 1))) (y (ix4 b h n 2))) (y (ix4 b h n 3)) := by
  have hr : S128x4x3x4.Reduces [3] S128x4x3 := by decide
  rw [Host.reduce_eq_fold_single (FloatOps.maximumf (F := Ideal) (φ := .f32)) y _ reducesTo_S128x4x3x4_S128x4x3_d3 hr h_S_]
  have hinit : Read.val_main_cst_11 (F := Ideal) (Shape.Idx.first h_S_) = ⊥ := Consts.ofBits_neg_inf
  rw [hinit]
  have hf : (y ∘ hr.lift (ix3 b h n)) = fun k : Fin 4 => y (ix4 b h n k) :=
    funext fun k => congrArg y (lift_key hr b h n k)
  refine Eq.trans ?_ (fold_max_four fun k : Fin 4 => y (ix4 b h n k))
  exact congrArg (fun f => Finset.fold max (⊥ : EReal) f (Finset.univ : Finset (Fin 4))) hf

section Softmax

variable (θ tφ : Tok3)
  (h40 : ∀ b n i, Read.val_main_v40 (F := Ideal) x0 x1 x2 x3 x4 x5 x6 (ix3 b n i) = θ b n i)
  (h44 : ∀ b n i, Read.val_main_v44 (F := Ideal) x0 x1 x2 x3 x4 x7 x8 (ix3 b n i) = tφ b n i)
include h40 h44

/-- The largest of the four logits (the reduction's result, then once more against −∞). -/
theorem v64_at (b : Fin 128) (h : Fin 4) (n : Fin 3) :
    Read.val_main_v64 (F := Ideal) x0 x1 x2 x3 x4 x5 x6 x7 x8 x13 (ix3 b h n) = gmax θ (withReg tφ x13) b h n := by
  rw [Read.val_main_v64_apply, Read.val_main_v63_apply, Read.val_main_cst_12_apply]
  unfold Read.val_main_v62
  rw [hostMax_at]
  simp only [v61_at x0 x1 x2 x3 x4 x5 x6 x7 x8 x13 θ tφ h40 h44]
  rw [Ideal.maximumf_def, Ideal.ofBits_def, Consts.ofBits_neg_inf, max_bot_left]
  rfl

/-- The maximum, repeated along the key axis. -/
theorem v66_at (b : Fin 128) (h : Fin 4) (n : Fin 3) (m : Fin 4) :
    Read.val_main_v66 (F := Ideal) x0 x1 x2 x3 x4 x5 x6 x7 x8 x13 (ix4 b h n m) = gmax θ (withReg tφ x13) b h n := by
  rw [Read.val_main_v66_apply, Read.val_main_v65_apply]
  have e : Read.idx_main_v65 (Read.idx_main_v66 (ix4 b h n m)) = ix3 b h n :=
    funext fun a => Fin.ext (by match a with | ⟨0, _⟩ => rfl | ⟨1, _⟩ => rfl | ⟨2, _⟩ => rfl)
  rw [e]
  exact v64_at x0 x1 x2 x3 x4 x5 x6 x7 x8 x13 θ tφ h40 h44 b h n

/-- The exponential of a logit minus the maximum. -/
theorem v68_at (b : Fin 128) (h : Fin 4) (n : Fin 3) (m : Fin 4) :
    Read.val_main_v68 (F := Ideal) x0 x1 x2 x3 x4 x5 x6 x7 x8 x13 (ix4 b h n m) = ex θ (withReg tφ x13) b h n m := by
  rw [Read.val_main_v68_apply, Read.val_main_v67_apply, v61_at x0 x1 x2 x3 x4 x5 x6 x7 x8 x13 θ tφ h40 h44,
    v66_at x0 x1 x2 x3 x4 x5 x6 x7 x8 x13 θ tφ h40 h44, Ideal.hostUnary_exp_def, Ideal.subf_def]
  rfl

/-- The four exponentials' sum (the seed of the sum is zero). -/
theorem v69_at (b : Fin 128) (h : Fin 4) (n : Fin 3) :
    Read.val_main_v69 (F := Ideal) x0 x1 x2 x3 x4 x5 x6 x7 x8 x13 (ix3 b h n) = esum θ (withReg tφ x13) b h n := by
  rw [Read.val_main_v69_apply, Read.val_main_cst_13_apply, Ideal.ofBits_def, Consts.ofBits_zero, zero_add]
  unfold esum
  refine Finset.sum_congr rfl fun k _ => ?_
  have e : Read.idx_main_v69 (ix3 b h n) k = ix4 b h n k :=
    funext fun a => Fin.ext (by match a with | ⟨0, _⟩ => rfl | ⟨1, _⟩ => rfl | ⟨2, _⟩ => rfl | ⟨3, _⟩ => rfl)
  rw [e]
  exact v68_at x0 x1 x2 x3 x4 x5 x6 x7 x8 x13 θ tφ h40 h44 b h n k

/-- The attention weight: an exponential over the sum. -/
theorem v72_at (b : Fin 128) (h : Fin 4) (n : Fin 3) (m : Fin 4) :
    Read.val_main_v72 (F := Ideal) x0 x1 x2 x3 x4 x5 x6 x7 x8 x13 (ix4 b h n m)
      = prob normDiv θ (withReg tφ x13) b h n m := by
  rw [Read.val_main_v72_apply, Read.val_main_v71_apply, Read.val_main_v70_apply]
  have e : Read.idx_main_v70 (Read.idx_main_v71 (ix4 b h n m)) = ix3 b h n :=
    funext fun a => Fin.ext (by match a with | ⟨0, _⟩ => rfl | ⟨1, _⟩ => rfl | ⟨2, _⟩ => rfl)
  rw [e, v68_at x0 x1 x2 x3 x4 x5 x6 x7 x8 x13 θ tφ h40 h44, v69_at x0 x1 x2 x3 x4 x5 x6 x7 x8 x13 θ tφ h40 h44,
    Ideal.hostDivf_def]
  rfl

end Softmax

/-! ## Weights applied to the values; the heads side by side again -/

/-- Feature i of the token-major array sits in head i / 64 at position i % 64. -/
theorem join3 (b : Fin 128) (n : Fin 3) (i : Fin 256) :
    Read.idx_main_v74 (Read.idx_main_v75 (ix3 b n i))
      = ix4 b (headOf i) n (⟨i.val % 64, Nat.mod_lt _ (by decide)⟩ : Fin 64) := by
  have hb := b.isLt; have hn := n.isLt; have hi := i.isLt
  funext a; apply Fin.ext
  match a with
  | ⟨0, _⟩ => show ((b.val * 3 + n.val) * 256 + i.val) / 768 = b.val; omega
  | ⟨1, _⟩ => show ((b.val * 3 + n.val) * 256 + i.val) / 64 % 4 = i.val / 64; omega
  | ⟨2, _⟩ => show ((b.val * 3 + n.val) * 256 + i.val) / 256 % 3 = n.val; omega
  | ⟨3, _⟩ => show ((b.val * 3 + n.val) * 256 + i.val) % 64 = i.val % 64; omega

/-- A feature is the one its head and its position in the head name. -/
theorem hd_headOf (i : Fin 256) : hd (headOf i) (⟨i.val % 64, Nat.mod_lt _ (by decide)⟩ : Fin 64) = i := by
  apply Fin.ext
  show 64 * (i.val / 64) + i.val % 64 = i.val
  omega

section Attend

variable (θ tφ tμ : Tok3)
  (h40 : ∀ b n i, Read.val_main_v40 (F := Ideal) x0 x1 x2 x3 x4 x5 x6 (ix3 b n i) = θ b n i)
  (h44 : ∀ b n i, Read.val_main_v44 (F := Ideal) x0 x1 x2 x3 x4 x7 x8 (ix3 b n i) = tφ b n i)
  (h48 : ∀ b n i, Read.val_main_v48 (F := Ideal) x0 x1 x2 x3 x4 x9 x10 (ix3 b n i) = tμ b n i)
include h40 h44 h48

/-- Head h's attended value for token n, feature e: the four weights against the four value rows. -/
theorem v73_at (b : Fin 128) (h : Fin 4) (n : Fin 3) (e : Fin 64) :
    Read.val_main_v73 (F := Ideal) x0 x1 x2 x3 x4 x5 x6 x7 x8 x9 x10 x13 x14 (ix4 b h n e)
      = ∑ m : Fin 4, prob normDiv θ (withReg tφ x13) b h n m * withReg tμ x14 b m (hd h e) := by
  rw [Read.val_main_v73_apply]
  refine Finset.sum_congr rfl fun k _ => ?_
  have el : Read.lidx_main_v73 (ix4 b h n e) k = ix4 b h n k :=
    funext fun a => Fin.ext (by match a with | ⟨0, _⟩ => rfl | ⟨1, _⟩ => rfl | ⟨2, _⟩ => rfl | ⟨3, _⟩ => rfl)
  have er : Read.ridx_main_v73 (ix4 b h n e) k = ix4 b h k e :=
    funext fun a => Fin.ext (by match a with | ⟨0, _⟩ => rfl | ⟨1, _⟩ => rfl | ⟨2, _⟩ => rfl | ⟨3, _⟩ => rfl)
  rw [el, er, v72_at x0 x1 x2 x3 x4 x5 x6 x7 x8 x13 θ tφ h40 h44, v60_at x0 x1 x2 x3 x4 x9 x10 x14 tμ h48]

/-- The attended values, heads side by side. -/
theorem v75_at (b : Fin 128) (n : Fin 3) (i : Fin 256) :
    Read.val_main_v75 (F := Ideal) x0 x1 x2 x3 x4 x5 x6 x7 x8 x9 x10 x13 x14 (ix3 b n i)
      = att normDiv θ (withReg tφ x13) (withReg tμ x14) b n i := by
  rw [Read.val_main_v75_apply, Read.val_main_v74_apply, join3,
    v73_at x0 x1 x2 x3 x4 x5 x6 x7 x8 x9 x10 x13 x14 θ tφ tμ h40 h44 h48, hd_headOf]
  rfl

end Attend

/-! ## The two results -/

/-- FIRST RESULT: the attended values projected once more, plus bias, plus the pooled tokens. -/
theorem v80_eq (x0 x1 x2 : (⟨S128x4096x256, .f32⟩ : BufTy).Contents (Elt Ideal))
    (x3 x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (x9 : (⟨S256x256, .f32⟩ : BufTy).Contents (Elt Ideal)) (x10 : (⟨S256, .f32⟩ : BufTy).Contents (Elt Ideal))
    (x11 : (⟨S256x256, .f32⟩ : BufTy).Contents (Elt Ideal)) (x12 : (⟨S256, .f32⟩ : BufTy).Contents (Elt Ideal))
    (x13 x14 : (⟨S1x1x256, .f32⟩ : BufTy).Contents (Elt Ideal))
    (f : Cert.Spec.A3 128 3 256) (θ tφ tμ : Cert.Spec.Tok3)
    (h12 : Read.val_main_v12 (F := Ideal) x0 x1 x2 = f)
    (h40 : ∀ b n i, Read.val_main_v40 (F := Ideal) x0 x1 x2 x3 x4 x5 x6 (ix3 b n i) = θ b n i)
    (h44 : ∀ b n i, Read.val_main_v44 (F := Ideal) x0 x1 x2 x3 x4 x7 x8 (ix3 b n i) = tφ b n i)
    (h48 : ∀ b n i, Read.val_main_v48 (F := Ideal) x0 x1 x2 x3 x4 x9 x10 (ix3 b n i) = tμ b n i) :
    Read.val_main_v80 (F := Ideal) x0 x1 x2 x3 x4 x5 x6 x7 x8 x9 x10 x11 x12 x13 x14
      = Cert.Spec.outOf (Cert.Spec.att Cert.Spec.normDiv θ (Cert.Spec.withReg tφ x13) (Cert.Spec.withReg tμ x14))
          x11 x12 f := by
  funext j
  obtain ⟨b, n, d, rfl⟩ : ∃ (b : Fin 128) (n : Fin 3) (d : Fin 256), j = ix3 b n d := ⟨j 0, j 1, j 2, eq_ix3 j⟩
  rw [Read.val_main_v80_apply, Read.val_main_v79_apply, Read.val_main_v76_apply, Read.val_main_v78_apply,
    Read.val_main_v77_apply, h12, Ideal.addf_def, Ideal.addf_def]
  have eb : Read.idx_main_v77 (Read.idx_main_v78 (ix3 b n d)) = ix1 d :=
    funext fun a => Fin.ext (by match a with | ⟨0, _⟩ => rfl)
  rw [eb]
  show _ = ((∑ i : Fin 256, att normDiv θ (withReg tφ x13) (withReg tμ x14) b n i * x11 (ix2 d i)) + x12 (ix1 d))
    + f (ix3 b n d)
  refine congrArg (· + f (ix3 b n d)) (congrArg (· + x12 (ix1 d)) (Finset.sum_congr rfl fun k _ => ?_))
  have el : Read.lidx_main_v76 (ix3 b n d) k = ix3 b n k :=
    funext fun a => Fin.ext (by match a with | ⟨0, _⟩ => rfl | ⟨1, _⟩ => rfl | ⟨2, _⟩ => rfl)
  have er : Read.ridx_main_v76 (ix3 b n d) k = ix2 d k :=
    funext fun a => Fin.ext (by match a with | ⟨0, _⟩ => rfl | ⟨1, _⟩ => rfl)
  rw [el, er, v75_at x0 x1 x2 x3 x4 x5 x6 x7 x8 x9 x10 x13 x14 θ tφ tμ h40 h44 h48]

/-- SECOND RESULT: the weights averaged over the four heads. -/
theorem v83_eq (x0 x1 x2 : (⟨S128x4096x256, .f32⟩ : BufTy).Contents (Elt Ideal))
    (x3 x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (x13 : (⟨S1x1x256, .f32⟩ : BufTy).Contents (Elt Ideal))
    (θ tφ : Cert.Spec.Tok3)
    (h40 : ∀ b n i, Read.val_main_v40 (F := Ideal) x0 x1 x2 x3 x4 x5 x6 (ix3 b n i) = θ b n i)
    (h44 : ∀ b n i, Read.val_main_v44 (F := Ideal) x0 x1 x2 x3 x4 x7 x8 (ix3 b n i) = tφ b n i) :
    Read.val_main_v83 (F := Ideal) x0 x1 x2 x3 x4 x5 x6 x7 x8 x13
      = Cert.Spec.matchMean Cert.Spec.normDiv θ (Cert.Spec.withReg tφ x13) := by
  funext j
  obtain ⟨b, n, m, rfl⟩ : ∃ (b : Fin 128) (n : Fin 3) (m : Fin 4), j = ix3 b n m := ⟨j 0, j 1, j 2, eq_ix3 j⟩
  rw [Read.val_main_v83_apply, Read.val_main_v81_apply, Read.val_main_v82_apply, Read.val_main_cst_15_apply,
    Read.val_main_cst_14_apply, Ideal.hostDivf_def, Ideal.ofBits_def, Ideal.ofBits_def, Consts.ofBits_zero, zero_add]
  show _ = Ideal.div (∑ h : Fin 4, prob normDiv θ (withReg tφ x13) b h n m) cHeads
  refine congrArg (Ideal.div · cHeads) (Finset.sum_congr rfl fun k _ => ?_)
  have e : Read.idx_main_v81 (ix3 b n m) k = ix4 b k n m :=
    funext fun a => Fin.ext (by match a with | ⟨0, _⟩ => rfl | ⟨1, _⟩ => rfl | ⟨2, _⟩ => rfl | ⟨3, _⟩ => rfl)
  rw [e, v72_at x0 x1 x2 x3 x4 x5 x6 x7 x8 x13 θ tφ h40 h44]

end Cert.ReferenceIdeal.RefValue

end
-- ==== Proof.RefValue.lean ====
/- The reference program's two results as the specification's, from its launch memory: its pooled tokens are the
   specification's (quotient form), its layer norm and three projections the specification's, and from there the
   register rows, the heads, the logits, the soft maximum with the normalisation `e / s`, the attended values, the
   output projection and the residual are the specification's attention and output, stage by stage. -/
import proofs.«428392_j60172491817603_3_alg».proof.Proof.Gen.ReferenceIdeal.Read
import proofs.«428392_j60172491817603_3_alg».proof.Proof.RefFront
import proofs.«428392_j60172491817603_3_alg».proof.Proof.RefBack

noncomputable section

namespace Cert.ReferenceIdeal.RefValue

open Cert.ReferenceIdeal Cert.ReferenceIdeal.Gen
open Idealize.ShloMosaic Idealize.ShloMosaic.TcCoe Idealize.ShloMosaic.ValueIdx Idealize.SL.Sem

variable (m : (ℓ : Loc nD τ sig) → Buf (Elt Ideal) ℓ)

/-- The pooled tokens of the launch arrays. -/
def feaOf (c : Dev nD) : Cert.Spec.A3 128 3 256 :=
  Cert.Spec.fea (m ((c.tc : Thread nD τ).loc main_arg0)) (m ((c.tc : Thread nD τ).loc main_arg1)) (m ((c.tc : Thread nD τ).loc main_arg2))

/-- The parameters as launched. -/
def paramsOf (c : Dev nD) : Cert.Spec.Params :=
  ⟨(m ((c.tc : Thread nD τ).loc main_arg3)), (m ((c.tc : Thread nD τ).loc main_arg4)), (m ((c.tc : Thread nD τ).loc main_arg5)), (m ((c.tc : Thread nD τ).loc main_arg6)), (m ((c.tc : Thread nD τ).loc main_arg7)), (m ((c.tc : Thread nD τ).loc main_arg8)),
   (m ((c.tc : Thread nD τ).loc main_arg9)), (m ((c.tc : Thread nD τ).loc main_arg10)), (m ((c.tc : Thread nD τ).loc main_arg11)), (m ((c.tc : Thread nD τ).loc main_arg12)), (m ((c.tc : Thread nD τ).loc main_arg13)), (m ((c.tc : Thread nD τ).loc main_arg14))⟩

/-- FIRST RESULT of the reference's run. -/
theorem res80_spec (c : Dev nD) :
    Cert.ReferenceIdeal.Value.res_main_v80 m c = Cert.Spec.out Cert.Spec.normDiv (feaOf m c) (paramsOf m c) := by
  rw [Cert.ReferenceIdeal.Read.val_main_v80_eq]
  exact v80_eq _ _ _ _ _ _ _ _ _ _ _ _ _ _ _ _ _ _ _ (v12_eq _ _ _)
    (fun b n i => v40_apply _ _ _ _ _ _ _ b n i) (fun b n i => v44_apply _ _ _ _ _ _ _ b n i)
    (fun b n i => v48_apply _ _ _ _ _ _ _ b n i)

/-- SECOND RESULT of the reference's run. -/
theorem res83_spec (c : Dev nD) :
    Cert.ReferenceIdeal.Value.res_main_v83 m c = Cert.Spec.matchOut Cert.Spec.normDiv (feaOf m c) (paramsOf m c) := by
  rw [Cert.ReferenceIdeal.Read.val_main_v83_eq]
  exact v83_eq _ _ _ _ _ _ _ _ _ _ _ _
    (fun b n i => v40_apply _ _ _ _ _ _ _ b n i) (fun b n i => v44_apply _ _ _ _ _ _ _ b n i)

end Cert.ReferenceIdeal.RefValue

end
-- ==== Proof.lean ====
/- The certificate's five claims.

   Both word-level and idealized kernel programs terminate with their arguments unchanged: two pipelined regions
   with a stretch of host re-layouts between them. The reference terminates with its arguments unchanged: a
   straight line of host operations. The idealization changes nothing (no rewrite was applied). And at the extended
   reals the idealized kernel and the reference, run from memories that agree on the fifteen arguments, end with equal
   results: both results are the specification's (pooled means; layer norm; three projections; a register key and
   value; four heads of softmax attention of three queries over four keys; output projection plus residual; the
   attention weights averaged over heads). The kernel pools by a product with 2⁻¹² where the reference divides by
   4096, and normalises an exponential by a product with the reciprocal of the sum where the reference divides by the
   sum; the first two agree on every extended real, the last two wherever the sum is not zero, which the finite-inputs
   precondition gives: every logit is then a real, so the largest one's exponential is 1 and the sum is positive. -/
import proofs.«428392_j60172491817603_3_alg».proof.Defs
import proofs.«428392_j60172491817603_3_alg».proof.Proof.Gen.Kernel
import proofs.«428392_j60172491817603_3_alg».proof.Proof.Gen.Kernel.Frame
import proofs.«428392_j60172491817603_3_alg».proof.Proof.Gen.KernelIdeal
import proofs.«428392_j60172491817603_3_alg».proof.Proof.Gen.KernelIdeal.Frame
import proofs.«428392_j60172491817603_3_alg».proof.Proof.Gen.ReferenceIdeal
import proofs.«428392_j60172491817603_3_alg».proof.Proof.Gen.Pre_finite_inputs
import proofs.«428392_j60172491817603_3_alg».proof.Proof.Gen.ReferenceIdeal.Run
import proofs.«428392_j60172491817603_3_alg».proof.Proof.Gen.ReferenceIdeal.Read
import proofs.«428392_j60172491817603_3_alg».proof.Proof.KRun
import proofs.«428392_j60172491817603_3_alg».proof.Proof.KernelValue
import proofs.«428392_j60172491817603_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two launch memories agree on the fifteen arguments, so the specification's results of one are those of the other. -/
theorem agree_out {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (c : Dev Cert.ReferenceIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.RefValue.feaOf m' c = Cert.KernelIdeal.Named.feaOf m c
    ∧ Cert.ReferenceIdeal.RefValue.paramsOf m' c = Cert.KernelIdeal.Named.paramsOf m c := by
  unfold Cert.ReferenceIdeal.RefValue.feaOf Cert.ReferenceIdeal.RefValue.paramsOf Cert.KernelIdeal.Named.feaOf Cert.KernelIdeal.Named.paramsOf
  rw [a0, a1, a2, a3, a4, a5, a6, a7, a8, a9, a10, a11, a12, a13, a14]
  exact ⟨rfl, rfl⟩

set_option maxHeartbeats 1000000 in
/-- Both runs end with the specification's two results of their own launch arrays; the launch arrays agree. -/
theorem algebraic : Cert.algebraic_KernelIdeal_ReferenceIdeal := by
  intro m ρ m' ρ' hpre hagree
  refine ⟨fun c => Cert.Spec.out Cert.Spec.normDiv (Cert.KernelIdeal.Named.feaOf m c) (Cert.KernelIdeal.Named.paramsOf m c),
    fun c => Cert.Spec.matchOut Cert.Spec.normDiv (Cert.KernelIdeal.Named.feaOf m c) (Cert.KernelIdeal.Named.paramsOf m c), ?_, ?_⟩
  · refine (θ_run Cert.KernelIdeal.defs _ _).mono (fun r h c => ?_) (Cert.KernelIdeal.Named.run_named (F := Ideal) m ρ)
    exact ⟨(h c).1.trans (Cert.KernelIdeal.Named.W3_out0_spec m ρ hpre c),
      (h c).2.1.trans (Cert.KernelIdeal.Named.W3_out1_spec m ρ hpre c), (h c).2.2⟩
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13, a14⟩ := hagree c
    obtain ⟨ef, ep⟩ := agree_out (m := m) (m' := m') c a0 a1 a2 a3 a4 a5 a6 a7 a8 a9 a10 a11 a12 a13 a14
    exact ⟨(h c).1.trans ((Cert.ReferenceIdeal.RefValue.res80_spec m' c).trans (by rw [ef, ep])),
      (h c).2.1.trans ((Cert.ReferenceIdeal.RefValue.res83_spec m' c).trans (by rw [ef, ep])), (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
